-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x2 : Shape := ⟨2, ![8192, 2]⟩
abbrev S4096x2 : Shape := ⟨2, ![4096, 2]⟩
abbrev S8192x256 : Shape := ⟨2, ![8192, 256]⟩
abbrev S1024 : Shape := ⟨1, ![1024]⟩
abbrev S256x256 : Shape := ⟨2, ![256, 256]⟩
abbrev S256 : Shape := ⟨1, ![256]⟩
abbrev S768x256 : Shape := ⟨2, ![768, 256]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8192x256 : S_.BroadcastsInDim S8192x256 (![] : Fin 0 → Fin S8192x256.rank)
  reducesTo_S8192x256_S_d0_1 : S8192x256.ReducesTo [0, 1] S_
  bcast_S_S1024 : S_.BroadcastsInDim S1024 (![] : Fin 0 → Fin S1024.rank)
  reducesTo_S1024_S_d0 : S1024.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_

variable [Facts]

def fn_part2 {F : FTy → Type} [FloatOps F] (main_arg8 : FVec F S256 .f32) (main_arg9 : FVec F S768x256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x256 .f32 := Host.absf main_arg9
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256 .f32) (main_arg9 : FVec F S768x256 .f32) (main_arg10 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S8192 .f32) (main_arg1 : IVec S8192x2 32) (main_arg2 : FVec F S4096x2 .f32) (main_arg3 : FVec F S8192x256 .f32) (main_arg4 : FVec F S1024 .f32) (main_arg5 : FVec F S256x256 .f32) (main_arg6 : FVec F S256 .f32) (main_arg7 : FVec F S256x256 .f32) (main_arg8 : FVec F S256 .f32) (main_arg9 : FVec F S768x256 .f32) (main_arg10 : FVec F S256 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S4096x2 .f32 := Host.absf main_arg2
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg8 main_arg9 main_arg10 main_v13 main_v16
-- ==== Kernel.lean ====
abbrev S8192 : Shape := ⟨1, ![8192]⟩
abbrev S8192x2 : Shape := ⟨2, ![8192, 2]⟩
abbrev S4096x2 : Shape := ⟨2, ![4096, 2]⟩
abbrev S8192x256 : Shape := ⟨2, ![8192, 256]⟩
abbrev S1024 : Shape := ⟨1, ![1024]⟩
abbrev S256x256 : Shape := ⟨2, ![256, 256]⟩
abbrev S256 : Shape := ⟨1, ![256]⟩
abbrev S768x256 : Shape := ⟨2, ![768, 256]⟩
abbrev S1024x256 : Shape := ⟨2, ![1024, 256]⟩
abbrev S1x256 : Shape := ⟨2, ![1, 256]⟩
abbrev S512x256 : Shape := ⟨2, ![512, 256]⟩
abbrev S512x1024 : Shape := ⟨2, ![512, 1024]⟩

abbrev nBuf : Space → Nat
  | .hbm => 16
  | .vmem => 36
  | .smem => 0
  | _ => 0

abbrev bufTy : (tb : Table) → Fin (tcTables nBuf tb) → BufTy
  | .hbm, ⟨0, _⟩ => ⟨S8192, .f32⟩
  | .hbm, ⟨1, _⟩ => ⟨S8192x2, .i32⟩
  | .hbm, ⟨2, _⟩ => ⟨S4096x2, .f32⟩
  | .hbm, ⟨3, _⟩ => ⟨S8192x256, .f32⟩
  | .hbm, ⟨4, _⟩ => ⟨S1024, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S768x256, .f32⟩
  | .hbm, ⟨10, _⟩ => ⟨S256, .f32⟩
  | .hbm, ⟨11, _⟩ => ⟨S8192x256, .bf16⟩
  | .hbm, ⟨12, _⟩ => ⟨S8192x256, .bf16⟩
  | .hbm, ⟨13, _⟩ => ⟨S8192x256, .f32⟩
  | .hbm, ⟨14, _⟩ => ⟨S8192x256, .f32⟩
  | .hbm, ⟨15, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S512x256, .bf16⟩
  | .local _ .vmem, ⟨11, _⟩ => ⟨S512x256, .bf16⟩
  | .local _ .vmem, ⟨12, _⟩ => ⟨S1024x256, .bf16⟩
  | .local _ .vmem, ⟨13, _⟩ => ⟨S1024x256, .bf16⟩
  | .local _ .vmem, ⟨14, _⟩ => ⟨S512x256, .bf16⟩
  | .local _ .vmem, ⟨15, _⟩ => ⟨S512x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .f32⟩
  | .local _ .vmem, ⟨19, _⟩ => ⟨S1024x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S768x256, .f32⟩
  | .local _ .vmem, ⟨33, _⟩ => ⟨S256, .f32⟩
  | .local _ .vmem, ⟨34, _⟩ => ⟨S1024x256, .f32⟩
  | .local _ .vmem, ⟨35, _⟩ => ⟨S1024x256, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1_0 : Ref sig .tc := ⟨.hbm, 13, rfl⟩
abbrev main_v1_1 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_23 : BitVec 32 := 0#32
  let v35 : BitVec 1 := Scalar.cmpi .ne v34 c0_i32_23
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S768x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S1024x256_S1024x256 : S1024x256.ShapeCasts S1024x256
  inb_S768x256_S768x256_0_0 : ∀ a, (![0, 0] : Fin 2 → Nat) a + S768x256.size a ≤ S768x256.size a
  h_S768x256 : 0 < S768x256.numel
  slices_S768x256_o0_0_S256x256 : S768x256.Slices ![0, 0] S256x256
  slices_S768x256_o256_0_S256x256 : S768x256.Slices ![256, 0] S256x256
  slices_S768x256_o512_0_S256x256 : S768x256.Slices ![512, 0] S256x256
  dot_S1024x256_S256x256_S1024x256_1_0_0_1_n_n_wf : DotDims.WF S1024x256 S256x256 S1024x256 [1] [0] [0] [1] [] []
  dot_S512x256_S1024x256_S512x1024_1_1_0_0_n_n_wf : DotDims.WF S512x256 S1024x256 S512x1024 [1] [1] [0] [0] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .bf16 = 32 ∨ (Rect.block (s := S8192x256) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .bf16 = 32 ∨ (Rect.block (s := S8192x256) S1024x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .bf16 = 32 ∨ (Rect.block (s := S8192x256) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x256.size a
  hwx1_2 : ∀ i : grid1.Coords, EltTy.bits .bf16 = 32 ∨ (Rect.block (s := S8192x256) S512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .bf16 = 32 ∨ (Rect.block (s := S8192x256) S1024x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S8192x256.size a
  hwx1_5 : ∀ i : grid1.Coords, EltTy.bits .f32 = 32 ∨ (Rect.block (s := S8192x256) S512x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S8192x256.size a
  hwx1_6 : ∀ i : grid1.Coords, EltTy.bits .f32 = 32 ∨ (Rect.block (s := S8192x256) S512x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768x256.size a ≤ S768x256.size a
  hwx2_3 : ∀ i : grid2.Coords, EltTy.bits .f32 = 32 ∨ (Rect.block (s := S768x256) S768x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S8192x256.size a
  hwx2_5 : ∀ i : grid2.Coords, EltTy.bits .f32 = 32 ∨ (Rect.block (s := S8192x256) S1024x256.size (cc2_transform_5 i) (hinb2_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg3) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1024x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_0) S512x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_1) S512x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_arg3) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S768x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192 : Shape := ⟨1, ![8192]⟩
abbrev S8192x2 : Shape := ⟨2, ![8192, 2]⟩
abbrev S4096x2 : Shape := ⟨2, ![4096, 2]⟩
abbrev S8192x256 : Shape := ⟨2, ![8192, 256]⟩
abbrev S1024 : Shape := ⟨1, ![1024]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S_ : Shape := ⟨0, ![]⟩
abbrev S256x8192 : Shape := ⟨2, ![256, 8192]⟩
abbrev S8192x8192 : Shape := ⟨2, ![8192, 8192]⟩
abbrev S8192x768 : Shape := ⟨2, ![8192, 768]⟩

abbrev nBuf : Space → Nat
  | .hbm => 45
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x2, .i32⟩
  | .hbm, ⟨2, _⟩ => ⟨S4096x2, .f32⟩
  | .hbm, ⟨3, _⟩ => ⟨S8192x256, .f32⟩
  | .hbm, ⟨4, _⟩ => ⟨S1024, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S768x256, .f32⟩
  | .hbm, ⟨10, _⟩ => ⟨S256, .f32⟩
  | .hbm, ⟨11, _⟩ => ⟨S8192x256, .f32⟩
  | .hbm, ⟨12, _⟩ => ⟨S1x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192x256, .f32⟩
  | .hbm, ⟨17, _⟩ => ⟨S8192x256, .f32⟩
  | .hbm, ⟨18, _⟩ => ⟨S256x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x256, .f32⟩
  | .hbm, ⟨24, _⟩ => ⟨S1x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S256x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x256, .f32⟩
  | .hbm, ⟨36, _⟩ => ⟨S8192x256, .f32⟩
  | .hbm, ⟨37, _⟩ => ⟨S8192x768, .f32⟩
  | .hbm, ⟨38, _⟩ => ⟨S8192x256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_cst : Ref sig .tc := ⟨.hbm, 42, rfl⟩
abbrev main_call2_v0 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S8192x256_S256x8192_1_0 : S8192x256.Transposes [1, 0] S256x8192
  bcast_S_S8192x8192 : S_.BroadcastsInDim S8192x8192 (![] : Fin 0 → Fin S8192x8192.rank)
  concatenates_S8192x256_S8192x256_S8192x256_S8192x768_d1 : Shape.Concatenates [S8192x256, S8192x256, S8192x256] S8192x768 1
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x768_S768x256_S8192x256_1_0_0_1_n_n_wf : DotDims.WF S8192x768 S768x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x768_S768x256_S8192x256_1_0_0_1_n_n : DotDims S8192x768 S768x256 S8192x256 where
  lhsContracting := [1]
  rhsContracting := [0]
  lhsNonContracting := [0]
  rhsNonContracting := [1]
  lhsBatch := []
  rhsBatch := []
  wf := dot_S8192x768_S768x256_S8192x256_1_0_0_1_n_n_wf

class Facts : Prop extends Facts₀ where

variable [Facts]
-- ==== Proof.KRegion0.lean ====
/-
  The first kernel region (the two linear blocks e₁ = max(x·W₁ + b₁, 0), e₂ = max(x·W₂ + b₂, 0), one 1024-row tile of x
  per grid point) at the buffer contents V the region is entered with: each window's block at a point, what the body
  leaves in each staging buffer, and the body's obligation to the pipeline.
-/
import proofs.«116829_j12214886990221_1_alg».proof.Proof.Gen.Kernel.Launch
import proofs.«116829_j12214886990221_1_alg».proof.Proof.Gen.Kernel.Skeleton
import proofs.«116829_j12214886990221_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the arrays as entered; after the body each input's buffer at its block, the two outputs'
    at the linear blocks of the point's tile of x. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t) (iblk0 V c 1 t) (iblk0 V c 2 t)
    | ⟨6, _⟩ => k0_pay3 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = k0_pay2 (iblk0 V c 0 t) (iblk0 V c 1 t) (iblk0 V c 2 t) := by dsimp only [dat0]
theorem after0_6 (c : Dev nD) (t : Fin cfg0.N) :
    (dat0 V c).after 6 t = k0_pay3 (iblk0 V c 0 t) (iblk0 V c 3 t) (iblk0 V c 4 t) := by dsimp only [dat0]

/-! ## The input windows' buffers hold their blocks at every point -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- The tile of x: moved at every point, and the body leaves it in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- W₁: fetched at the first point only; its block index never moves, so the buffer holds the block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- b₁, likewise. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- W₂, likewise. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- b₂, likewise. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body's accesses: every load and store is the whole buffer, the full-size rectangle at the origin -/

theorem zeros2 : (![0, 0] : Fin 2 → Nat) = fun _ => 0 := funext fun a => by fin_cases a <;> rfl
theorem zeros1 : (![0] : Fin 1 → Nat) = fun _ => 0 := funext fun a => by fin_cases a; rfl

abbrev rX : Rect S1024x256 := Rect.unit (s := S1024x256) ![0, 0] S1024x256.size inb_S1024x256_S1024x256_0_0
abbrev rW : Rect S256x256 := Rect.unit (s := S256x256) ![0, 0] S256x256.size inb_S256x256_S256x256_0_0
abbrev rB : Rect S256 := Rect.unit (s := S256) ![0] S256.size inb_S256_S256_0

/-- One store through the full-size rectangle covers the buffer. -/
theorem coverX (p0 : Vec F S1024x256 .bf16) (y : S1024x256.Idx) :
    ∃ pc ∈ ([⟨rX, p0⟩] : List (View.Piece (Elt F) S1024x256 .bf16)), y ∈ pc.1.set :=
  ⟨_, List.mem_singleton_self _, View.mem_set_unit_zero (S := S1024x256) zeros2 inb_S1024x256_S1024x256_0_0 y⟩

/-! ## The body's triple -/

set_option maxHeartbeats 1000000 in
/-- The body on whole staging memrefs, x's tile at x0, W₁ at x1, b₁ at x2, W₂ at x3, b₂ at x4 and the outputs' at
    anything, runs to the continuation holding the inputs' as they were, the first output's at the first linear
    block of (x0, x1, x2) and the second's at the second linear block of (x0, x3, x4). -/
theorem sound_kernel0 (c : Dev nD) (E : Set ℕ) (i : grid0.Coords)
    (arg1 : Memref sig .tc .vmem S1024x256 .f32) (harg1 : arg1.IsWhole)
    (arg2 : Memref sig .tc .vmem S256x256 .f32) (harg2 : arg2.IsWhole)
    (arg3 : Memref sig .tc .vmem S256 .f32) (harg3 : arg3.IsWhole)
    (arg4 : Memref sig .tc .vmem S256x256 .f32) (harg4 : arg4.IsWhole)
    (arg5 : Memref sig .tc .vmem S256 .f32) (harg5 : arg5.IsWhole)
    (arg6 : Memref sig .tc .vmem S1024x256 .bf16) (harg6 : arg6.IsWhole)
    (arg7 : Memref sig .tc .vmem S1024x256 .bf16) (harg7 : arg7.IsWhole)
    (x0 : Vec F S1024x256 .f32) (x1 : Vec F S256x256 .f32) (x2 : Vec F S256 .f32)
    (x3 : Vec F S256x256 .f32) (x4 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k0_pay2 x0 x1 x2)
            ∗ owns (c : Thread nD τ) arg7 fullShare (k0_pay3 x0 x3 x4)) -∗ K ⟨⟩))
      ⊢ wp frame (wpE (defs₀ (F := F)) Variants.none c none) E
          (cc0__dual_linear_kernel i arg1 harg1 arg2 harg2 arg3 harg3 arg4 harg4 arg5 harg5 arg6 harg6 arg7 harg7) K := by
  simp only [cc0__dual_linear_kernel_eq_skeleton]; unfold cc0__dual_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverX _),
      View.canon_unit_zero (S := S1024x256) zeros2 inb_S1024x256_S1024x256_0_0]
    simp only [View.readAt_eq_ld, View.ld_unit_zero (S := S1024x256) zeros2, View.ld_unit_zero (S := S256x256) zeros2,
      View.ld_unit_zero (S := S256) zeros1]
  iexists _; isplitr
  swap; · iexact H6
  ipureintro
  rw [View.read_writes_eq_canon _ _ _ (coverX _),
    View.canon_unit_zero (S := S1024x256) zeros2 inb_S1024x256_S1024x256_0_0]
  simp only [View.readAt_eq_ld, View.ld_unit_zero (S := S1024x256) zeros2, View.ld_unit_zero (S := S256x256) zeros2,
    View.ld_unit_zero (S := S256) zeros1]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Run.lean ====
/-
  The second kernel's body (one key step of the two similarity-weighted aggregates) as a triple, in each of the three
  cases of its two conditionals. The body keeps two accumulators. At the first key step of a row tile (j = 0) it
  restarts them from zero; at every step it adds the step's contribution: with e the row tile, e' the key tile of the
  linear block and x' the key tile of x, the first accumulator becomes acc + ((e·e'ᵀ)·(1/256))·x', the second likewise
  for the other linear block; at the last key step (j = 7) it also copies the accumulators into the two outputs.
  Elsewhere the outputs' buffers are left exactly as found.
-/
import proofs.«116829_j12214886990221_1_alg».proof.Proof.Gen.Kernel.Launch
import proofs.«116829_j12214886990221_1_alg».proof.Proof.Gen.Kernel.Skeleton
import proofs.«116829_j12214886990221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One key step on the first accumulator. -/
abbrev upd0 (x0 : Vec F S512x256 .bf16) (x1 : Vec F S1024x256 .bf16) (x4 : Vec F S1024x256 .f32) (s : Vec F S512x256 .f32) : Vec F S512x256 .f32 :=
  k1_pay5 x0 x1 x4 s
/-- One key step on the second accumulator. -/
abbrev upd1 (x2 : Vec F S512x256 .bf16) (x3 : Vec F S1024x256 .bf16) (x4 : Vec F S1024x256 .f32) (s : Vec F S512x256 .f32) : Vec F S512x256 .f32 :=
  k1_pay1 (k1_pay6 x2 x3 x4 s)

/-- The offsets of every access here: zero on both axes. -/
theorem zero2 : (![0, 0] : Fin 2 → Nat) = fun _ => 0 := funext fun a => by fin_cases a <;> rfl

local notation "rS" => (Rect.unit (s := S512x256) ![0, 0] S512x256.size inb_S512x256_S512x256_0_0)
local notation "rL" => (Rect.unit (s := S1024x256) ![0, 0] S1024x256.size inb_S1024x256_S1024x256_0_0)

/-- A load of a whole 512×256 buffer reads its contents. -/
theorem load_whole_S {e : EltTy} (m : Memref sig .tc .vmem S512x256 e) (h : m.IsWhole) (X : Vec F S512x256 e) :
    m.view.readAt (Elt F) (Rect.toLoadRect rS) (h.unread X) = X := by
  rw [View.readAt_eq_ld, h.read_unread, View.ld_unit_zero (S := S512x256) zero2]

/-- A load of a whole 1024×256 buffer reads its contents. -/
theorem load_whole_L {e : EltTy} (m : Memref sig .tc .vmem S1024x256 e) (h : m.IsWhole) (X : Vec F S1024x256 e) :
    m.view.readAt (Elt F) (Rect.toLoadRect rL) (h.unread X) = X := by
  rw [View.readAt_eq_ld, h.read_unread, View.ld_unit_zero (S := S1024x256) zero2]

/-- The whole-buffer rectangle holds every index. -/
theorem mem_rS (y : S512x256.Idx) : y ∈ (rS).set :=
  View.mem_set_unit_zero (S := S512x256) zero2 inb_S512x256_S512x256_0_0 y

/-- A list of stores that ends with a whole-buffer store covers the buffer. -/
theorem cover_S {e : EltTy} (w : Vec F S512x256 e) (L : List (View.Piece (Elt F) S512x256 e)) :
    ∀ y : S512x256.Idx, ∃ p ∈ ((⟨rS, w⟩ : View.Piece (Elt F) S512x256 e) :: L), y ∈ p.1.set :=
  fun y => ⟨⟨rS, w⟩, List.mem_cons.2 (Or.inl rfl), mem_rS y⟩

/-- After a store of the whole 512×256 buffer, whatever was stored before, the buffer reads as the stored value. -/
theorem read_store_S {e : EltTy} (v : View sig .tc .vmem S512x256 e) (f : v.ty.Contents (Elt F)) (w : Vec F S512x256 e)
    (L : List (View.Piece (Elt F) S512x256 e)) :
    v.read (Elt F) (v.writes (Elt F) f ((⟨rS, w⟩ : View.Piece (Elt F) S512x256 e) :: L)) = w := by
  rw [View.read_writes_eq_canon _ _ _ (cover_S w L), View.canon_cons_unit_zero (S := S512x256) zero2]

/-- The test of the first conditional, as the body computes it from the key-step coordinate. -/
abbrev condFirst (i : grid1.Coords) : Prop :=
  Scalar.cmpi .ne (Scalar.extui (Scalar.cmpi .eq (BitVec.ofNat 32 (i 1).val) 0#32)) 0#32 = 1#1

/-- The test of the second conditional. -/
abbrev condLast (i : grid1.Coords) : Prop := k1_cond2 i = 1#1

private theorem condFirst_fin : ∀ n : Fin 8,
    (Scalar.cmpi .ne (Scalar.extui (Scalar.cmpi .eq (BitVec.ofNat 32 n.val) 0#32)) 0#32 = 1#1) ↔ n.val = 0 := by decide

private theorem condLast_fin : ∀ n : Fin 8,
    (Scalar.cmpi .ne (Scalar.extui (Scalar.cmpi .eq (BitVec.ofNat 32 n.val) 7#32)) 0#32 = 1#1) ↔ n.val = 7 := by decide

/-- The first conditional is taken exactly at key step 0 (the coordinate ranges over eight values). -/
theorem condFirst_iff (i : grid1.Coords) : condFirst i ↔ (i 1).val = 0 := condFirst_fin (i 1)

/-- The second conditional is taken exactly at key step 7. -/
theorem condLast_iff (i : grid1.Coords) : condLast i ↔ (i 1).val = 7 := condLast_fin (i 1)

set_option maxHeartbeats 1000000 in
/-- The first key step: whatever the accumulators held, they end at one step from zero; the outputs' buffers are untouched. -/
theorem sound_kernel1_first (c : Dev nD) (E : Set ℕ) (i : grid1.Coords) (hj : (i 1).val = 0)
    (a2 : Memref sig .tc .vmem S512x256 .bf16) (h2 : a2.IsWhole) (a3 : Memref sig .tc .vmem S1024x256 .bf16) (h3 : a3.IsWhole)
    (a4 : Memref sig .tc .vmem S512x256 .bf16) (h4 : a4.IsWhole) (a5 : Memref sig .tc .vmem S1024x256 .bf16) (h5 : a5.IsWhole)
    (a6 : Memref sig .tc .vmem S1024x256 .f32) (h6 : a6.IsWhole) (a7 : Memref sig .tc .vmem S512x256 .f32) (h7 : a7.IsWhole)
    (a8 : Memref sig .tc .vmem S512x256 .f32) (h8 : a8.IsWhole) (a9 : Memref sig .tc .vmem S512x256 .f32) (h9 : a9.IsWhole)
    (a10 : Memref sig .tc .vmem S512x256 .f32) (h10 : a10.IsWhole)
    (x0 : Vec F S512x256 .bf16) (x1 : Vec F S1024x256 .bf16) (x2 : Vec F S512x256 .bf16) (x3 : Vec F S1024x256 .bf16) (x4 : Vec F S1024x256 .f32)
    (d7 d8 : Vec F S512x256 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare d7 ∗ owns (c : Thread nD τ) a8 fullShare d8
        ∗ (∃ s, owns (c : Thread nD τ) a9 fullShare s) ∗ (∃ s, owns (c : Thread nD τ) a10 fullShare s)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
            ∗ owns (c : Thread nD τ) a7 fullShare d7 ∗ owns (c : Thread nD τ) a8 fullShare d8
            ∗ owns (c : Thread nD τ) a9 fullShare (upd0 x0 x1 x4 (k1_pay2 (F := F)))
            ∗ owns (c : Thread nD τ) a10 fullShare (upd1 x2 x3 x4 (k1_pay3 (F := F)))) -∗ K ⟨⟩))
      ⊢ wp frame (wpE (defs₀ (F := F)) Variants.none c none) E (cc1__agg_kernel i a2 h2 a3 h3 a4 h4 a5 h5 a6 h6 a7 h7 a8 h8 a9 h9 a10 h10) K := by
  have hc0 : condFirst i := (condFirst_iff i).2 hj
  have hc2 : ¬ condLast i := fun h => by have := (condLast_iff i).1 h; omega
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := h2.eq_unread hf2; obtain rfl := h3.eq_unread hf3; obtain rfl := h4.eq_unread hf4
  obtain rfl := h5.eq_unread hf5; obtain rfl := h6.eq_unread hf6
  obtain rfl := h7.eq_unread hf7; obtain rfl := h8.eq_unread hf8
  sl_exec (disch := first | exact hc0 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro
    sl_unfold_words
    rw [read_store_S]
    repeat (first | rw [load_whole_S] | rw [load_whole_L] | rw [View.readCov_cons_toLoadRect])
  iexists _; isplitr; swap; · iexact H10
  ipureintro
  sl_unfold_words
  rw [read_store_S]
  repeat (first | rw [load_whole_S] | rw [load_whole_L] | rw [View.readCov_cons_toLoadRect])

set_option maxHeartbeats 1000000 in
/-- A middle key step: the accumulators advance by one step; the outputs' buffers are untouched. -/
theorem sound_kernel1_mid (c : Dev nD) (E : Set ℕ) (i : grid1.Coords) (hj0 : (i 1).val ≠ 0) (hj7 : (i 1).val ≠ 7)
    (a2 : Memref sig .tc .vmem S512x256 .bf16) (h2 : a2.IsWhole) (a3 : Memref sig .tc .vmem S1024x256 .bf16) (h3 : a3.IsWhole)
    (a4 : Memref sig .tc .vmem S512x256 .bf16) (h4 : a4.IsWhole) (a5 : Memref sig .tc .vmem S1024x256 .bf16) (h5 : a5.IsWhole)
    (a6 : Memref sig .tc .vmem S1024x256 .f32) (h6 : a6.IsWhole) (a7 : Memref sig .tc .vmem S512x256 .f32) (h7 : a7.IsWhole)
    (a8 : Memref sig .tc .vmem S512x256 .f32) (h8 : a8.IsWhole) (a9 : Memref sig .tc .vmem S512x256 .f32) (h9 : a9.IsWhole)
    (a10 : Memref sig .tc .vmem S512x256 .f32) (h10 : a10.IsWhole)
    (x0 : Vec F S512x256 .bf16) (x1 : Vec F S1024x256 .bf16) (x2 : Vec F S512x256 .bf16) (x3 : Vec F S1024x256 .bf16) (x4 : Vec F S1024x256 .f32)
    (d7 d8 s0 s1 : Vec F S512x256 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare d7 ∗ owns (c : Thread nD τ) a8 fullShare d8
        ∗ owns (c : Thread nD τ) a9 fullShare s0 ∗ owns (c : Thread nD τ) a10 fullShare s1
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
            ∗ owns (c : Thread nD τ) a7 fullShare d7 ∗ owns (c : Thread nD τ) a8 fullShare d8
            ∗ owns (c : Thread nD τ) a9 fullShare (upd0 x0 x1 x4 s0)
            ∗ owns (c : Thread nD τ) a10 fullShare (upd1 x2 x3 x4 s1)) -∗ K ⟨⟩))
      ⊢ wp frame (wpE (defs₀ (F := F)) Variants.none c none) E (cc1__agg_kernel i a2 h2 a3 h3 a4 h4 a5 h5 a6 h6 a7 h7 a8 h8 a9 h9 a10 h10) K := by
  have hc0 : ¬ condFirst i := fun h => hj0 ((condFirst_iff i).1 h)
  have hc2 : ¬ condLast i := fun h => hj7 ((condLast_iff i).1 h)
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := h2.eq_unread hf2; obtain rfl := h3.eq_unread hf3; obtain rfl := h4.eq_unread hf4
  obtain rfl := h5.eq_unread hf5; obtain rfl := h6.eq_unread hf6
  obtain rfl := h7.eq_unread hf7; obtain rfl := h8.eq_unread hf8; obtain rfl := h9.eq_unread hf9; obtain rfl := h10.eq_unread hf10
  sl_exec (disch := first | exact hc0 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro
    sl_unfold_words
    rw [read_store_S]
    repeat (first | rw [load_whole_S] | rw [load_whole_L] | rw [View.readCov_cons_toLoadRect])
  iexists _; isplitr; swap; · iexact H10
  ipureintro
  sl_unfold_words
  rw [read_store_S]
  repeat (first | rw [load_whole_S] | rw [load_whole_L] | rw [View.readCov_cons_toLoadRect])

set_option maxHeartbeats 1000000 in
/-- The last key step: the accumulators advance by one step and the outputs receive them. -/
theorem sound_kernel1_last (c : Dev nD) (E : Set ℕ) (i : grid1.Coords) (hj : (i 1).val = 7)
    (a2 : Memref sig .tc .vmem S512x256 .bf16) (h2 : a2.IsWhole) (a3 : Memref sig .tc .vmem S1024x256 .bf16) (h3 : a3.IsWhole)
    (a4 : Memref sig .tc .vmem S512x256 .bf16) (h4 : a4.IsWhole) (a5 : Memref sig .tc .vmem S1024x256 .bf16) (h5 : a5.IsWhole)
    (a6 : Memref sig .tc .vmem S1024x256 .f32) (h6 : a6.IsWhole) (a7 : Memref sig .tc .vmem S512x256 .f32) (h7 : a7.IsWhole)
    (a8 : Memref sig .tc .vmem S512x256 .f32) (h8 : a8.IsWhole) (a9 : Memref sig .tc .vmem S512x256 .f32) (h9 : a9.IsWhole)
    (a10 : Memref sig .tc .vmem S512x256 .f32) (h10 : a10.IsWhole)
    (x0 : Vec F S512x256 .bf16) (x1 : Vec F S1024x256 .bf16) (x2 : Vec F S512x256 .bf16) (x3 : Vec F S1024x256 .bf16) (x4 : Vec F S1024x256 .f32)
    (s0 s1 : Vec F S512x256 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ (∃ d, owns (c : Thread nD τ) a7 fullShare d) ∗ (∃ d, owns (c : Thread nD τ) a8 fullShare d)
        ∗ owns (c : Thread nD τ) a9 fullShare s0 ∗ owns (c : Thread nD τ) a10 fullShare s1
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
            ∗ owns (c : Thread nD τ) a7 fullShare (upd0 x0 x1 x4 s0) ∗ owns (c : Thread nD τ) a8 fullShare (upd1 x2 x3 x4 s1)
            ∗ owns (c : Thread nD τ) a9 fullShare (upd0 x0 x1 x4 s0)
            ∗ owns (c : Thread nD τ) a10 fullShare (upd1 x2 x3 x4 s1)) -∗ K ⟨⟩))
      ⊢ wp frame (wpE (defs₀ (F := F)) Variants.none c none) E (cc1__agg_kernel i a2 h2 a3 h3 a4 h4 a5 h5 a6 h6 a7 h7 a8 h8 a9 h9 a10 h10) K := by
  have hc0 : ¬ condFirst i := fun h => by have := (condFirst_iff i).1 h; omega
  have hc2 : condLast i := (condLast_iff i).2 hj
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := h2.eq_unread hf2; obtain rfl := h3.eq_unread hf3; obtain rfl := h4.eq_unread hf4
  obtain rfl := h5.eq_unread hf5; obtain rfl := h6.eq_unread hf6
  obtain rfl := h9.eq_unread hf9; obtain rfl := h10.eq_unread hf10
  sl_exec (disch := first | exact hc0 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    sl_unfold_words
    rw [read_store_S]
    repeat (first | rw [load_whole_S] | rw [load_whole_L] | rw [View.readCov_cons_toLoadRect])
  isplitl [H8]
  · iexists _; isplitr; swap; · iexact H8
    ipureintro
    sl_unfold_words
    rw [read_store_S]
    repeat (first | rw [load_whole_S] | rw [load_whole_L] | rw [View.readCov_cons_toLoadRect])
  isplitl [H9]
  · iexists _; isplitr; swap; · iexact H9
    ipureintro
    sl_unfold_words
    rw [read_store_S]
    repeat (first | rw [load_whole_S] | rw [load_whole_L] | rw [View.readCov_cons_toLoadRect])
  iexists _; isplitr; swap; · iexact H10
  ipureintro
  sl_unfold_words
  rw [read_store_S]
  repeat (first | rw [load_whole_S] | rw [load_whole_L] | rw [View.readCov_cons_toLoadRect])

end Cert.Kernel.Hand

end
-- ==== Proof.KRegion1.lean ====
/-
  The second kernel region (the two similarity-weighted aggregates, a 512-row tile per point of the first grid axis and
  a 1024-row key block per point of the second) at the buffer contents V the region is entered with. The linear block
  e₁ is handed to the kernel through two windows, its row tile and its key block, and so is e₂: the core holds each
  of those two arrays once, and the two windows on one array hold complementary halves of its share. The two
  accumulators live in scratch memory between the points: after point n they hold the sums of the contributions of
  the key blocks since the row tile's first key block (n ≡ 0 mod 8). The outputs receive the accumulators at a row
  tile's last key block (n ≡ 7 mod 8) and are written back there.
-/
import proofs.«116829_j12214886990221_1_alg».proof.Proof.Gen.Kernel.Launch
import proofs.«116829_j12214886990221_1_alg».proof.Proof.Gen.Kernel.Skeleton
import proofs.«116829_j12214886990221_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116829_j12214886990221_1_alg».proof.Proof.KRegion1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One key step on the pair of accumulators, at point t's blocks. -/
def step1 (c : Dev nD) (t : Fin cfg1.N) (s : Vec F S512x256 .f32 × Vec F S512x256 .f32) : Vec F S512x256 .f32 × Vec F S512x256 .f32 :=
  (upd0 (iblk1 V c 0 t) (iblk1 V c 1 t) (iblk1 V c 4 t) s.1, upd1 (iblk1 V c 2 t) (iblk1 V c 3 t) (iblk1 V c 4 t) s.2)

/-- The accumulators after point n: restarted from zero at the points ≡ 0 mod 8, advanced by one key step at each point. -/
def acc1 (c : Dev nD) : (n : ℕ) → n < cfg1.N → Vec F S512x256 .f32 × Vec F S512x256 .f32
  | 0, hn => step1 V c ⟨0, hn⟩ (k1_pay2 (F := F), k1_pay3 (F := F))
  | n + 1, hn =>
    if (n + 1) % 8 = 0 then step1 V c ⟨n + 1, hn⟩ (k1_pay2 (F := F), k1_pay3 (F := F))
    else step1 V c ⟨n + 1, hn⟩ (acc1 c n (Nat.lt_of_succ_lt hn))

theorem acc1_reset (c : Dev nD) (t : Fin cfg1.N) (h : t.val % 8 = 0) :
    acc1 V c t.val t.isLt = step1 V c t (k1_pay2 (F := F), k1_pay3 (F := F)) := by
  obtain ⟨n, hn⟩ := t
  cases n with
  | zero => rfl
  | succ n => exact if_pos h

theorem acc1_step (c : Dev nD) (t : Fin cfg1.N) (h : ¬ t.val % 8 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this region nor one of its two accumulators, each at
    some contents. -/
def rest1 (c : Dev nD) : sProp 𝕄 :=
  Pipeline.scopedRestBut (Ix := Unit) (Name := ℕ) (U := UR sig nD τ) (Lvl := ℕ) (Val := Elt F) spec1 c [cc1_scratch0, cc1_scratch1]

/-- The region's invariant before point n: before the first point the class's (every scratch at anything); afterwards
    the two accumulators at what the point before left, the other scoped buffers at anything, the generator register
    at some state. -/
def PhiS (c : Dev nD) : (n : ℕ) → n ≤ cfg1.N → sProp 𝕄
  | 0, _ => Pipeline.ΦA spec1 c
  | n + 1, hn => iprop(((owns (c : Thread nD τ) (Memref.whole cc1_scratch0) fullShare (acc1 V c n hn).1
      ∗ owns (c : Thread nD τ) (Memref.whole cc1_scratch1) fullShare (acc1 V c n hn).2) ∗ rest1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) (Memref.whole cc1_scratch0) fullShare (acc1 V c n hn).1
      ∗ owns (c : Thread nD τ) (Memref.whole cc1_scratch1) fullShare (acc1 V c n hn).2) ∗ rest1 (F := F) c) ∗ (∃ r, prngReg c r)) := rfl

theorem PhiS_pos (c : Dev nD) (n : ℕ) (h : n ≤ cfg1.N) (hz : n ≠ 0) :
    PhiS V c n h = iprop(((owns (c : Thread nD τ) (Memref.whole cc1_scratch0) fullShare (acc1 V c (n - 1) (by omega)).1
      ∗ owns (c : Thread nD τ) (Memref.whole cc1_scratch1) fullShare (acc1 V c (n - 1) (by omega)).2) ∗ rest1 (F := F) c) ∗ (∃ r, prngReg c r)) := by
  cases n with
  | zero => exact absurd rfl hz
  | succ n => rfl

/-- The class's invariant with the two accumulators as memrefs owned at some contents. -/
theorem PhiA1_eq (c : Dev nD) :
    (Pipeline.ΦA spec1 c : sProp 𝕄)
      = iprop((((∃ d, owns (c : Thread nD τ) (Memref.whole cc1_scratch0) fullShare d)
          ∗ (∃ d, owns (c : Thread nD τ) (Memref.whole cc1_scratch1) fullShare d)) ∗ rest1 (F := F) c) ∗ (∃ r, prngReg c r)) := by
  unfold Pipeline.ΦA rest1
  rw [Pipeline.scopedRest_split_of_list spec1 c [cc1_scratch0, cc1_scratch1] (by decide) (by decide)]
  simp only [owns_whole]; try rfl

/-- The second coordinate of point t is t mod 8. -/
theorem coord1_1 : ∀ t : Fin cfg1.N, ((grid1.coords t) 1).val = t.val % 8 :=
  (by decide +kernel : ∀ t : Fin grid1.N, ((grid1.coords t) 1).val = t.val % 8)

/-- The region's proof data: the arrays as entered; after the body each input's buffer at its block and the outputs'
    at the accumulators; the two windows on one array at complementary half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (acc1 V c t.val t.isLt).1
    | ⟨6, _⟩ => (acc1 V c t.val t.isLt).2
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = (acc1 V c t.val t.isLt).1 := by dsimp only [dat1]
theorem after1_6 (c : Dev nD) (t : Fin cfg1.N) : (dat1 V c).after 6 t = (acc1 V c t.val t.isLt).2 := by dsimp only [dat1]

theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare.left := by dsimp only [dat1]
theorem q1_3 (c : Dev nD) : (dat1 V c).q 3 = fullShare.right := by dsimp only [dat1]
theorem q1_4 (c : Dev nD) : (dat1 V c).q 4 = fullShare := by dsimp only [dat1]

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-- Whatever the point, the invariant gives the two accumulators at some contents. -/
theorem PhiS_forget (c : Dev nD) (n : ℕ) (h : n ≤ cfg1.N) :
    PhiS V c n h ⊢ iprop((((∃ d, owns (c : Thread nD τ) (Memref.whole cc1_scratch0) fullShare d)
          ∗ (∃ d, owns (c : Thread nD τ) (Memref.whole cc1_scratch1) fullShare d)) ∗ rest1 (F := F) c) ∗ (∃ r, prngReg c r)) := by
  cases n with
  | zero => rw [PhiS_zero V c 0 h rfl, PhiA1_eq]
  | succ n =>
    rw [PhiS_succ]
    iintro ⟨⟨⟨HS0, HS1⟩, HR⟩, Hg⟩
    isplitr [Hg]
    · isplitr [HR]
      · isplitl [HS0]
        · iexists _; iexact HS0
        iexists _; iexact HS1
      iexact HR
    iexact Hg

/-! ## The input windows' buffers hold their blocks at every point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## Where the two outputs are idle -/

theorem idleAt1_5 : ∀ t : Fin cfg1.N, ¬ t.val % 8 = 7 → cfg1.idle 5 (grid1.coords t) = true := by decide +kernel
theorem idleAt1_6 : ∀ t : Fin cfg1.N, ¬ t.val % 8 = 7 → cfg1.idle 6 (grid1.coords t) = true := by decide +kernel
theorem liveAt1_5 : ∀ t : Fin cfg1.N, t.val % 8 = 7 → cfg1.idle 5 (grid1.coords t) = false := by decide +kernel
theorem liveAt1_6 : ∀ t : Fin cfg1.N, t.val % 8 = 7 → cfg1.idle 6 (grid1.coords t) = false := by decide +kernel
theorem noFlush1_5 (t : Fin cfg1.N) (h : ¬ t.val % 8 = 7) : (cfg1.win 5).flush t = false :=
  Bool.eq_false_iff.mpr fun hf => h ((flush1_5 t).mp hf)
theorem noFlush1_6 (t : Fin cfg1.N) (h : ¬ t.val % 8 = 7) : (cfg1.win 6).flush t = false :=
  Bool.eq_false_iff.mpr fun hf => h ((flush1_6 t).mp hf)

/-! ## The body obligation, at a generic point -/

theorem leaves1_0 (c : Dev nD) (t : Fin cfg1.N) :
    (dat1 V c).leavesExact 0 t = owns (c : Thread nD τ) (st1_0 t) fullShare (iblk1 V c 0 t) := by
  unfold Dat.leavesExact; rw [after1_0]
theorem leaves1_1 (c : Dev nD) (t : Fin cfg1.N) :
    (dat1 V c).leavesExact 1 t = owns (c : Thread nD τ) (st1_1 t) fullShare (iblk1 V c 1 t) := by
  unfold Dat.leavesExact; rw [after1_1]
theorem leaves1_2 (c : Dev nD) (t : Fin cfg1.N) :
    (dat1 V c).leavesExact 2 t = owns (c : Thread nD τ) (st1_2 t) fullShare (iblk1 V c 2 t) := by
  unfold Dat.leavesExact; rw [after1_2]
theorem leaves1_3 (c : Dev nD) (t : Fin cfg1.N) :
    (dat1 V c).leavesExact 3 t = owns (c : Thread nD τ) (st1_3 t) fullShare (iblk1 V c 3 t) := by
  unfold Dat.leavesExact; rw [after1_3]
theorem leaves1_4 (c : Dev nD) (t : Fin cfg1.N) :
    (dat1 V c).leavesExact 4 t = owns (c : Thread nD τ) (st1_4 t) fullShare (iblk1 V c 4 t) := by
  unfold Dat.leavesExact; rw [after1_4]
theorem leaves1_5_idle (c : Dev nD) (t : Fin cfg1.N) (h : ¬ t.val % 8 = 7) :
    (dat1 V c).leavesExact 5 t = iprop(∃ d, owns (c : Thread nD τ) (st1_5 t) fullShare ((dat1 V c).before 5 t d)) :=
  Dat.leavesExact_idle (dat1 V c) 5 t (idleAt1_5 t h) (noFlush1_5 t h)
theorem leaves1_5_live (c : Dev nD) (t : Fin cfg1.N) (h : t.val % 8 = 7) :
    (dat1 V c).leavesExact 5 t = owns (c : Thread nD τ) (st1_5 t) fullShare (acc1 V c t.val t.isLt).1 := by
  unfold Dat.leavesExact; rw [liveAt1_5 t h, after1_5]
theorem leaves1_6_idle (c : Dev nD) (t : Fin cfg1.N) (h : ¬ t.val % 8 = 7) :
    (dat1 V c).leavesExact 6 t = iprop(∃ d, owns (c : Thread nD τ) (st1_6 t) fullShare ((dat1 V c).before 6 t d)) :=
  Dat.leavesExact_idle (dat1 V c) 6 t (idleAt1_6 t h) (noFlush1_6 t h)
theorem leaves1_6_live (c : Dev nD) (t : Fin cfg1.N) (h : t.val % 8 = 7) :
    (dat1 V c).leavesExact 6 t = owns (c : Thread nD τ) (st1_6 t) fullShare (acc1 V c t.val t.isLt).2 := by
  unfold Dat.leavesExact; rw [liveAt1_6 t h, after1_6]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 1000000 in
/-- A row tile's first key step: whatever the accumulators held is forgotten, they end at one step from zero; the
    outputs' buffers pass through as handed. -/
theorem sound_body1_first (c : Dev nD) (t : Fin cfg1.N) (h0 : t.val % 8 = 0) :
    bodyPre1 V c t ⊢ wp frame (wpE (defs₀ (F := F)) Variants.none c none) Set.univ (bodyAt1 t) (fun _ => bodyPost1 V c t) := by
  have h7 : ¬ t.val % 8 = 7 := by omega
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5_idle V c t h7, leaves1_6_idle V c t h7]
  rw [acc1_reset V c t h0]
  rw [PhiS_castSucc V c t]
  refine BIBase.Entails.trans (sep_mono_left (PhiS_forget V c _ _)) ?_
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1_first c Set.univ (grid1.coords t) ((coord1_1 t).trans h0) _ _ _ _ _ _ _ _ _ _ _ _ _ _ _ _ _ _
    (iblk1 V c 0 t) (iblk1 V c 1 t) (iblk1 V c 2 t) (iblk1 V c 3 t) (iblk1 V c 4 t)
    ((dat1 V c).before 5 t d5) ((dat1 V c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 HR Hg]
  · isplitr [Hg]
    · isplitr [HR]
      · isplitl [HS0]
        · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 1000000 in
/-- A middle key step: the accumulators advance by one step from what the point before left; the outputs' buffers
    pass through as handed. -/
theorem sound_body1_mid (c : Dev nD) (t : Fin cfg1.N) (h0 : ¬ t.val % 8 = 0) (h7 : ¬ t.val % 8 = 7) :
    bodyPre1 V c t ⊢ wp frame (wpE (defs₀ (F := F)) Variants.none c none) Set.univ (bodyAt1 t) (fun _ => bodyPost1 V c t) := by
  have hz : t.val ≠ 0 := fun h => h0 (by rw [h])
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5_idle V c t h7, leaves1_6_idle V c t h7]
  rw [acc1_step V c t h0]
  rw [PhiS_castSucc V c t]
  rw [PhiS_pos V c _ _ hz]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1_mid c Set.univ (grid1.coords t) (fun h => h0 ((coord1_1 t).symm.trans h)) (fun h => h7 ((coord1_1 t).symm.trans h)) _ _ _ _ _ _ _ _ _ _ _ _ _ _ _ _ _ _
    (iblk1 V c 0 t) (iblk1 V c 1 t) (iblk1 V c 2 t) (iblk1 V c 3 t) (iblk1 V c 4 t)
    ((dat1 V c).before 5 t d5) ((dat1 V c).before 6 t d6) (acc1 V c (t.val - 1) (Nat.lt_of_le_of_lt (Nat.sub_le _ _) t.isLt)).1 (acc1 V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 HR Hg]
  · isplitr [Hg]
    · isplitr [HR]
      · isplitl [HS0]
        · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 1000000 in
/-- A row tile's last key step: the accumulators advance by one step and the outputs receive them. -/
theorem sound_body1_last (c : Dev nD) (t : Fin cfg1.N) (h0 : ¬ t.val % 8 = 0) (h7 : t.val % 8 = 7) :
    bodyPre1 V c t ⊢ wp frame (wpE (defs₀ (F := F)) Variants.none c none) Set.univ (bodyAt1 t) (fun _ => bodyPost1 V c t) := by
  have hz : t.val ≠ 0 := fun h => h0 (by rw [h])
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5_live V c t h7, leaves1_6_live V c t h7]
  rw [acc1_step V c t h0]
  rw [PhiS_castSucc V c t]
  rw [PhiS_pos V c _ _ hz]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1_last c Set.univ (grid1.coords t) ((coord1_1 t).trans h7) _ _ _ _ _ _ _ _ _ _ _ _ _ _ _ _ _ _
    (iblk1 V c 0 t) (iblk1 V c 1 t) (iblk1 V c 2 t) (iblk1 V c 3 t) (iblk1 V c 4 t)
    (acc1 V c (t.val - 1) (Nat.lt_of_le_of_lt (Nat.sub_le _ _) t.isLt)).1 (acc1 V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 HR Hg]
  · isplitr [Hg]
    · isplitr [HR]
      · isplitl [HS0]
        · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point, by the point's place in its row tile's run of key steps. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · exact sound_body1_first V c t h0
  · by_cases h7 : t.val % 8 = 7
    · exact sound_body1_last V c t h0 h7
    · exact sound_body1_mid V c t h0 h7

/-- The body's obligation to the pipeline at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Entails.refl _

/-- After the last point the invariant gives the class's back: the accumulators' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_forget V c _ _

end Cert.Kernel.Hand

end
-- ==== Proof.KRegion2.lean ====
/-
  The third kernel region (the last linear block max(x·W3[0:256] + agg₁·W3[256:512] + agg₂·W3[512:768] + b₃, 0), one
  1024-row tile per grid point) at the buffer contents V the region is entered with: each window's block at a point,
  what the body leaves in each staging buffer, and the body's obligation to the pipeline.
-/
import proofs.«116829_j12214886990221_1_alg».proof.Proof.Gen.Kernel.Launch
import proofs.«116829_j12214886990221_1_alg».proof.Proof.Gen.Kernel.Skeleton
import proofs.«116829_j12214886990221_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data: the arrays as entered; after the body each input's buffer at its block, the output's
    at the linear block of the point's tiles. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = k2_pay1 (iblk2 V c 0 t) (iblk2 V c 1 t) (iblk2 V c 2 t) (iblk2 V c 3 t) (iblk2 V c 4 t) := by dsimp only [dat2]

/-! ## The input windows' buffers hold their blocks at every point -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-- The tile of x: moved at every point, and the body leaves it in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The tile of agg₁, likewise. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The tile of agg₂, likewise. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- W₃: fetched at the first point only; its block index never moves, so the buffer holds the block at every point. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- b₃, likewise. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body's accesses: every load and store is the whole buffer, the full-size rectangle at the origin -/

theorem zeros2_2 : (![0, 0] : Fin 2 → Nat) = fun _ => 0 := funext fun a => by fin_cases a <;> rfl
theorem zeros2_1 : (![0] : Fin 1 → Nat) = fun _ => 0 := funext fun a => by fin_cases a; rfl

abbrev rT : Rect S1024x256 := Rect.unit (s := S1024x256) ![0, 0] S1024x256.size inb_S1024x256_S1024x256_0_0
abbrev rW3 : Rect S768x256 := Rect.unit (s := S768x256) ![0, 0] S768x256.size inb_S768x256_S768x256_0_0
abbrev rB3 : Rect S256 := Rect.unit (s := S256) ![0] S256.size inb_S256_S256_0

/-- One store through the full-size rectangle covers the buffer. -/
theorem coverT (p0 : Vec F S1024x256 .f32) (y : S1024x256.Idx) :
    ∃ pc ∈ ([⟨rT, p0⟩] : List (View.Piece (Elt F) S1024x256 .f32)), y ∈ pc.1.set :=
  ⟨_, List.mem_singleton_self _, View.mem_set_unit_zero (S := S1024x256) zeros2_2 inb_S1024x256_S1024x256_0_0 y⟩

/-! ## The body's triple -/

set_option maxHeartbeats 1000000 in
/-- The body on whole staging memrefs, x's tile at x0, agg₁'s at x1, agg₂'s at x2, W₃ at x3, b₃ at x4 and the
    output's at anything, runs to the continuation holding the inputs' as they were and the output's at the linear
    block of (x0, x1, x2, x3, x4). -/
theorem sound_kernel2 (c : Dev nD) (E : Set ℕ) (i : grid2.Coords)
    (arg1 : Memref sig .tc .vmem S1024x256 .f32) (harg1 : arg1.IsWhole)
    (arg2 : Memref sig .tc .vmem S1024x256 .f32) (harg2 : arg2.IsWhole)
    (arg3 : Memref sig .tc .vmem S1024x256 .f32) (harg3 : arg3.IsWhole)
    (arg4 : Memref sig .tc .vmem S768x256 .f32) (harg4 : arg4.IsWhole)
    (arg5 : Memref sig .tc .vmem S256 .f32) (harg5 : arg5.IsWhole)
    (arg6 : Memref sig .tc .vmem S1024x256 .f32) (harg6 : arg6.IsWhole)
    (x0 x1 x2 : Vec F S1024x256 .f32) (x3 : Vec F S768x256 .f32) (x4 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k2_pay1 x0 x1 x2 x3 x4)) -∗ K ⟨⟩))
      ⊢ wp frame (wpE (defs₀ (F := F)) Variants.none c none) E
          (cc2__final_kernel i arg1 harg1 arg2 harg2 arg3 harg3 arg4 harg4 arg5 harg5 arg6 harg6) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (coverT _), View.canon_unit_zero zeros2_2]
  simp only [View.readAt_eq_ld, View.ld_unit_zero (S := S1024x256) zeros2_2, View.ld_unit_zero (S := S768x256) zeros2_2,
    View.ld_unit_zero (S := S256) zeros2_1]

/-! ## The body's obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the pipeline at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRunData.lean ====
/-
  The buffer contents between the three kernel regions, and each region's proof data at the contents it is entered
  with. The program is the three regions one after the other with no host operation between them. The first region
  changes only its two output arrays (the two linear blocks), the second only its two (the two aggregates), the third
  only the result; every other unscoped buffer, the arguments among them, holds its launch contents throughout.
-/
import proofs.«116829_j12214886990221_1_alg».proof.Proof.KRegion0
import proofs.«116829_j12214886990221_1_alg».proof.Proof.KRegion1
import proofs.«116829_j12214886990221_1_alg».proof.Proof.KRegion2
import proofs.«116829_j12214886990221_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The launch contents, as the first region's entry contents. -/
abbrev P0 : (c : Dev nD) → (b : Ref sig .tc) → Buf (Elt F) ((c : Thread nD τ).loc b) := fun c b => Gen.V0 m c b

/-- What the first region leaves in its two output arrays. -/
def e1 (c : Dev nD) := (dat0 (P0 m) c).arrAt 5 cfg0.N
def e2 (c : Dev nD) := (dat0 (P0 m) c).arrAt 6 cfg0.N

/-- The contents after the first region. -/
def U1 (c : Dev nD) : Valuation τ sig (Elt F) :=
  Function.update (Function.update (Gen.V0 m c) main_v0_0 (e1 m c)) main_v0_1 (e2 m c)
abbrev P1 : (c : Dev nD) → (b : Ref sig .tc) → Buf (Elt F) ((c : Thread nD τ).loc b) := fun c b => U1 m c b

/-- What the second region leaves in its two output arrays. -/
def g1 (c : Dev nD) := (dat1 (P1 m) c).arrAt 5 cfg1.N
def g2 (c : Dev nD) := (dat1 (P1 m) c).arrAt 6 cfg1.N

/-- The contents after the second region. -/
def U2 (c : Dev nD) : Valuation τ sig (Elt F) :=
  Function.update (Function.update (U1 m c) main_v1_0 (g1 m c)) main_v1_1 (g2 m c)
abbrev P2 : (c : Dev nD) → (b : Ref sig .tc) → Buf (Elt F) ((c : Thread nD τ).loc b) := fun c b => U2 m c b

/-- What the third region leaves in the result array. -/
def res (c : Dev nD) := (dat2 (P2 m) c).arrAt 5 cfg2.N

/-- The contents after the third region. -/
def U3 (c : Dev nD) : Valuation τ sig (Elt F) := Function.update (U2 m c) main_v2 (res m c)

/-- What the regions leave, in the form the conditional frame takes: the contents after item J − 1 read at a buffer. -/
def outs : Gen.Outs (F := F) := fun J r c =>
  match J with
  | 1 => U1 m c r
  | 2 => U2 m c r
  | _ => U3 m c r

/-! ## Reading the contents between the regions -/

theorem U1_of (c : Dev nD) (r : Ref sig .tc) (h : r ∉ ([main_v0_0, main_v0_1] : List (Ref sig .tc))) : U1 m c r = Gen.V0 m c r := by
  simp only [U1, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1)]
theorem U2_of (c : Dev nD) (r : Ref sig .tc) (h : r ∉ ([main_v1_0, main_v1_1] : List (Ref sig .tc))) : U2 m c r = U1 m c r := by
  simp only [U2, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1)]
theorem U3_of (c : Dev nD) (r : Ref sig .tc) (h : r ≠ main_v2) : U3 m c r = U2 m c r := by
  simp only [U3, Function.update_of_ne (StableHlo.devRef_ne_of_ne h : (Proc.devRef .tc r : DevRef τ sig) ≠ Proc.devRef .tc main_v2)]

theorem U1_main_v0_1 (c : Dev nD) : U1 m c main_v0_1 = e2 m c := by
  simp only [U1, Function.update_self]
theorem U1_main_v0_0 (c : Dev nD) : U1 m c main_v0_0 = e1 m c := by
  simp only [U1, Function.update_of_ne (StableHlo.devRef_ne_of_ne (by decide : main_v0_0 ≠ main_v0_1) : (Proc.devRef .tc main_v0_0 : DevRef τ sig) ≠ Proc.devRef .tc main_v0_1), Function.update_self]
theorem U2_main_v1_1 (c : Dev nD) : U2 m c main_v1_1 = g2 m c := by
  simp only [U2, Function.update_self]
theorem U2_main_v1_0 (c : Dev nD) : U2 m c main_v1_0 = g1 m c := by
  simp only [U2, Function.update_of_ne (StableHlo.devRef_ne_of_ne (by decide : main_v1_0 ≠ main_v1_1) : (Proc.devRef .tc main_v1_0 : DevRef τ sig) ≠ Proc.devRef .tc main_v1_1), Function.update_self]
theorem U3_main_v2 (c : Dev nD) : U3 m c main_v2 = res m c := by
  simp only [U3, Function.update_self]

theorem U1_main_arg0 (c : Dev nD) : U1 m c main_arg0 = m ((c : Thread nD τ).loc main_arg0) :=
  (U1_of m c main_arg0 (by decide)).trans rfl
theorem U2_main_arg0 (c : Dev nD) : U2 m c main_arg0 = m ((c : Thread nD τ).loc main_arg0) :=
  (U2_of m c main_arg0 (by decide)).trans (U1_main_arg0 m c)
theorem U3_main_arg0 (c : Dev nD) : U3 m c main_arg0 = m ((c : Thread nD τ).loc main_arg0) :=
  (U3_of m c main_arg0 (by decide)).trans (U2_main_arg0 m c)
theorem U1_main_arg1 (c : Dev nD) : U1 m c main_arg1 = m ((c : Thread nD τ).loc main_arg1) :=
  (U1_of m c main_arg1 (by decide)).trans rfl
theorem U2_main_arg1 (c : Dev nD) : U2 m c main_arg1 = m ((c : Thread nD τ).loc main_arg1) :=
  (U2_of m c main_arg1 (by decide)).trans (U1_main_arg1 m c)
theorem U3_main_arg1 (c : Dev nD) : U3 m c main_arg1 = m ((c : Thread nD τ).loc main_arg1) :=
  (U3_of m c main_arg1 (by decide)).trans (U2_main_arg1 m c)
theorem U1_main_arg2 (c : Dev nD) : U1 m c main_arg2 = m ((c : Thread nD τ).loc main_arg2) :=
  (U1_of m c main_arg2 (by decide)).trans rfl
theorem U2_main_arg2 (c : Dev nD) : U2 m c main_arg2 = m ((c : Thread nD τ).loc main_arg2) :=
  (U2_of m c main_arg2 (by decide)).trans (U1_main_arg2 m c)
theorem U3_main_arg2 (c : Dev nD) : U3 m c main_arg2 = m ((c : Thread nD τ).loc main_arg2) :=
  (U3_of m c main_arg2 (by decide)).trans (U2_main_arg2 m c)
theorem U1_main_arg3 (c : Dev nD) : U1 m c main_arg3 = m ((c : Thread nD τ).loc main_arg3) :=
  (U1_of m c main_arg3 (by decide)).trans rfl
theorem U2_main_arg3 (c : Dev nD) : U2 m c main_arg3 = m ((c : Thread nD τ).loc main_arg3) :=
  (U2_of m c main_arg3 (by decide)).trans (U1_main_arg3 m c)
theorem U3_main_arg3 (c : Dev nD) : U3 m c main_arg3 = m ((c : Thread nD τ).loc main_arg3) :=
  (U3_of m c main_arg3 (by decide)).trans (U2_main_arg3 m c)
theorem U1_main_arg4 (c : Dev nD) : U1 m c main_arg4 = m ((c : Thread nD τ).loc main_arg4) :=
  (U1_of m c main_arg4 (by decide)).trans rfl
theorem U2_main_arg4 (c : Dev nD) : U2 m c main_arg4 = m ((c : Thread nD τ).loc main_arg4) :=
  (U2_of m c main_arg4 (by decide)).trans (U1_main_arg4 m c)
theorem U3_main_arg4 (c : Dev nD) : U3 m c main_arg4 = m ((c : Thread nD τ).loc main_arg4) :=
  (U3_of m c main_arg4 (by decide)).trans (U2_main_arg4 m c)
theorem U1_main_arg5 (c : Dev nD) : U1 m c main_arg5 = m ((c : Thread nD τ).loc main_arg5) :=
  (U1_of m c main_arg5 (by decide)).trans rfl
theorem U2_main_arg5 (c : Dev nD) : U2 m c main_arg5 = m ((c : Thread nD τ).loc main_arg5) :=
  (U2_of m c main_arg5 (by decide)).trans (U1_main_arg5 m c)
theorem U3_main_arg5 (c : Dev nD) : U3 m c main_arg5 = m ((c : Thread nD τ).loc main_arg5) :=
  (U3_of m c main_arg5 (by decide)).trans (U2_main_arg5 m c)
theorem U1_main_arg6 (c : Dev nD) : U1 m c main_arg6 = m ((c : Thread nD τ).loc main_arg6) :=
  (U1_of m c main_arg6 (by decide)).trans rfl
theorem U2_main_arg6 (c : Dev nD) : U2 m c main_arg6 = m ((c : Thread nD τ).loc main_arg6) :=
  (U2_of m c main_arg6 (by decide)).trans (U1_main_arg6 m c)
theorem U3_main_arg6 (c : Dev nD) : U3 m c main_arg6 = m ((c : Thread nD τ).loc main_arg6) :=
  (U3_of m c main_arg6 (by decide)).trans (U2_main_arg6 m c)
theorem U1_main_arg7 (c : Dev nD) : U1 m c main_arg7 = m ((c : Thread nD τ).loc main_arg7) :=
  (U1_of m c main_arg7 (by decide)).trans rfl
theorem U2_main_arg7 (c : Dev nD) : U2 m c main_arg7 = m ((c : Thread nD τ).loc main_arg7) :=
  (U2_of m c main_arg7 (by decide)).trans (U1_main_arg7 m c)
theorem U3_main_arg7 (c : Dev nD) : U3 m c main_arg7 = m ((c : Thread nD τ).loc main_arg7) :=
  (U3_of m c main_arg7 (by decide)).trans (U2_main_arg7 m c)
theorem U1_main_arg8 (c : Dev nD) : U1 m c main_arg8 = m ((c : Thread nD τ).loc main_arg8) :=
  (U1_of m c main_arg8 (by decide)).trans rfl
theorem U2_main_arg8 (c : Dev nD) : U2 m c main_arg8 = m ((c : Thread nD τ).loc main_arg8) :=
  (U2_of m c main_arg8 (by decide)).trans (U1_main_arg8 m c)
theorem U3_main_arg8 (c : Dev nD) : U3 m c main_arg8 = m ((c : Thread nD τ).loc main_arg8) :=
  (U3_of m c main_arg8 (by decide)).trans (U2_main_arg8 m c)
theorem U1_main_arg9 (c : Dev nD) : U1 m c main_arg9 = m ((c : Thread nD τ).loc main_arg9) :=
  (U1_of m c main_arg9 (by decide)).trans rfl
theorem U2_main_arg9 (c : Dev nD) : U2 m c main_arg9 = m ((c : Thread nD τ).loc main_arg9) :=
  (U2_of m c main_arg9 (by decide)).trans (U1_main_arg9 m c)
theorem U3_main_arg9 (c : Dev nD) : U3 m c main_arg9 = m ((c : Thread nD τ).loc main_arg9) :=
  (U3_of m c main_arg9 (by decide)).trans (U2_main_arg9 m c)
theorem U1_main_arg10 (c : Dev nD) : U1 m c main_arg10 = m ((c : Thread nD τ).loc main_arg10) :=
  (U1_of m c main_arg10 (by decide)).trans rfl
theorem U2_main_arg10 (c : Dev nD) : U2 m c main_arg10 = m ((c : Thread nD τ).loc main_arg10) :=
  (U2_of m c main_arg10 (by decide)).trans (U1_main_arg10 m c)
theorem U3_main_arg10 (c : Dev nD) : U3 m c main_arg10 = m ((c : Thread nD τ).loc main_arg10) :=
  (U3_of m c main_arg10 (by decide)).trans (U2_main_arg10 m c)

theorem U2_main_v0_0 (c : Dev nD) : U2 m c main_v0_0 = e1 m c :=
  (U2_of m c main_v0_0 (by decide)).trans (U1_main_v0_0 m c)
theorem U2_main_v0_1 (c : Dev nD) : U2 m c main_v0_1 = e2 m c :=
  (U2_of m c main_v0_1 (by decide)).trans (U1_main_v0_1 m c)
theorem U3_main_v0_0 (c : Dev nD) : U3 m c main_v0_0 = e1 m c :=
  (U3_of m c main_v0_0 (by decide)).trans (U2_main_v0_0 m c)
theorem U3_main_v0_1 (c : Dev nD) : U3 m c main_v0_1 = e2 m c :=
  (U3_of m c main_v0_1 (by decide)).trans (U2_main_v0_1 m c)
theorem U3_main_v1_0 (c : Dev nD) : U3 m c main_v1_0 = g1 m c :=
  (U3_of m c main_v1_0 (by decide)).trans (U2_main_v1_0 m c)
theorem U3_main_v1_1 (c : Dev nD) : U3 m c main_v1_1 = g2 m c :=
  (U3_of m c main_v1_1 (by decide)).trans (U2_main_v1_1 m c)

theorem V1_eq (c : Dev nD) : Gen.V1 m (outs m) c = U1 m c := by
  show Function.update (Function.update (Gen.V0 m c) main_v0_0 (U1 m c main_v0_0)) main_v0_1 (U1 m c main_v0_1) = U1 m c
  rw [U1_main_v0_0, U1_main_v0_1]; rfl
theorem V2_eq (c : Dev nD) : Gen.V2 m (outs m) c = U2 m c := by
  show Function.update (Function.update (Gen.V1 m (outs m) c) main_v1_0 (U2 m c main_v1_0)) main_v1_1 (U2 m c main_v1_1) = U2 m c
  rw [V1_eq, U2_main_v1_0, U2_main_v1_1]; rfl
theorem V3_eq (c : Dev nD) : Gen.V3 m (outs m) c = U3 m c := by
  show Function.update (Gen.V2 m (outs m) c) main_v2 (U3 m c main_v2) = U3 m c
  rw [V2_eq, U3_main_v2]; rfl

/-- Every region's proof data, each at its region's entry contents. -/
def pdats : (p : Fin 3) → (c : Dev nD) → Dat τ (Elt F) Unit ℕ (UR sig nD τ) ℕ (cfgs p) c
  | ⟨0, _⟩ => fun c => dat0 (P0 m) c
  | ⟨1, _⟩ => fun c => dat1 (P1 m) c
  | ⟨2, _⟩ => fun c => dat2 (P2 m) c

/-- No core owes another anything: no level is assigned. -/
abbrev L : GSem nD τ sig → Finset Unit := fun _ => ∅
abbrev lv : GSem nD τ sig → Unit → ℕ := fun _ _ => 0

/-- What rides beside the buffers between the regions: the generator register at some state, and nothing owed. -/
abbrev Rr (c : Dev nD) : sProp 𝕄 := iprop((∃ r, prngReg c r) ∗ ∃ W, owes (c : Thread nD τ) (0 : CellTallies nD τ sig Unit) W)

/-- The thread state between the regions: every unscoped buffer at the contents named, beside the rest. -/
abbrev Ts (W : Dev nD → Valuation τ sig (Elt F)) (c : Dev nD) : sProp 𝕄 :=
  iprop(StableHlo.held (c : Thread nD τ) (Pipeline.ucRefs τ sig) (W c) ∗ Rr (F := F) c)

end Cert.Kernel.Hand

end
-- ==== Proof.KReg0.lean ====
/-
  The first kernel region as a segment of the program: its arrays are taken out of the core's unscoped buffers at the
  launch contents and put back with the two linear blocks in its output arrays; the generator register passes through
  the region's invariant; nothing is owed.
-/
import proofs.«116829_j12214886990221_1_alg».proof.Proof.KRunData
import Idealize.ShloMosaic.Lib.Pipeline.RegionsLoop
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the region each of its arrays holds what the pipeline leaves in it: an input's array is an argument,
    unchanged; the two outputs' arrays hold the two linear blocks. -/
theorem hF0 (c : Dev nD) : ∀ w : Fin cfg0.W, (pdats m 0 c).arrAt w cfg0.N = P1 m c (Pipeline.arrRef spec0 w)
  | ⟨0, _⟩ => ((dat0 (P0 m) c).arrAt_in 0 rfl _).trans ((A_eq0 (P0 m) c 0).trans (U1_of m c _ (by decide)).symm)
  | ⟨1, _⟩ => ((dat0 (P0 m) c).arrAt_in 1 rfl _).trans ((A_eq0 (P0 m) c 1).trans (U1_of m c _ (by decide)).symm)
  | ⟨2, _⟩ => ((dat0 (P0 m) c).arrAt_in 2 rfl _).trans ((A_eq0 (P0 m) c 2).trans (U1_of m c _ (by decide)).symm)
  | ⟨3, _⟩ => ((dat0 (P0 m) c).arrAt_in 3 rfl _).trans ((A_eq0 (P0 m) c 3).trans (U1_of m c _ (by decide)).symm)
  | ⟨4, _⟩ => ((dat0 (P0 m) c).arrAt_in 4 rfl _).trans ((A_eq0 (P0 m) c 4).trans (U1_of m c _ (by decide)).symm)
  | ⟨5, _⟩ => (U1_main_v0_0 m c).symm
  | ⟨6, _⟩ => (U1_main_v0_1 m c).symm

/-- Every buffer that is no array of the region holds after it what it held before. -/
theorem hrest0 (c : Dev nD) : ∀ b, b ∉ Finset.univ.image (Pipeline.arrRef spec0) → P1 m c b = P0 m c b :=
  fun b hb => U1_of m c b fun hmem => by
    rcases List.mem_cons.mp hmem with e | hmem
    · exact hb (Finset.mem_image.mpr ⟨5, Finset.mem_univ _, e.symm⟩)
    · rcases List.mem_cons.mp hmem with e | hmem
      · exact hb (Finset.mem_image.mpr ⟨6, Finset.mem_univ _, e.symm⟩)
      · exact absurd hmem List.not_mem_nil

set_option backward.isDefEq.respectTransparency.types false in
/-- The region as a segment of the program: entered from every unscoped buffer at the contents before it, left with
    them at the contents after it. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (P0 m) c).loose
  hwaits := Pipeline.hwaits_of_owed_zero _ _ _ _ L lv 0 fun _ _ => rfl
  pre c := Ts (fun c => Gen.V0 m c) c
  post c := Ts (U1 m) c
  X c := iprop(∃ r, prngReg c r)
  Y c := iprop(∃ r, prngReg c r)
  Z c := Pipeline.unscopedRest (Ix := Unit) (Name := ℕ) (U := UR sig nD τ) (Lvl := ℕ) spec0 c (P0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (P0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (P0 m c) (P1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = Ts (fun c => Gen.V0 m c) c := rfl
theorem reg0_post (c : Dev nD) : (reg0 m).post c = Ts (U1 m) c := rfl

end Cert.Kernel.Hand

end
-- ==== Proof.KReg1.lean ====
/-
  The second kernel region as a segment of the program. Two of its arrays are each read through two windows, so each of
  those buffers' full share is split in two complementary halves, one per window, at entry, and the halves are joined
  again at exit (both windows only read: the contents are the entry contents). Its other three arrays are taken out of
  the core's unscoped buffers whole and put back, the two outputs with the two aggregates.
-/
import proofs.«116829_j12214886990221_1_alg».proof.Proof.KRunData
import Idealize.ShloMosaic.Lib.Pipeline.RegionsLoop
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The five buffers behind the seven windows -/

/-- The buffers behind the windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1)
          ∗ (((c : Thread nD τ).loc main_arg3) ↦{fullShare} V main_arg3) ∗ (((c : Thread nD τ).loc main_v1_0) ↦{fullShare} V main_v1_0)
          ∗ (((c : Thread nD τ).loc main_v1_1) ↦{fullShare} V main_v1_1)) := by
  unfold Pipeline.arrBufs
  exact bigSep_eq_bigSepL_of_eq [main_v0_0, main_v0_1, main_arg3, main_v1_0, main_v1_1] (by decide) (by decide) _

/-- Each window's share of its array: the two windows on one input array hold complementary halves. -/
def sh1 : Fin 7 → PosShare TreeShare
  | ⟨0, _⟩ => fullShare.left
  | ⟨1, _⟩ => fullShare.right
  | ⟨2, _⟩ => fullShare.left
  | ⟨3, _⟩ => fullShare.right
  | _ => fullShare

theorem share1 (c : Dev nD) : ∀ w : Fin 7, (pdats m 1 c).share w = sh1 w
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

set_option backward.isDefEq.respectTransparency.types false in
/-- The windows' arrays, one by one, each a whole buffer at its window's share. -/
theorem arrays1_eq (c : Dev nD) (G : (w : Fin cfg1.W) → Buf (Elt F) ((cfg1.win w).arr.view.loc (c : Thread nD τ))) :
    ((pdats m 1 c).arrays G : sProp 𝕄)
      = iprop((((c : Thread nD τ).loc main_v0_0) ↦{fullShare.left} G 0) ∗ (((c : Thread nD τ).loc main_v0_0) ↦{fullShare.right} G 1)
          ∗ (((c : Thread nD τ).loc main_v0_1) ↦{fullShare.left} G 2) ∗ (((c : Thread nD τ).loc main_v0_1) ↦{fullShare.right} G 3)
          ∗ (((c : Thread nD τ).loc main_arg3) ↦{fullShare} G 4) ∗ (((c : Thread nD τ).loc main_v1_0) ↦{fullShare} G 5)
          ∗ (((c : Thread nD τ).loc main_v1_1) ↦{fullShare} G 6)) := by
  have h1 : ((pdats m 1 c).arrays G : sProp 𝕄)
      = bigSep Finset.univ fun w : Fin 7 => (((c : Thread nD τ).loc (Pipeline.arrRef spec1 w)) ↦{sh1 w} G w : sProp 𝕄) := by
    unfold Pipeline.Dat.arrays
    exact bigSep_congr fun w _ => by
      rw [show ((cfgs 1).win w).arr.view.set = Finset.univ from (arr_whole1 w).set_eq_univ, share1]; rfl
  rw [h1, Gen.bigSep_W1]
  rfl

/-- A whole buffer at the full share is the same buffer at the two halves of the full share, -/
theorem halves_split (ℓ : Loc nD τ sig) (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
/-- and back. -/
theorem halves_join (ℓ : Loc nD τ sig) (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

set_option backward.isDefEq.respectTransparency.types false in
/-- ENTRY: the five buffers at the entry contents are the seven windows' arrays at them. -/
theorem arrays_of_arrBufs1 (c : Dev nD) :
    (Pipeline.arrBufs (Ix := Unit) (Name := ℕ) (U := UR sig nD τ) (Lvl := ℕ) spec1 c (P1 m c) : sProp 𝕄)
      ⊢ (pdats m 1 c).arrays ((pdats m 1 c).arrAt · 0) := by
  rw [arrBufs1_eq, arrays1_eq]
  iintro ⟨H0, H1, H2, H3, H4⟩
  ihave H := (halves_split (F := F) _ _) $$ H0
  icases H with ⟨H0l, H0r⟩
  ihave H := (halves_split (F := F) _ _) $$ H1
  icases H with ⟨H1l, H1r⟩
  isplitl [H0l]; · iexact H0l
  isplitl [H0r]; · iexact H0r
  isplitl [H1l]; · iexact H1l
  isplitl [H1r]; · iexact H1r
  isplitl [H2]; · iexact H2
  isplitl [H3]; · iexact H3
  iexact H4

set_option backward.isDefEq.respectTransparency.types false in
/-- EXIT: the seven windows' arrays after the last point are the five buffers at the exit contents. The inputs hold
    their entry contents (an input's array is never written), so each pair of halves is of one buffer at one contents. -/
theorem arrBufs_of_arrays1 (c : Dev nD) :
    ((pdats m 1 c).arrays ((pdats m 1 c).arrAt · cfg1.N) : sProp 𝕄)
      ⊢ Pipeline.arrBufs (Ix := Unit) (Name := ℕ) (U := UR sig nD τ) (Lvl := ℕ) spec1 c (P2 m c) := by
  rw [arrBufs1_eq, arrays1_eq]
  have e0 : (pdats m 1 c).arrAt 0 cfg1.N = P2 m c main_v0_0 :=
    ((dat1 (P1 m) c).arrAt_in 0 rfl cfg1.N).trans (U2_of m c main_v0_0 (by decide)).symm
  have e1 : (pdats m 1 c).arrAt 1 cfg1.N = P2 m c main_v0_0 :=
    ((dat1 (P1 m) c).arrAt_in 1 rfl cfg1.N).trans (U2_of m c main_v0_0 (by decide)).symm
  have e2 : (pdats m 1 c).arrAt 2 cfg1.N = P2 m c main_v0_1 :=
    ((dat1 (P1 m) c).arrAt_in 2 rfl cfg1.N).trans (U2_of m c main_v0_1 (by decide)).symm
  have e3 : (pdats m 1 c).arrAt 3 cfg1.N = P2 m c main_v0_1 :=
    ((dat1 (P1 m) c).arrAt_in 3 rfl cfg1.N).trans (U2_of m c main_v0_1 (by decide)).symm
  have e4 : (pdats m 1 c).arrAt 4 cfg1.N = P2 m c main_arg3 :=
    ((dat1 (P1 m) c).arrAt_in 4 rfl cfg1.N).trans (U2_of m c main_arg3 (by decide)).symm
  have e5 : (pdats m 1 c).arrAt 5 cfg1.N = P2 m c main_v1_0 := (U2_main_v1_0 m c).symm
  have e6 : (pdats m 1 c).arrAt 6 cfg1.N = P2 m c main_v1_1 := (U2_main_v1_1 m c).symm
  rw [e0, e1, e2, e3, e4, e5, e6]
  have hj0 := halves_join (F := F) ((c : Thread nD τ).loc main_v0_0) (P2 m c main_v0_0)
  have hj1 := halves_join (F := F) ((c : Thread nD τ).loc main_v0_1) (P2 m c main_v0_1)
  iintro ⟨H0l, H0r, H1l, H1r, H2, H3, H4⟩
  isplitl [H0l H0r]
  · iapply hj0; isplitl [H0l]; · iexact H0l
    iexact H0r
  isplitl [H1l H1r]
  · iapply hj1; isplitl [H1l]; · iexact H1l
    iexact H1r
  isplitl [H2]; · iexact H2
  isplitl [H3]; · iexact H3
  iexact H4

/-- The unscoped buffers that are no window's array hold after the region what they held before it. -/
theorem unscopedRest1_exit (c : Dev nD) :
    (Pipeline.unscopedRest (Ix := Unit) (Name := ℕ) (U := UR sig nD τ) (Lvl := ℕ) spec1 c (P2 m c) : sProp 𝕄)
      = Pipeline.unscopedRest spec1 c (P1 m c) := by
  rw [unscopedRest1_eq, unscopedRest1_eq]
  show iprop(_ ∗ _ ∗ _ ∗ _ ∗ _ ∗ _ ∗ _ ∗ _ ∗ _ ∗ _ ∗ _) = iprop(_ ∗ _ ∗ _ ∗ _ ∗ _ ∗ _ ∗ _ ∗ _ ∗ _ ∗ _ ∗ _)
  rw [show P2 m c main_arg0 = P1 m c main_arg0 from U2_of m c main_arg0 (by decide),
    show P2 m c main_arg1 = P1 m c main_arg1 from U2_of m c main_arg1 (by decide),
    show P2 m c main_arg2 = P1 m c main_arg2 from U2_of m c main_arg2 (by decide),
    show P2 m c main_arg4 = P1 m c main_arg4 from U2_of m c main_arg4 (by decide),
    show P2 m c main_arg5 = P1 m c main_arg5 from U2_of m c main_arg5 (by decide),
    show P2 m c main_arg6 = P1 m c main_arg6 from U2_of m c main_arg6 (by decide),
    show P2 m c main_arg7 = P1 m c main_arg7 from U2_of m c main_arg7 (by decide),
    show P2 m c main_arg8 = P1 m c main_arg8 from U2_of m c main_arg8 (by decide),
    show P2 m c main_arg9 = P1 m c main_arg9 from U2_of m c main_arg9 (by decide),
    show P2 m c main_arg10 = P1 m c main_arg10 from U2_of m c main_arg10 (by decide),
    show P2 m c main_v2 = P1 m c main_v2 from U2_of m c main_v2 (by decide)]

set_option backward.isDefEq.respectTransparency.types false in
/-- ENTRY, from the core's unscoped buffers at the entry contents. -/
theorem entry1 (c : Dev nD) :
    (StableHlo.held (c : Thread nD τ) (Pipeline.ucRefs τ sig) (U1 m c) : sProp 𝕄)
      ⊢ iprop((pdats m 1 c).arrays ((pdats m 1 c).arrAt · 0)
          ∗ Pipeline.unscopedRest (Ix := Unit) (Name := ℕ) (U := UR sig nD τ) (Lvl := ℕ) spec1 c (P1 m c)) := by
  rw [← Pipeline.unscopedBufs_held, Pipeline.unscopedBufs_split₀ cfgs 1 winFacts₀1.arr_unscoped c]
  exact sep_mono_l (arrays_of_arrBufs1 m c)

set_option backward.isDefEq.respectTransparency.types false in
/-- EXIT, to the core's unscoped buffers at the exit contents. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (P1 m c))
      ⊢ (StableHlo.held (c : Thread nD τ) (Pipeline.ucRefs τ sig) (U2 m c) : sProp 𝕄) := by
  rw [← Pipeline.unscopedBufs_held, Pipeline.unscopedBufs_split₀ cfgs 1 winFacts₀1.arr_unscoped c, ← unscopedRest1_exit]
  exact sep_mono_l (arrBufs_of_arrays1 m c)

set_option backward.isDefEq.respectTransparency.types false in
/-- The region as a segment of the program: entered from every unscoped buffer at the contents before it, left with
    them at the contents after it. -/
def reg1 : Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (body_obligation1 (P1 m) c).loose
  hwaits := Pipeline.hwaits_of_owed_zero _ _ _ _ L lv 1 fun _ _ => rfl
  pre c := Ts (U1 m) c
  post c := Ts (U2 m) c
  X c := iprop(∃ r, prngReg c r)
  Y c := iprop(∃ r, prngReg c r)
  Z c := Pipeline.unscopedRest (Ix := Unit) (Name := ℕ) (U := UR sig nD τ) (Lvl := ℕ) spec1 c (P1 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (P1 m) c)
    unfold Pipeline.ΦA
    iintro ⟨Hp, -, Hr⟩
    isplitl [Hr]; · iexact Hr
    iexact Hp
  hout c := by
    rw [Pipeline.ownSems0_none]
    refine (hout1 (P1 m) c).trans ?_
    unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (c : Dev nD) : (reg1 m).pre c = Ts (U1 m) c := rfl
theorem reg1_post (c : Dev nD) : (reg1 m).post c = Ts (U2 m) c := rfl

end Cert.Kernel.Hand

end
-- ==== Proof.KReg2.lean ====
/-
  The third kernel region as a segment of the program: its arrays are taken out of the core's unscoped buffers at the
  contents the second region left and put back with the result in its output array; the generator register passes
  through the region's invariant; nothing is owed.
-/
import proofs.«116829_j12214886990221_1_alg».proof.Proof.KRunData
import Idealize.ShloMosaic.Lib.Pipeline.RegionsLoop
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the region each of its arrays holds what the pipeline leaves in it: an input's array is unchanged; the
    output's array holds the result. -/
theorem hF2 (c : Dev nD) : ∀ w : Fin cfg2.W, (pdats m 2 c).arrAt w cfg2.N = (fun b : Ref sig .tc => U3 m c b) (Pipeline.arrRef spec2 w)
  | ⟨0, _⟩ => ((dat2 (P2 m) c).arrAt_in 0 rfl _).trans ((A_eq2 (P2 m) c 0).trans (U3_of m c _ (by decide)).symm)
  | ⟨1, _⟩ => ((dat2 (P2 m) c).arrAt_in 1 rfl _).trans ((A_eq2 (P2 m) c 1).trans (U3_of m c _ (by decide)).symm)
  | ⟨2, _⟩ => ((dat2 (P2 m) c).arrAt_in 2 rfl _).trans ((A_eq2 (P2 m) c 2).trans (U3_of m c _ (by decide)).symm)
  | ⟨3, _⟩ => ((dat2 (P2 m) c).arrAt_in 3 rfl _).trans ((A_eq2 (P2 m) c 3).trans (U3_of m c _ (by decide)).symm)
  | ⟨4, _⟩ => ((dat2 (P2 m) c).arrAt_in 4 rfl _).trans ((A_eq2 (P2 m) c 4).trans (U3_of m c _ (by decide)).symm)
  | ⟨5, _⟩ => (U3_main_v2 m c).symm

/-- Every buffer that is no array of the region holds after it what it held before. -/
theorem hrest2 (c : Dev nD) : ∀ b, b ∉ Finset.univ.image (Pipeline.arrRef spec2) → (fun b : Ref sig .tc => U3 m c b) b = P2 m c b :=
  fun b hb => U3_of m c b fun e => hb (Finset.mem_image.mpr ⟨5, Finset.mem_univ _, e.symm⟩)

set_option backward.isDefEq.respectTransparency.types false in
/-- The region as a segment of the program: entered from every unscoped buffer at the contents before it, left with
    them at the contents after it. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (P2 m) c).loose
  hwaits := Pipeline.hwaits_of_owed_zero _ _ _ _ L lv 2 fun _ _ => rfl
  pre c := Ts (U2 m) c
  post c := Ts (U3 m) c
  X c := iprop(∃ r, prngReg c r)
  Y c := iprop(∃ r, prngReg c r)
  Z c := Pipeline.unscopedRest (Ix := Unit) (Name := ℕ) (U := UR sig nD τ) (Lvl := ℕ) spec2 c (P2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (P2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (P2 m c) (fun b : Ref sig .tc => U3 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg2_pre (c : Dev nD) : (reg2 m).pre c = Ts (U2 m) c := rfl
theorem reg2_post (c : Dev nD) : (reg2 m).post c = Ts (U3 m) c := rfl

end Cert.Kernel.Hand

end
-- ==== Proof.KRunMain.lean ====
/-
  The program's run: from any memory with zero counters every weakly fair execution of the three regions terminates,
  nothing faulting, with every argument array as launched (the frame). The launch deals each core its buffers at the
  launch contents beside the generator register and nothing owed; each region is entered from the contents before it
  and left at the contents after it; at the end the register is dropped and nothing is owed.
-/
import proofs.«116829_j12214886990221_1_alg».proof.Proof.KReg0
import proofs.«116829_j12214886990221_1_alg».proof.Proof.KReg1
import proofs.«116829_j12214886990221_1_alg».proof.Proof.KReg2
import proofs.«116829_j12214886990221_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element is the staging cells' own, and no ghost resource is dealt. -/
theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core beside its buffers makes the rest: the register at its launch state, nothing owed. -/
theorem launch_rest : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => Rr (F := F) c) : sProp 𝕄) := by
  refine Pipeline.initEach L lv fun c => ?_
  iintro ⟨⟨-, HO, -, Hp, -⟩, -⟩
  imodintro
  isplitl [Hp]; · iexists _; iexact Hp
  iexists ∅; iexact HO

/-- The rest ends owing nothing: the register is dropped. -/
theorem rest_end (c : Dev nD) : Rr (F := F) c ⊢ (iprop(∃ W, owes (c : Thread nD τ) (0 : CellTallies nD τ sig Unit) W) : sProp 𝕄) := by
  iintro ⟨-, H⟩; iexact H

/-- Each region is entered from the contents before it and left at the contents after it, beside the rest. -/
theorem pre0 (c : Dev nD) : iprop(StableHlo.held (c : Thread nD τ) (Pipeline.ucRefs τ sig) (Gen.V0 m c) ∗ Rr (F := F) c) ⊢ (reg0 m).pre c := .rfl
theorem post0 (c : Dev nD) : (reg0 m).post c ⊢ iprop(StableHlo.held (c : Thread nD τ) (Pipeline.ucRefs τ sig) (Gen.V1 m (outs m) c) ∗ Rr (F := F) c) := by
  rw [V1_eq]; exact .rfl
theorem pre1 (c : Dev nD) : iprop(StableHlo.held (c : Thread nD τ) (Pipeline.ucRefs τ sig) (Gen.V1 m (outs m) c) ∗ Rr (F := F) c) ⊢ (reg1 m).pre c := by
  rw [V1_eq]; exact .rfl
theorem post1 (c : Dev nD) : (reg1 m).post c ⊢ iprop(StableHlo.held (c : Thread nD τ) (Pipeline.ucRefs τ sig) (Gen.V2 m (outs m) c) ∗ Rr (F := F) c) := by
  rw [V2_eq]; exact .rfl
theorem pre2 (c : Dev nD) : iprop(StableHlo.held (c : Thread nD τ) (Pipeline.ucRefs τ sig) (Gen.V2 m (outs m) c) ∗ Rr (F := F) c) ⊢ (reg2 m).pre c := by
  rw [V2_eq]; exact .rfl
theorem post2 (c : Dev nD) : (reg2 m).post c ⊢ iprop(StableHlo.held (c : Thread nD τ) (Pipeline.ucRefs τ sig) (Gen.V3 m (outs m) c) ∗ Rr (F := F) c) := by
  rw [V3_eq]; exact .rfl

/-- Every execution terminates and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond (F := F) m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := launch_elem)
    (E := fun _ c => Rr c)
    (hE0 := launch_rest ρ)
    (hE3 := rest_end)
    (R0 := reg0 m) (hpre0 := pre0 m) (hpost0 := post0 m)
    (R1 := reg1 m) (hpre1 := pre1 m) (hpost1 := post1 m)
    (R2 := reg2 m) (hpre2 := pre2 m) (hpost2 := post2 m)

end Cert.Kernel.Hand

end
-- ==== Proof.KIRegion0.lean ====
/-
  The first kernel region (the two linear blocks e₁ = max(x·W₁ + b₁, 0), e₂ = max(x·W₂ + b₂, 0), one 1024-row tile of x
  per grid point) at the buffer contents V the region is entered with: each window's block at a point, what the body
  leaves in each staging buffer, and the body's obligation to the pipeline.
-/
import proofs.«116829_j12214886990221_1_alg».proof.Proof.Gen.KernelIdeal.Launch
import proofs.«116829_j12214886990221_1_alg».proof.Proof.Gen.KernelIdeal.Skeleton
import proofs.«116829_j12214886990221_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the arrays as entered; after the body each input's buffer at its block, the two outputs'
    at the linear blocks of the point's tile of x. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t) (iblk0 V c 1 t) (iblk0 V c 2 t)
    | ⟨6, _⟩ => k0_pay3 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = k0_pay2 (iblk0 V c 0 t) (iblk0 V c 1 t) (iblk0 V c 2 t) := by dsimp only [dat0]
theorem after0_6 (c : Dev nD) (t : Fin cfg0.N) :
    (dat0 V c).after 6 t = k0_pay3 (iblk0 V c 0 t) (iblk0 V c 3 t) (iblk0 V c 4 t) := by dsimp only [dat0]

/-! ## The input windows' buffers hold their blocks at every point -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- The tile of x: moved at every point, and the body leaves it in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- W₁: fetched at the first point only; its block index never moves, so the buffer holds the block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- b₁, likewise. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- W₂, likewise. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- b₂, likewise. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body's accesses: every load and store is the whole buffer, the full-size rectangle at the origin -/

theorem zeros2 : (![0, 0] : Fin 2 → Nat) = fun _ => 0 := funext fun a => by fin_cases a <;> rfl
theorem zeros1 : (![0] : Fin 1 → Nat) = fun _ => 0 := funext fun a => by fin_cases a; rfl

abbrev rX : Rect S1024x256 := Rect.unit (s := S1024x256) ![0, 0] S1024x256.size inb_S1024x256_S1024x256_0_0
abbrev rW : Rect S256x256 := Rect.unit (s := S256x256) ![0, 0] S256x256.size inb_S256x256_S256x256_0_0
abbrev rB : Rect S256 := Rect.unit (s := S256) ![0] S256.size inb_S256_S256_0

/-- One store through the full-size rectangle covers the buffer. -/
theorem coverX (p0 : Vec F S1024x256 .bf16) (y : S1024x256.Idx) :
    ∃ pc ∈ ([⟨rX, p0⟩] : List (View.Piece (Elt F) S1024x256 .bf16)), y ∈ pc.1.set :=
  ⟨_, List.mem_singleton_self _, View.mem_set_unit_zero (S := S1024x256) zeros2 inb_S1024x256_S1024x256_0_0 y⟩

/-! ## The body's triple -/

set_option maxHeartbeats 1000000 in
/-- The body on whole staging memrefs, x's tile at x0, W₁ at x1, b₁ at x2, W₂ at x3, b₂ at x4 and the outputs' at
    anything, runs to the continuation holding the inputs' as they were, the first output's at the first linear
    block of (x0, x1, x2) and the second's at the second linear block of (x0, x3, x4). -/
theorem sound_kernel0 (c : Dev nD) (E : Set ℕ) (i : grid0.Coords)
    (arg1 : Memref sig .tc .vmem S1024x256 .f32) (harg1 : arg1.IsWhole)
    (arg2 : Memref sig .tc .vmem S256x256 .f32) (harg2 : arg2.IsWhole)
    (arg3 : Memref sig .tc .vmem S256 .f32) (harg3 : arg3.IsWhole)
    (arg4 : Memref sig .tc .vmem S256x256 .f32) (harg4 : arg4.IsWhole)
    (arg5 : Memref sig .tc .vmem S256 .f32) (harg5 : arg5.IsWhole)
    (arg6 : Memref sig .tc .vmem S1024x256 .bf16) (harg6 : arg6.IsWhole)
    (arg7 : Memref sig .tc .vmem S1024x256 .bf16) (harg7 : arg7.IsWhole)
    (x0 : Vec F S1024x256 .f32) (x1 : Vec F S256x256 .f32) (x2 : Vec F S256 .f32)
    (x3 : Vec F S256x256 .f32) (x4 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k0_pay2 x0 x1 x2)
            ∗ owns (c : Thread nD τ) arg7 fullShare (k0_pay3 x0 x3 x4)) -∗ K ⟨⟩))
      ⊢ wp frame (wpE (defs₀ (F := F)) Variants.none c none) E
          (cc0__dual_linear_kernel i arg1 harg1 arg2 harg2 arg3 harg3 arg4 harg4 arg5 harg5 arg6 harg6 arg7 harg7) K := by
  simp only [cc0__dual_linear_kernel_eq_skeleton]; unfold cc0__dual_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverX _),
      View.canon_unit_zero (S := S1024x256) zeros2 inb_S1024x256_S1024x256_0_0]
    simp only [View.readAt_eq_ld, View.ld_unit_zero (S := S1024x256) zeros2, View.ld_unit_zero (S := S256x256) zeros2,
      View.ld_unit_zero (S := S256) zeros1]
  iexists _; isplitr
  swap; · iexact H6
  ipureintro
  rw [View.read_writes_eq_canon _ _ _ (coverX _),
    View.canon_unit_zero (S := S1024x256) zeros2 inb_S1024x256_S1024x256_0_0]
  simp only [View.readAt_eq_ld, View.ld_unit_zero (S := S1024x256) zeros2, View.ld_unit_zero (S := S256x256) zeros2,
    View.ld_unit_zero (S := S256) zeros1]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the pipeline at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Run.lean ====
/-
  The second kernel's body (one key step of the two similarity-weighted aggregates) as a triple, in each of the three
  cases of its two conditionals. The body keeps two accumulators. At the first key step of a row tile (j = 0) it
  restarts them from zero; at every step it adds the step's contribution: with e the row tile, e' the key tile of the
  linear block and x' the key tile of x, the first accumulator becomes acc + ((e·e'ᵀ)·(1/256))·x', the second likewise
  for the other linear block; at the last key step (j = 7) it also copies the accumulators into the two outputs.
  Elsewhere the outputs' buffers are left exactly as found.
-/
import proofs.«116829_j12214886990221_1_alg».proof.Proof.Gen.KernelIdeal.Launch
import proofs.«116829_j12214886990221_1_alg».proof.Proof.Gen.KernelIdeal.Skeleton
import proofs.«116829_j12214886990221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One key step on the first accumulator. -/
abbrev upd0 (x0 : Vec F S512x256 .bf16) (x1 : Vec F S1024x256 .bf16) (x4 : Vec F S1024x256 .f32) (s : Vec F S512x256 .f32) : Vec F S512x256 .f32 :=
  k1_pay5 x0 x1 x4 s
/-- One key step on the second accumulator. -/
abbrev upd1 (x2 : Vec F S512x256 .bf16) (x3 : Vec F S1024x256 .bf16) (x4 : Vec F S1024x256 .f32) (s : Vec F S512x256 .f32) : Vec F S512x256 .f32 :=
  k1_pay1 (k1_pay6 x2 x3 x4 s)

/-- The offsets of every access here: zero on both axes. -/
theorem zero2 : (![0, 0] : Fin 2 → Nat) = fun _ => 0 := funext fun a => by fin_cases a <;> rfl

local notation "rS" => (Rect.unit (s := S512x256) ![0, 0] S512x256.size inb_S512x256_S512x256_0_0)
local notation "rL" => (Rect.unit (s := S1024x256) ![0, 0] S1024x256.size inb_S1024x256_S1024x256_0_0)

/-- A load of a whole 512×256 buffer reads its contents. -/
theorem load_whole_S {e : EltTy} (m : Memref sig .tc .vmem S512x256 e) (h : m.IsWhole) (X : Vec F S512x256 e) :
    m.view.readAt (Elt F) (Rect.toLoadRect rS) (h.unread X) = X := by
  rw [View.readAt_eq_ld, h.read_unread, View.ld_unit_zero (S := S512x256) zero2]

/-- A load of a whole 1024×256 buffer reads its contents. -/
theorem load_whole_L {e : EltTy} (m : Memref sig .tc .vmem S1024x256 e) (h : m.IsWhole) (X : Vec F S1024x256 e) :
    m.view.readAt (Elt F) (Rect.toLoadRect rL) (h.unread X) = X := by
  rw [View.readAt_eq_ld, h.read_unread, View.ld_unit_zero (S := S1024x256) zero2]

/-- The whole-buffer rectangle holds every index. -/
theorem mem_rS (y : S512x256.Idx) : y ∈ (rS).set :=
  View.mem_set_unit_zero (S := S512x256) zero2 inb_S512x256_S512x256_0_0 y

/-- A list of stores that ends with a whole-buffer store covers the buffer. -/
theorem cover_S {e : EltTy} (w : Vec F S512x256 e) (L : List (View.Piece (Elt F) S512x256 e)) :
    ∀ y : S512x256.Idx, ∃ p ∈ ((⟨rS, w⟩ : View.Piece (Elt F) S512x256 e) :: L), y ∈ p.1.set :=
  fun y => ⟨⟨rS, w⟩, List.mem_cons.2 (Or.inl rfl), mem_rS y⟩

/-- After a store of the whole 512×256 buffer, whatever was stored before, the buffer reads as the stored value. -/
theorem read_store_S {e : EltTy} (v : View sig .tc .vmem S512x256 e) (f : v.ty.Contents (Elt F)) (w : Vec F S512x256 e)
    (L : List (View.Piece (Elt F) S512x256 e)) :
    v.read (Elt F) (v.writes (Elt F) f ((⟨rS, w⟩ : View.Piece (Elt F) S512x256 e) :: L)) = w := by
  rw [View.read_writes_eq_canon _ _ _ (cover_S w L), View.canon_cons_unit_zero (S := S512x256) zero2]

/-- The test of the first conditional, as the body computes it from the key-step coordinate. -/
abbrev condFirst (i : grid1.Coords) : Prop :=
  Scalar.cmpi .ne (Scalar.extui (Scalar.cmpi .eq (BitVec.ofNat 32 (i 1).val) 0#32)) 0#32 = 1#1

/-- The test of the second conditional. -/
abbrev condLast (i : grid1.Coords) : Prop := k1_cond2 i = 1#1

private theorem condFirst_fin : ∀ n : Fin 8,
    (Scalar.cmpi .ne (Scalar.extui (Scalar.cmpi .eq (BitVec.ofNat 32 n.val) 0#32)) 0#32 = 1#1) ↔ n.val = 0 := by decide

private theorem condLast_fin : ∀ n : Fin 8,
    (Scalar.cmpi .ne (Scalar.extui (Scalar.cmpi .eq (BitVec.ofNat 32 n.val) 7#32)) 0#32 = 1#1) ↔ n.val = 7 := by decide

/-- The first conditional is taken exactly at key step 0 (the coordinate ranges over eight values). -/
theorem condFirst_iff (i : grid1.Coords) : condFirst i ↔ (i 1).val = 0 := condFirst_fin (i 1)

/-- The second conditional is taken exactly at key step 7. -/
theorem condLast_iff (i : grid1.Coords) : condLast i ↔ (i 1).val = 7 := condLast_fin (i 1)

set_option maxHeartbeats 1000000 in
/-- The first key step: whatever the accumulators held, they end at one step from zero; the outputs' buffers are untouched. -/
theorem sound_kernel1_first (c : Dev nD) (E : Set ℕ) (i : grid1.Coords) (hj : (i 1).val = 0)
    (a2 : Memref sig .tc .vmem S512x256 .bf16) (h2 : a2.IsWhole) (a3 : Memref sig .tc .vmem S1024x256 .bf16) (h3 : a3.IsWhole)
    (a4 : Memref sig .tc .vmem S512x256 .bf16) (h4 : a4.IsWhole) (a5 : Memref sig .tc .vmem S1024x256 .bf16) (h5 : a5.IsWhole)
    (a6 : Memref sig .tc .vmem S1024x256 .f32) (h6 : a6.IsWhole) (a7 : Memref sig .tc .vmem S512x256 .f32) (h7 : a7.IsWhole)
    (a8 : Memref sig .tc .vmem S512x256 .f32) (h8 : a8.IsWhole) (a9 : Memref sig .tc .vmem S512x256 .f32) (h9 : a9.IsWhole)
    (a10 : Memref sig .tc .vmem S512x256 .f32) (h10 : a10.IsWhole)
    (x0 : Vec F S512x256 .bf16) (x1 : Vec F S1024x256 .bf16) (x2 : Vec F S512x256 .bf16) (x3 : Vec F S1024x256 .bf16) (x4 : Vec F S1024x256 .f32)
    (d7 d8 : Vec F S512x256 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare d7 ∗ owns (c : Thread nD τ) a8 fullShare d8
        ∗ (∃ s, owns (c : Thread nD τ) a9 fullShare s) ∗ (∃ s, owns (c : Thread nD τ) a10 fullShare s)
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
            ∗ owns (c : Thread nD τ) a7 fullShare d7 ∗ owns (c : Thread nD τ) a8 fullShare d8
            ∗ owns (c : Thread nD τ) a9 fullShare (upd0 x0 x1 x4 (k1_pay2 (F := F)))
            ∗ owns (c : Thread nD τ) a10 fullShare (upd1 x2 x3 x4 (k1_pay3 (F := F)))) -∗ K ⟨⟩))
      ⊢ wp frame (wpE (defs₀ (F := F)) Variants.none c none) E (cc1__agg_kernel i a2 h2 a3 h3 a4 h4 a5 h5 a6 h6 a7 h7 a8 h8 a9 h9 a10 h10) K := by
  have hc0 : condFirst i := (condFirst_iff i).2 hj
  have hc2 : ¬ condLast i := fun h => by have := (condLast_iff i).1 h; omega
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := h2.eq_unread hf2; obtain rfl := h3.eq_unread hf3; obtain rfl := h4.eq_unread hf4
  obtain rfl := h5.eq_unread hf5; obtain rfl := h6.eq_unread hf6
  obtain rfl := h7.eq_unread hf7; obtain rfl := h8.eq_unread hf8
  sl_exec (disch := first | exact hc0 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro
    sl_unfold_words
    rw [read_store_S]
    repeat (first | rw [load_whole_S] | rw [load_whole_L] | rw [View.readCov_cons_toLoadRect])
  iexists _; isplitr; swap; · iexact H10
  ipureintro
  sl_unfold_words
  rw [read_store_S]
  repeat (first | rw [load_whole_S] | rw [load_whole_L] | rw [View.readCov_cons_toLoadRect])

set_option maxHeartbeats 1000000 in
/-- A middle key step: the accumulators advance by one step; the outputs' buffers are untouched. -/
theorem sound_kernel1_mid (c : Dev nD) (E : Set ℕ) (i : grid1.Coords) (hj0 : (i 1).val ≠ 0) (hj7 : (i 1).val ≠ 7)
    (a2 : Memref sig .tc .vmem S512x256 .bf16) (h2 : a2.IsWhole) (a3 : Memref sig .tc .vmem S1024x256 .bf16) (h3 : a3.IsWhole)
    (a4 : Memref sig .tc .vmem S512x256 .bf16) (h4 : a4.IsWhole) (a5 : Memref sig .tc .vmem S1024x256 .bf16) (h5 : a5.IsWhole)
    (a6 : Memref sig .tc .vmem S1024x256 .f32) (h6 : a6.IsWhole) (a7 : Memref sig .tc .vmem S512x256 .f32) (h7 : a7.IsWhole)
    (a8 : Memref sig .tc .vmem S512x256 .f32) (h8 : a8.IsWhole) (a9 : Memref sig .tc .vmem S512x256 .f32) (h9 : a9.IsWhole)
    (a10 : Memref sig .tc .vmem S512x256 .f32) (h10 : a10.IsWhole)
    (x0 : Vec F S512x256 .bf16) (x1 : Vec F S1024x256 .bf16) (x2 : Vec F S512x256 .bf16) (x3 : Vec F S1024x256 .bf16) (x4 : Vec F S1024x256 .f32)
    (d7 d8 s0 s1 : Vec F S512x256 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare d7 ∗ owns (c : Thread nD τ) a8 fullShare d8
        ∗ owns (c : Thread nD τ) a9 fullShare s0 ∗ owns (c : Thread nD τ) a10 fullShare s1
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
            ∗ owns (c : Thread nD τ) a7 fullShare d7 ∗ owns (c : Thread nD τ) a8 fullShare d8
            ∗ owns (c : Thread nD τ) a9 fullShare (upd0 x0 x1 x4 s0)
            ∗ owns (c : Thread nD τ) a10 fullShare (upd1 x2 x3 x4 s1)) -∗ K ⟨⟩))
      ⊢ wp frame (wpE (defs₀ (F := F)) Variants.none c none) E (cc1__agg_kernel i a2 h2 a3 h3 a4 h4 a5 h5 a6 h6 a7 h7 a8 h8 a9 h9 a10 h10) K := by
  have hc0 : ¬ condFirst i := fun h => hj0 ((condFirst_iff i).1 h)
  have hc2 : ¬ condLast i := fun h => hj7 ((condLast_iff i).1 h)
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := h2.eq_unread hf2; obtain rfl := h3.eq_unread hf3; obtain rfl := h4.eq_unread hf4
  obtain rfl := h5.eq_unread hf5; obtain rfl := h6.eq_unread hf6
  obtain rfl := h7.eq_unread hf7; obtain rfl := h8.eq_unread hf8; obtain rfl := h9.eq_unread hf9; obtain rfl := h10.eq_unread hf10
  sl_exec (disch := first | exact hc0 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; swap; · iexact H9
    ipureintro
    sl_unfold_words
    rw [read_store_S]
    repeat (first | rw [load_whole_S] | rw [load_whole_L] | rw [View.readCov_cons_toLoadRect])
  iexists _; isplitr; swap; · iexact H10
  ipureintro
  sl_unfold_words
  rw [read_store_S]
  repeat (first | rw [load_whole_S] | rw [load_whole_L] | rw [View.readCov_cons_toLoadRect])

set_option maxHeartbeats 1000000 in
/-- The last key step: the accumulators advance by one step and the outputs receive them. -/
theorem sound_kernel1_last (c : Dev nD) (E : Set ℕ) (i : grid1.Coords) (hj : (i 1).val = 7)
    (a2 : Memref sig .tc .vmem S512x256 .bf16) (h2 : a2.IsWhole) (a3 : Memref sig .tc .vmem S1024x256 .bf16) (h3 : a3.IsWhole)
    (a4 : Memref sig .tc .vmem S512x256 .bf16) (h4 : a4.IsWhole) (a5 : Memref sig .tc .vmem S1024x256 .bf16) (h5 : a5.IsWhole)
    (a6 : Memref sig .tc .vmem S1024x256 .f32) (h6 : a6.IsWhole) (a7 : Memref sig .tc .vmem S512x256 .f32) (h7 : a7.IsWhole)
    (a8 : Memref sig .tc .vmem S512x256 .f32) (h8 : a8.IsWhole) (a9 : Memref sig .tc .vmem S512x256 .f32) (h9 : a9.IsWhole)
    (a10 : Memref sig .tc .vmem S512x256 .f32) (h10 : a10.IsWhole)
    (x0 : Vec F S512x256 .bf16) (x1 : Vec F S1024x256 .bf16) (x2 : Vec F S512x256 .bf16) (x3 : Vec F S1024x256 .bf16) (x4 : Vec F S1024x256 .f32)
    (s0 s1 : Vec F S512x256 .f32) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ (∃ d, owns (c : Thread nD τ) a7 fullShare d) ∗ (∃ d, owns (c : Thread nD τ) a8 fullShare d)
        ∗ owns (c : Thread nD τ) a9 fullShare s0 ∗ owns (c : Thread nD τ) a10 fullShare s1
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
            ∗ owns (c : Thread nD τ) a7 fullShare (upd0 x0 x1 x4 s0) ∗ owns (c : Thread nD τ) a8 fullShare (upd1 x2 x3 x4 s1)
            ∗ owns (c : Thread nD τ) a9 fullShare (upd0 x0 x1 x4 s0)
            ∗ owns (c : Thread nD τ) a10 fullShare (upd1 x2 x3 x4 s1)) -∗ K ⟨⟩))
      ⊢ wp frame (wpE (defs₀ (F := F)) Variants.none c none) E (cc1__agg_kernel i a2 h2 a3 h3 a4 h4 a5 h5 a6 h6 a7 h7 a8 h8 a9 h9 a10 h10) K := by
  have hc0 : ¬ condFirst i := fun h => by have := (condFirst_iff i).1 h; omega
  have hc2 : condLast i := (condLast_iff i).2 hj
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := h2.eq_unread hf2; obtain rfl := h3.eq_unread hf3; obtain rfl := h4.eq_unread hf4
  obtain rfl := h5.eq_unread hf5; obtain rfl := h6.eq_unread hf6
  obtain rfl := h9.eq_unread hf9; obtain rfl := h10.eq_unread hf10
  sl_exec (disch := first | exact hc0 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; swap; · iexact H7
    ipureintro
    sl_unfold_words
    rw [read_store_S]
    repeat (first | rw [load_whole_S] | rw [load_whole_L] | rw [View.readCov_cons_toLoadRect])
  isplitl [H8]
  · iexists _; isplitr; swap; · iexact H8
    ipureintro
    sl_unfold_words
    rw [read_store_S]
    repeat (first | rw [load_whole_S] | rw [load_whole_L] | rw [View.readCov_cons_toLoadRect])
  isplitl [H9]
  · iexists _; isplitr; swap; · iexact H9
    ipureintro
    sl_unfold_words
    rw [read_store_S]
    repeat (first | rw [load_whole_S] | rw [load_whole_L] | rw [View.readCov_cons_toLoadRect])
  iexists _; isplitr; swap; · iexact H10
  ipureintro
  sl_unfold_words
  rw [read_store_S]
  repeat (first | rw [load_whole_S] | rw [load_whole_L] | rw [View.readCov_cons_toLoadRect])

end Cert.KernelIdeal.Hand

end
-- ==== Proof.KIRegion1.lean ====
/-
  The second kernel region (the two similarity-weighted aggregates, a 512-row tile per point of the first grid axis and
  a 1024-row key block per point of the second) at the buffer contents V the region is entered with. The linear block
  e₁ is handed to the kernel through two windows, its row tile and its key block, and so is e₂: the core holds each
  of those two arrays once, and the two windows on one array hold complementary halves of its share. The two
  accumulators live in scratch memory between the points: after point n they hold the sums of the contributions of
  the key blocks since the row tile's first key block (n ≡ 0 mod 8). The outputs receive the accumulators at a row
  tile's last key block (n ≡ 7 mod 8) and are written back there.
-/
import proofs.«116829_j12214886990221_1_alg».proof.Proof.Gen.KernelIdeal.Launch
import proofs.«116829_j12214886990221_1_alg».proof.Proof.Gen.KernelIdeal.Skeleton
import proofs.«116829_j12214886990221_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«116829_j12214886990221_1_alg».proof.Proof.KIRegion1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One key step on the pair of accumulators, at point t's blocks. -/
def step1 (c : Dev nD) (t : Fin cfg1.N) (s : Vec F S512x256 .f32 × Vec F S512x256 .f32) : Vec F S512x256 .f32 × Vec F S512x256 .f32 :=
  (upd0 (iblk1 V c 0 t) (iblk1 V c 1 t) (iblk1 V c 4 t) s.1, upd1 (iblk1 V c 2 t) (iblk1 V c 3 t) (iblk1 V c 4 t) s.2)

/-- The accumulators after point n: restarted from zero at the points ≡ 0 mod 8, advanced by one key step at each point. -/
def acc1 (c : Dev nD) : (n : ℕ) → n < cfg1.N → Vec F S512x256 .f32 × Vec F S512x256 .f32
  | 0, hn => step1 V c ⟨0, hn⟩ (k1_pay2 (F := F), k1_pay3 (F := F))
  | n + 1, hn =>
    if (n + 1) % 8 = 0 then step1 V c ⟨n + 1, hn⟩ (k1_pay2 (F := F), k1_pay3 (F := F))
    else step1 V c ⟨n + 1, hn⟩ (acc1 c n (Nat.lt_of_succ_lt hn))

theorem acc1_reset (c : Dev nD) (t : Fin cfg1.N) (h : t.val % 8 = 0) :
    acc1 V c t.val t.isLt = step1 V c t (k1_pay2 (F := F), k1_pay3 (F := F)) := by
  obtain ⟨n, hn⟩ := t
  cases n with
  | zero => rfl
  | succ n => exact if_pos h

theorem acc1_step (c : Dev nD) (t : Fin cfg1.N) (h : ¬ t.val % 8 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers that are neither a staging buffer of this region nor one of its two accumulators, each at
    some contents. -/
def rest1 (c : Dev nD) : sProp 𝕄 :=
  Pipeline.scopedRestBut (Ix := Unit) (Name := ℕ) (U := UR sig nD τ) (Lvl := ℕ) (Val := Elt F) spec1 c [cc1_scratch0, cc1_scratch1]

/-- The region's invariant before point n: before the first point the class's (every scratch at anything); afterwards
    the two accumulators at what the point before left, the other scoped buffers at anything, the generator register
    at some state. -/
def PhiS (c : Dev nD) : (n : ℕ) → n ≤ cfg1.N → sProp 𝕄
  | 0, _ => Pipeline.ΦA spec1 c
  | n + 1, hn => iprop(((owns (c : Thread nD τ) (Memref.whole cc1_scratch0) fullShare (acc1 V c n hn).1
      ∗ owns (c : Thread nD τ) (Memref.whole cc1_scratch1) fullShare (acc1 V c n hn).2) ∗ rest1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) (Memref.whole cc1_scratch0) fullShare (acc1 V c n hn).1
      ∗ owns (c : Thread nD τ) (Memref.whole cc1_scratch1) fullShare (acc1 V c n hn).2) ∗ rest1 (F := F) c) ∗ (∃ r, prngReg c r)) := rfl

theorem PhiS_pos (c : Dev nD) (n : ℕ) (h : n ≤ cfg1.N) (hz : n ≠ 0) :
    PhiS V c n h = iprop(((owns (c : Thread nD τ) (Memref.whole cc1_scratch0) fullShare (acc1 V c (n - 1) (by omega)).1
      ∗ owns (c : Thread nD τ) (Memref.whole cc1_scratch1) fullShare (acc1 V c (n - 1) (by omega)).2) ∗ rest1 (F := F) c) ∗ (∃ r, prngReg c r)) := by
  cases n with
  | zero => exact absurd rfl hz
  | succ n => rfl

/-- The class's invariant with the two accumulators as memrefs owned at some contents. -/
theorem PhiA1_eq (c : Dev nD) :
    (Pipeline.ΦA spec1 c : sProp 𝕄)
      = iprop((((∃ d, owns (c : Thread nD τ) (Memref.whole cc1_scratch0) fullShare d)
          ∗ (∃ d, owns (c : Thread nD τ) (Memref.whole cc1_scratch1) fullShare d)) ∗ rest1 (F := F) c) ∗ (∃ r, prngReg c r)) := by
  unfold Pipeline.ΦA rest1
  rw [Pipeline.scopedRest_split_of_list spec1 c [cc1_scratch0, cc1_scratch1] (by decide) (by decide)]
  simp only [owns_whole]; try rfl

/-- The second coordinate of point t is t mod 8. -/
theorem coord1_1 : ∀ t : Fin cfg1.N, ((grid1.coords t) 1).val = t.val % 8 :=
  (by decide +kernel : ∀ t : Fin grid1.N, ((grid1.coords t) 1).val = t.val % 8)

/-- The region's proof data: the arrays as entered; after the body each input's buffer at its block and the outputs'
    at the accumulators; the two windows on one array at complementary half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (acc1 V c t.val t.isLt).1
    | ⟨6, _⟩ => (acc1 V c t.val t.isLt).2
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t = (acc1 V c t.val t.isLt).1 := by dsimp only [dat1]
theorem after1_6 (c : Dev nD) (t : Fin cfg1.N) : (dat1 V c).after 6 t = (acc1 V c t.val t.isLt).2 := by dsimp only [dat1]

theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare.left := by dsimp only [dat1]
theorem q1_3 (c : Dev nD) : (dat1 V c).q 3 = fullShare.right := by dsimp only [dat1]
theorem q1_4 (c : Dev nD) : (dat1 V c).q 4 = fullShare := by dsimp only [dat1]

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-- Whatever the point, the invariant gives the two accumulators at some contents. -/
theorem PhiS_forget (c : Dev nD) (n : ℕ) (h : n ≤ cfg1.N) :
    PhiS V c n h ⊢ iprop((((∃ d, owns (c : Thread nD τ) (Memref.whole cc1_scratch0) fullShare d)
          ∗ (∃ d, owns (c : Thread nD τ) (Memref.whole cc1_scratch1) fullShare d)) ∗ rest1 (F := F) c) ∗ (∃ r, prngReg c r)) := by
  cases n with
  | zero => rw [PhiS_zero V c 0 h rfl, PhiA1_eq]
  | succ n =>
    rw [PhiS_succ]
    iintro ⟨⟨⟨HS0, HS1⟩, HR⟩, Hg⟩
    isplitr [Hg]
    · isplitr [HR]
      · isplitl [HS0]
        · iexists _; iexact HS0
        iexists _; iexact HS1
      iexact HR
    iexact Hg

/-! ## The input windows' buffers hold their blocks at every point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## Where the two outputs are idle -/

theorem idleAt1_5 : ∀ t : Fin cfg1.N, ¬ t.val % 8 = 7 → cfg1.idle 5 (grid1.coords t) = true := by decide +kernel
theorem idleAt1_6 : ∀ t : Fin cfg1.N, ¬ t.val % 8 = 7 → cfg1.idle 6 (grid1.coords t) = true := by decide +kernel
theorem liveAt1_5 : ∀ t : Fin cfg1.N, t.val % 8 = 7 → cfg1.idle 5 (grid1.coords t) = false := by decide +kernel
theorem liveAt1_6 : ∀ t : Fin cfg1.N, t.val % 8 = 7 → cfg1.idle 6 (grid1.coords t) = false := by decide +kernel
theorem noFlush1_5 (t : Fin cfg1.N) (h : ¬ t.val % 8 = 7) : (cfg1.win 5).flush t = false :=
  Bool.eq_false_iff.mpr fun hf => h ((flush1_5 t).mp hf)
theorem noFlush1_6 (t : Fin cfg1.N) (h : ¬ t.val % 8 = 7) : (cfg1.win 6).flush t = false :=
  Bool.eq_false_iff.mpr fun hf => h ((flush1_6 t).mp hf)

/-! ## The body obligation, at a generic point -/

theorem leaves1_0 (c : Dev nD) (t : Fin cfg1.N) :
    (dat1 V c).leavesExact 0 t = owns (c : Thread nD τ) (st1_0 t) fullShare (iblk1 V c 0 t) := by
  unfold Dat.leavesExact; rw [after1_0]
theorem leaves1_1 (c : Dev nD) (t : Fin cfg1.N) :
    (dat1 V c).leavesExact 1 t = owns (c : Thread nD τ) (st1_1 t) fullShare (iblk1 V c 1 t) := by
  unfold Dat.leavesExact; rw [after1_1]
theorem leaves1_2 (c : Dev nD) (t : Fin cfg1.N) :
    (dat1 V c).leavesExact 2 t = owns (c : Thread nD τ) (st1_2 t) fullShare (iblk1 V c 2 t) := by
  unfold Dat.leavesExact; rw [after1_2]
theorem leaves1_3 (c : Dev nD) (t : Fin cfg1.N) :
    (dat1 V c).leavesExact 3 t = owns (c : Thread nD τ) (st1_3 t) fullShare (iblk1 V c 3 t) := by
  unfold Dat.leavesExact; rw [after1_3]
theorem leaves1_4 (c : Dev nD) (t : Fin cfg1.N) :
    (dat1 V c).leavesExact 4 t = owns (c : Thread nD τ) (st1_4 t) fullShare (iblk1 V c 4 t) := by
  unfold Dat.leavesExact; rw [after1_4]
theorem leaves1_5_idle (c : Dev nD) (t : Fin cfg1.N) (h : ¬ t.val % 8 = 7) :
    (dat1 V c).leavesExact 5 t = iprop(∃ d, owns (c : Thread nD τ) (st1_5 t) fullShare ((dat1 V c).before 5 t d)) :=
  Dat.leavesExact_idle (dat1 V c) 5 t (idleAt1_5 t h) (noFlush1_5 t h)
theorem leaves1_5_live (c : Dev nD) (t : Fin cfg1.N) (h : t.val % 8 = 7) :
    (dat1 V c).leavesExact 5 t = owns (c : Thread nD τ) (st1_5 t) fullShare (acc1 V c t.val t.isLt).1 := by
  unfold Dat.leavesExact; rw [liveAt1_5 t h, after1_5]
theorem leaves1_6_idle (c : Dev nD) (t : Fin cfg1.N) (h : ¬ t.val % 8 = 7) :
    (dat1 V c).leavesExact 6 t = iprop(∃ d, owns (c : Thread nD τ) (st1_6 t) fullShare ((dat1 V c).before 6 t d)) :=
  Dat.leavesExact_idle (dat1 V c) 6 t (idleAt1_6 t h) (noFlush1_6 t h)
theorem leaves1_6_live (c : Dev nD) (t : Fin cfg1.N) (h : t.val % 8 = 7) :
    (dat1 V c).leavesExact 6 t = owns (c : Thread nD τ) (st1_6 t) fullShare (acc1 V c t.val t.isLt).2 := by
  unfold Dat.leavesExact; rw [liveAt1_6 t h, after1_6]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 1000000 in
/-- A row tile's first key step: whatever the accumulators held is forgotten, they end at one step from zero; the
    outputs' buffers pass through as handed. -/
theorem sound_body1_first (c : Dev nD) (t : Fin cfg1.N) (h0 : t.val % 8 = 0) :
    bodyPre1 V c t ⊢ wp frame (wpE (defs₀ (F := F)) Variants.none c none) Set.univ (bodyAt1 t) (fun _ => bodyPost1 V c t) := by
  have h7 : ¬ t.val % 8 = 7 := by omega
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5_idle V c t h7, leaves1_6_idle V c t h7]
  rw [acc1_reset V c t h0]
  rw [PhiS_castSucc V c t]
  refine BIBase.Entails.trans (sep_mono_left (PhiS_forget V c _ _)) ?_
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1_first c Set.univ (grid1.coords t) ((coord1_1 t).trans h0) _ _ _ _ _ _ _ _ _ _ _ _ _ _ _ _ _ _
    (iblk1 V c 0 t) (iblk1 V c 1 t) (iblk1 V c 2 t) (iblk1 V c 3 t) (iblk1 V c 4 t)
    ((dat1 V c).before 5 t d5) ((dat1 V c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 HR Hg]
  · isplitr [Hg]
    · isplitr [HR]
      · isplitl [HS0]
        · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 1000000 in
/-- A middle key step: the accumulators advance by one step from what the point before left; the outputs' buffers
    pass through as handed. -/
theorem sound_body1_mid (c : Dev nD) (t : Fin cfg1.N) (h0 : ¬ t.val % 8 = 0) (h7 : ¬ t.val % 8 = 7) :
    bodyPre1 V c t ⊢ wp frame (wpE (defs₀ (F := F)) Variants.none c none) Set.univ (bodyAt1 t) (fun _ => bodyPost1 V c t) := by
  have hz : t.val ≠ 0 := fun h => h0 (by rw [h])
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5_idle V c t h7, leaves1_6_idle V c t h7]
  rw [acc1_step V c t h0]
  rw [PhiS_castSucc V c t]
  rw [PhiS_pos V c _ _ hz]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1_mid c Set.univ (grid1.coords t) (fun h => h0 ((coord1_1 t).symm.trans h)) (fun h => h7 ((coord1_1 t).symm.trans h)) _ _ _ _ _ _ _ _ _ _ _ _ _ _ _ _ _ _
    (iblk1 V c 0 t) (iblk1 V c 1 t) (iblk1 V c 2 t) (iblk1 V c 3 t) (iblk1 V c 4 t)
    ((dat1 V c).before 5 t d5) ((dat1 V c).before 6 t d6) (acc1 V c (t.val - 1) (Nat.lt_of_le_of_lt (Nat.sub_le _ _) t.isLt)).1 (acc1 V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 HR Hg]
  · isplitr [Hg]
    · isplitr [HR]
      · isplitl [HS0]
        · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

set_option maxHeartbeats 1000000 in
/-- A row tile's last key step: the accumulators advance by one step and the outputs receive them. -/
theorem sound_body1_last (c : Dev nD) (t : Fin cfg1.N) (h0 : ¬ t.val % 8 = 0) (h7 : t.val % 8 = 7) :
    bodyPre1 V c t ⊢ wp frame (wpE (defs₀ (F := F)) Variants.none c none) Set.univ (bodyAt1 t) (fun _ => bodyPost1 V c t) := by
  have hz : t.val ≠ 0 := fun h => h0 (by rw [h])
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5_live V c t h7, leaves1_6_live V c t h7]
  rw [acc1_step V c t h0]
  rw [PhiS_castSucc V c t]
  rw [PhiS_pos V c _ _ hz]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1_last c Set.univ (grid1.coords t) ((coord1_1 t).trans h7) _ _ _ _ _ _ _ _ _ _ _ _ _ _ _ _ _ _
    (iblk1 V c 0 t) (iblk1 V c 1 t) (iblk1 V c 2 t) (iblk1 V c 3 t) (iblk1 V c 4 t)
    (acc1 V c (t.val - 1) (Nat.lt_of_le_of_lt (Nat.sub_le _ _) t.isLt)).1 (acc1 V c (t.val - 1) (Nat.lt_of_le_of_lt (Nat.sub_le _ _) t.isLt)).2 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 HR Hg]
  · isplitr [Hg]
    · isplitr [HR]
      · isplitl [HS0]
        · iexact HS0
        iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point, by the point's place in its row tile's run of key steps. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · exact sound_body1_first V c t h0
  · by_cases h7 : t.val % 8 = 7
    · exact sound_body1_last V c t h0 h7
    · exact sound_body1_mid V c t h0 h7

/-- The body's obligation to the pipeline at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Entails.refl _

/-- After the last point the invariant gives the class's back: the accumulators' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_forget V c _ _

end Cert.KernelIdeal.Hand

end
-- ==== Proof.KIRegion2.lean ====
/-
  The third kernel region (the last linear block max(x·W3[0:256] + agg₁·W3[256:512] + agg₂·W3[512:768] + b₃, 0), one
  1024-row tile per grid point) at the buffer contents V the region is entered with: each window's block at a point,
  what the body leaves in each staging buffer, and the body's obligation to the pipeline.
-/
import proofs.«116829_j12214886990221_1_alg».proof.Proof.Gen.KernelIdeal.Launch
import proofs.«116829_j12214886990221_1_alg».proof.Proof.Gen.KernelIdeal.Skeleton
import proofs.«116829_j12214886990221_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data: the arrays as entered; after the body each input's buffer at its block, the output's
    at the linear block of the point's tiles. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = k2_pay1 (iblk2 V c 0 t) (iblk2 V c 1 t) (iblk2 V c 2 t) (iblk2 V c 3 t) (iblk2 V c 4 t) := by dsimp only [dat2]

/-! ## The input windows' buffers hold their blocks at every point -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-- The tile of x: moved at every point, and the body leaves it in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The tile of agg₁, likewise. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The tile of agg₂, likewise. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- W₃: fetched at the first point only; its block index never moves, so the buffer holds the block at every point. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- b₃, likewise. -/
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body's accesses: every load and store is the whole buffer, the full-size rectangle at the origin -/

theorem zeros2_2 : (![0, 0] : Fin 2 → Nat) = fun _ => 0 := funext fun a => by fin_cases a <;> rfl
theorem zeros2_1 : (![0] : Fin 1 → Nat) = fun _ => 0 := funext fun a => by fin_cases a; rfl

abbrev rT : Rect S1024x256 := Rect.unit (s := S1024x256) ![0, 0] S1024x256.size inb_S1024x256_S1024x256_0_0
abbrev rW3 : Rect S768x256 := Rect.unit (s := S768x256) ![0, 0] S768x256.size inb_S768x256_S768x256_0_0
abbrev rB3 : Rect S256 := Rect.unit (s := S256) ![0] S256.size inb_S256_S256_0

/-- One store through the full-size rectangle covers the buffer. -/
theorem coverT (p0 : Vec F S1024x256 .f32) (y : S1024x256.Idx) :
    ∃ pc ∈ ([⟨rT, p0⟩] : List (View.Piece (Elt F) S1024x256 .f32)), y ∈ pc.1.set :=
  ⟨_, List.mem_singleton_self _, View.mem_set_unit_zero (S := S1024x256) zeros2_2 inb_S1024x256_S1024x256_0_0 y⟩

/-! ## The body's triple -/

set_option maxHeartbeats 1000000 in
/-- The body on whole staging memrefs, x's tile at x0, agg₁'s at x1, agg₂'s at x2, W₃ at x3, b₃ at x4 and the
    output's at anything, runs to the continuation holding the inputs' as they were and the output's at the linear
    block of (x0, x1, x2, x3, x4). -/
theorem sound_kernel2 (c : Dev nD) (E : Set ℕ) (i : grid2.Coords)
    (arg1 : Memref sig .tc .vmem S1024x256 .f32) (harg1 : arg1.IsWhole)
    (arg2 : Memref sig .tc .vmem S1024x256 .f32) (harg2 : arg2.IsWhole)
    (arg3 : Memref sig .tc .vmem S1024x256 .f32) (harg3 : arg3.IsWhole)
    (arg4 : Memref sig .tc .vmem S768x256 .f32) (harg4 : arg4.IsWhole)
    (arg5 : Memref sig .tc .vmem S256 .f32) (harg5 : arg5.IsWhole)
    (arg6 : Memref sig .tc .vmem S1024x256 .f32) (harg6 : arg6.IsWhole)
    (x0 x1 x2 : Vec F S1024x256 .f32) (x3 : Vec F S768x256 .f32) (x4 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k2_pay1 x0 x1 x2 x3 x4)) -∗ K ⟨⟩))
      ⊢ wp frame (wpE (defs₀ (F := F)) Variants.none c none) E
          (cc2__final_kernel i arg1 harg1 arg2 harg2 arg3 harg3 arg4 harg4 arg5 harg5 arg6 harg6) K := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (coverT _), View.canon_unit_zero zeros2_2]
  simp only [View.readAt_eq_ld, View.ld_unit_zero (S := S1024x256) zeros2_2, View.ld_unit_zero (S := S768x256) zeros2_2,
    View.ld_unit_zero (S := S256) zeros2_1]

/-! ## The body's obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the pipeline at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRunData.lean ====
/-
  The buffer contents between the three kernel regions, and each region's proof data at the contents it is entered
  with. The program is the three regions one after the other with no host operation between them. The first region
  changes only its two output arrays (the two linear blocks), the second only its two (the two aggregates), the third
  only the result; every other unscoped buffer, the arguments among them, holds its launch contents throughout.
-/
import proofs.«116829_j12214886990221_1_alg».proof.Proof.KIRegion0
import proofs.«116829_j12214886990221_1_alg».proof.Proof.KIRegion1
import proofs.«116829_j12214886990221_1_alg».proof.Proof.KIRegion2
import proofs.«116829_j12214886990221_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The launch contents, as the first region's entry contents. -/
abbrev P0 : (c : Dev nD) → (b : Ref sig .tc) → Buf (Elt F) ((c : Thread nD τ).loc b) := fun c b => Gen.V0 m c b

/-- What the first region leaves in its two output arrays. -/
def e1 (c : Dev nD) := (dat0 (P0 m) c).arrAt 5 cfg0.N
def e2 (c : Dev nD) := (dat0 (P0 m) c).arrAt 6 cfg0.N

/-- The contents after the first region. -/
def U1 (c : Dev nD) : Valuation τ sig (Elt F) :=
  Function.update (Function.update (Gen.V0 m c) main_v0_0 (e1 m c)) main_v0_1 (e2 m c)
abbrev P1 : (c : Dev nD) → (b : Ref sig .tc) → Buf (Elt F) ((c : Thread nD τ).loc b) := fun c b => U1 m c b

/-- What the second region leaves in its two output arrays. -/
def g1 (c : Dev nD) := (dat1 (P1 m) c).arrAt 5 cfg1.N
def g2 (c : Dev nD) := (dat1 (P1 m) c).arrAt 6 cfg1.N

/-- The contents after the second region. -/
def U2 (c : Dev nD) : Valuation τ sig (Elt F) :=
  Function.update (Function.update (U1 m c) main_v1_0 (g1 m c)) main_v1_1 (g2 m c)
abbrev P2 : (c : Dev nD) → (b : Ref sig .tc) → Buf (Elt F) ((c : Thread nD τ).loc b) := fun c b => U2 m c b

/-- What the third region leaves in the result array. -/
def res (c : Dev nD) := (dat2 (P2 m) c).arrAt 5 cfg2.N

/-- The contents after the third region. -/
def U3 (c : Dev nD) : Valuation τ sig (Elt F) := Function.update (U2 m c) main_v2 (res m c)

/-- What the regions leave, in the form the conditional frame takes: the contents after item J − 1 read at a buffer. -/
def outs : Gen.Outs (F := F) := fun J r c =>
  match J with
  | 1 => U1 m c r
  | 2 => U2 m c r
  | _ => U3 m c r

/-! ## Reading the contents between the regions -/

theorem U1_of (c : Dev nD) (r : Ref sig .tc) (h : r ∉ ([main_v0_0, main_v0_1] : List (Ref sig .tc))) : U1 m c r = Gen.V0 m c r := by
  simp only [U1, Function.update_of_ne (StableHlo.devRef_ne_of_ne (List.ne_of_not_mem_cons h) : (Proc.devRef .tc r : DevRef τ sig) ≠ Proc.devRef .tc main_v0_0), Function.update_of_ne (StableHlo.devRef_ne_of_ne (List.ne_of_not_mem_cons (List.not_mem_of_not_mem_cons h)) : (Proc.devRef .tc r : DevRef τ sig) ≠ Proc.devRef .tc main_v0_1)]
theorem U2_of (c : Dev nD) (r : Ref sig .tc) (h : r ∉ ([main_v1_0, main_v1_1] : List (Ref sig .tc))) : U2 m c r = U1 m c r := by
  simp only [U2, Function.update_of_ne (StableHlo.devRef_ne_of_ne (List.ne_of_not_mem_cons h) : (Proc.devRef .tc r : DevRef τ sig) ≠ Proc.devRef .tc main_v1_0), Function.update_of_ne (StableHlo.devRef_ne_of_ne (List.ne_of_not_mem_cons (List.not_mem_of_not_mem_cons h)) : (Proc.devRef .tc r : DevRef τ sig) ≠ Proc.devRef .tc main_v1_1)]
theorem U3_of (c : Dev nD) (r : Ref sig .tc) (h : r ≠ main_v2) : U3 m c r = U2 m c r := by
  simp only [U3, Function.update_of_ne (StableHlo.devRef_ne_of_ne h : (Proc.devRef .tc r : DevRef τ sig) ≠ Proc.devRef .tc main_v2)]

theorem U1_main_v0_1 (c : Dev nD) : U1 m c main_v0_1 = e2 m c := by
  simp only [U1, Function.update_self]
theorem U1_main_v0_0 (c : Dev nD) : U1 m c main_v0_0 = e1 m c := by
  simp only [U1, Function.update_of_ne (StableHlo.devRef_ne_of_ne (by decide : main_v0_0 ≠ main_v0_1) : (Proc.devRef .tc main_v0_0 : DevRef τ sig) ≠ Proc.devRef .tc main_v0_1), Function.update_self]
theorem U2_main_v1_1 (c : Dev nD) : U2 m c main_v1_1 = g2 m c := by
  simp only [U2, Function.update_self]
theorem U2_main_v1_0 (c : Dev nD) : U2 m c main_v1_0 = g1 m c := by
  simp only [U2, Function.update_of_ne (StableHlo.devRef_ne_of_ne (by decide : main_v1_0 ≠ main_v1_1) : (Proc.devRef .tc main_v1_0 : DevRef τ sig) ≠ Proc.devRef .tc main_v1_1), Function.update_self]
theorem U3_main_v2 (c : Dev nD) : U3 m c main_v2 = res m c := by
  simp only [U3, Function.update_self]

theorem U1_main_arg0 (c : Dev nD) : U1 m c main_arg0 = m ((c : Thread nD τ).loc main_arg0) :=
  (U1_of m c main_arg0 (by decide)).trans rfl
theorem U2_main_arg0 (c : Dev nD) : U2 m c main_arg0 = m ((c : Thread nD τ).loc main_arg0) :=
  (U2_of m c main_arg0 (by decide)).trans (U1_main_arg0 m c)
theorem U3_main_arg0 (c : Dev nD) : U3 m c main_arg0 = m ((c : Thread nD τ).loc main_arg0) :=
  (U3_of m c main_arg0 (by decide)).trans (U2_main_arg0 m c)
theorem U1_main_arg1 (c : Dev nD) : U1 m c main_arg1 = m ((c : Thread nD τ).loc main_arg1) :=
  (U1_of m c main_arg1 (by decide)).trans rfl
theorem U2_main_arg1 (c : Dev nD) : U2 m c main_arg1 = m ((c : Thread nD τ).loc main_arg1) :=
  (U2_of m c main_arg1 (by decide)).trans (U1_main_arg1 m c)
theorem U3_main_arg1 (c : Dev nD) : U3 m c main_arg1 = m ((c : Thread nD τ).loc main_arg1) :=
  (U3_of m c main_arg1 (by decide)).trans (U2_main_arg1 m c)
theorem U1_main_arg2 (c : Dev nD) : U1 m c main_arg2 = m ((c : Thread nD τ).loc main_arg2) :=
  (U1_of m c main_arg2 (by decide)).trans rfl
theorem U2_main_arg2 (c : Dev nD) : U2 m c main_arg2 = m ((c : Thread nD τ).loc main_arg2) :=
  (U2_of m c main_arg2 (by decide)).trans (U1_main_arg2 m c)
theorem U3_main_arg2 (c : Dev nD) : U3 m c main_arg2 = m ((c : Thread nD τ).loc main_arg2) :=
  (U3_of m c main_arg2 (by decide)).trans (U2_main_arg2 m c)
theorem U1_main_arg3 (c : Dev nD) : U1 m c main_arg3 = m ((c : Thread nD τ).loc main_arg3) :=
  (U1_of m c main_arg3 (by decide)).trans rfl
theorem U2_main_arg3 (c : Dev nD) : U2 m c main_arg3 = m ((c : Thread nD τ).loc main_arg3) :=
  (U2_of m c main_arg3 (by decide)).trans (U1_main_arg3 m c)
theorem U3_main_arg3 (c : Dev nD) : U3 m c main_arg3 = m ((c : Thread nD τ).loc main_arg3) :=
  (U3_of m c main_arg3 (by decide)).trans (U2_main_arg3 m c)
theorem U1_main_arg4 (c : Dev nD) : U1 m c main_arg4 = m ((c : Thread nD τ).loc main_arg4) :=
  (U1_of m c main_arg4 (by decide)).trans rfl
theorem U2_main_arg4 (c : Dev nD) : U2 m c main_arg4 = m ((c : Thread nD τ).loc main_arg4) :=
  (U2_of m c main_arg4 (by decide)).trans (U1_main_arg4 m c)
theorem U3_main_arg4 (c : Dev nD) : U3 m c main_arg4 = m ((c : Thread nD τ).loc main_arg4) :=
  (U3_of m c main_arg4 (by decide)).trans (U2_main_arg4 m c)
theorem U1_main_arg5 (c : Dev nD) : U1 m c main_arg5 = m ((c : Thread nD τ).loc main_arg5) :=
  (U1_of m c main_arg5 (by decide)).trans rfl
theorem U2_main_arg5 (c : Dev nD) : U2 m c main_arg5 = m ((c : Thread nD τ).loc main_arg5) :=
  (U2_of m c main_arg5 (by decide)).trans (U1_main_arg5 m c)
theorem U3_main_arg5 (c : Dev nD) : U3 m c main_arg5 = m ((c : Thread nD τ).loc main_arg5) :=
  (U3_of m c main_arg5 (by decide)).trans (U2_main_arg5 m c)
theorem U1_main_arg6 (c : Dev nD) : U1 m c main_arg6 = m ((c : Thread nD τ).loc main_arg6) :=
  (U1_of m c main_arg6 (by decide)).trans rfl
theorem U2_main_arg6 (c : Dev nD) : U2 m c main_arg6 = m ((c : Thread nD τ).loc main_arg6) :=
  (U2_of m c main_arg6 (by decide)).trans (U1_main_arg6 m c)
theorem U3_main_arg6 (c : Dev nD) : U3 m c main_arg6 = m ((c : Thread nD τ).loc main_arg6) :=
  (U3_of m c main_arg6 (by decide)).trans (U2_main_arg6 m c)
theorem U1_main_arg7 (c : Dev nD) : U1 m c main_arg7 = m ((c : Thread nD τ).loc main_arg7) :=
  (U1_of m c main_arg7 (by decide)).trans rfl
theorem U2_main_arg7 (c : Dev nD) : U2 m c main_arg7 = m ((c : Thread nD τ).loc main_arg7) :=
  (U2_of m c main_arg7 (by decide)).trans (U1_main_arg7 m c)
theorem U3_main_arg7 (c : Dev nD) : U3 m c main_arg7 = m ((c : Thread nD τ).loc main_arg7) :=
  (U3_of m c main_arg7 (by decide)).trans (U2_main_arg7 m c)
theorem U1_main_arg8 (c : Dev nD) : U1 m c main_arg8 = m ((c : Thread nD τ).loc main_arg8) :=
  (U1_of m c main_arg8 (by decide)).trans rfl
theorem U2_main_arg8 (c : Dev nD) : U2 m c main_arg8 = m ((c : Thread nD τ).loc main_arg8) :=
  (U2_of m c main_arg8 (by decide)).trans (U1_main_arg8 m c)
theorem U3_main_arg8 (c : Dev nD) : U3 m c main_arg8 = m ((c : Thread nD τ).loc main_arg8) :=
  (U3_of m c main_arg8 (by decide)).trans (U2_main_arg8 m c)
theorem U1_main_arg9 (c : Dev nD) : U1 m c main_arg9 = m ((c : Thread nD τ).loc main_arg9) :=
  (U1_of m c main_arg9 (by decide)).trans rfl
theorem U2_main_arg9 (c : Dev nD) : U2 m c main_arg9 = m ((c : Thread nD τ).loc main_arg9) :=
  (U2_of m c main_arg9 (by decide)).trans (U1_main_arg9 m c)
theorem U3_main_arg9 (c : Dev nD) : U3 m c main_arg9 = m ((c : Thread nD τ).loc main_arg9) :=
  (U3_of m c main_arg9 (by decide)).trans (U2_main_arg9 m c)
theorem U1_main_arg10 (c : Dev nD) : U1 m c main_arg10 = m ((c : Thread nD τ).loc main_arg10) :=
  (U1_of m c main_arg10 (by decide)).trans rfl
theorem U2_main_arg10 (c : Dev nD) : U2 m c main_arg10 = m ((c : Thread nD τ).loc main_arg10) :=
  (U2_of m c main_arg10 (by decide)).trans (U1_main_arg10 m c)
theorem U3_main_arg10 (c : Dev nD) : U3 m c main_arg10 = m ((c : Thread nD τ).loc main_arg10) :=
  (U3_of m c main_arg10 (by decide)).trans (U2_main_arg10 m c)

theorem U2_main_v0_0 (c : Dev nD) : U2 m c main_v0_0 = e1 m c :=
  (U2_of m c main_v0_0 (by decide)).trans (U1_main_v0_0 m c)
theorem U2_main_v0_1 (c : Dev nD) : U2 m c main_v0_1 = e2 m c :=
  (U2_of m c main_v0_1 (by decide)).trans (U1_main_v0_1 m c)
theorem U3_main_v0_0 (c : Dev nD) : U3 m c main_v0_0 = e1 m c :=
  (U3_of m c main_v0_0 (by decide)).trans (U2_main_v0_0 m c)
theorem U3_main_v0_1 (c : Dev nD) : U3 m c main_v0_1 = e2 m c :=
  (U3_of m c main_v0_1 (by decide)).trans (U2_main_v0_1 m c)
theorem U3_main_v1_0 (c : Dev nD) : U3 m c main_v1_0 = g1 m c :=
  (U3_of m c main_v1_0 (by decide)).trans (U2_main_v1_0 m c)
theorem U3_main_v1_1 (c : Dev nD) : U3 m c main_v1_1 = g2 m c :=
  (U3_of m c main_v1_1 (by decide)).trans (U2_main_v1_1 m c)

theorem V1_eq (c : Dev nD) : Gen.V1 m (outs m) c = U1 m c := by
  show Function.update (Function.update (Gen.V0 m c) main_v0_0 (U1 m c main_v0_0)) main_v0_1 (U1 m c main_v0_1) = U1 m c
  rw [U1_main_v0_0, U1_main_v0_1]; rfl
theorem V2_eq (c : Dev nD) : Gen.V2 m (outs m) c = U2 m c := by
  show Function.update (Function.update (Gen.V1 m (outs m) c) main_v1_0 (U2 m c main_v1_0)) main_v1_1 (U2 m c main_v1_1) = U2 m c
  rw [V1_eq, U2_main_v1_0, U2_main_v1_1]; rfl
theorem V3_eq (c : Dev nD) : Gen.V3 m (outs m) c = U3 m c := by
  show Function.update (Gen.V2 m (outs m) c) main_v2 (U3 m c main_v2) = U3 m c
  rw [V2_eq, U3_main_v2]; rfl

/-- Every region's proof data, each at its region's entry contents. -/
def pdats : (p : Fin 3) → (c : Dev nD) → Dat τ (Elt F) Unit ℕ (UR sig nD τ) ℕ (cfgs p) c
  | ⟨0, _⟩ => fun c => dat0 (P0 m) c
  | ⟨1, _⟩ => fun c => dat1 (P1 m) c
  | ⟨2, _⟩ => fun c => dat2 (P2 m) c

/-- No core owes another anything: no level is assigned. -/
abbrev L : GSem nD τ sig → Finset Unit := fun _ => ∅
abbrev lv : GSem nD τ sig → Unit → ℕ := fun _ _ => 0

/-- What rides beside the buffers between the regions: the generator register at some state, and nothing owed. -/
abbrev Rr (c : Dev nD) : sProp 𝕄 := iprop((∃ r, prngReg c r) ∗ ∃ W, owes (c : Thread nD τ) (0 : CellTallies nD τ sig Unit) W)

/-- The thread state between the regions: every unscoped buffer at the contents named, beside the rest. -/
abbrev Ts (W : Dev nD → Valuation τ sig (Elt F)) (c : Dev nD) : sProp 𝕄 :=
  iprop(StableHlo.held (c : Thread nD τ) (Pipeline.ucRefs τ sig) (W c) ∗ Rr (F := F) c)

end Cert.KernelIdeal.Hand

end
-- ==== Proof.KIReg0.lean ====
/-
  The first kernel region as a segment of the program: its arrays are taken out of the core's unscoped buffers at the
  launch contents and put back with the two linear blocks in its output arrays; the generator register passes through
  the region's invariant; nothing is owed.
-/
import proofs.«116829_j12214886990221_1_alg».proof.Proof.KIRunData
import Idealize.ShloMosaic.Lib.Pipeline.RegionsLoop
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the region each of its arrays holds what the pipeline leaves in it: an input's array is an argument,
    unchanged; the two outputs' arrays hold the two linear blocks. -/
theorem hF0 (c : Dev nD) : ∀ w : Fin cfg0.W, (pdats m 0 c).arrAt w cfg0.N = P1 m c (Pipeline.arrRef spec0 w)
  | ⟨0, _⟩ => ((dat0 (P0 m) c).arrAt_in 0 rfl _).trans ((A_eq0 (P0 m) c 0).trans (U1_of m c _ (by decide)).symm)
  | ⟨1, _⟩ => ((dat0 (P0 m) c).arrAt_in 1 rfl _).trans ((A_eq0 (P0 m) c 1).trans (U1_of m c _ (by decide)).symm)
  | ⟨2, _⟩ => ((dat0 (P0 m) c).arrAt_in 2 rfl _).trans ((A_eq0 (P0 m) c 2).trans (U1_of m c _ (by decide)).symm)
  | ⟨3, _⟩ => ((dat0 (P0 m) c).arrAt_in 3 rfl _).trans ((A_eq0 (P0 m) c 3).trans (U1_of m c _ (by decide)).symm)
  | ⟨4, _⟩ => ((dat0 (P0 m) c).arrAt_in 4 rfl _).trans ((A_eq0 (P0 m) c 4).trans (U1_of m c _ (by decide)).symm)
  | ⟨5, _⟩ => (U1_main_v0_0 m c).symm
  | ⟨6, _⟩ => (U1_main_v0_1 m c).symm

/-- Every buffer that is no array of the region holds after it what it held before. -/
theorem hrest0 (c : Dev nD) : ∀ b, b ∉ Finset.univ.image (Pipeline.arrRef spec0) → P1 m c b = P0 m c b :=
  fun b hb => U1_of m c b fun hmem => by
    rcases List.mem_cons.mp hmem with e | hmem
    · exact hb (Finset.mem_image.mpr ⟨5, Finset.mem_univ _, e.symm⟩)
    · rcases List.mem_cons.mp hmem with e | hmem
      · exact hb (Finset.mem_image.mpr ⟨6, Finset.mem_univ _, e.symm⟩)
      · exact absurd hmem List.not_mem_nil

set_option backward.isDefEq.respectTransparency.types false in
/-- The region as a segment of the program: entered from every unscoped buffer at the contents before it, left with
    them at the contents after it. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (P0 m) c).loose
  hwaits := Pipeline.hwaits_of_owed_zero _ _ _ _ L lv 0 fun _ _ => rfl
  pre c := Ts (fun c => Gen.V0 m c) c
  post c := Ts (U1 m) c
  X c := iprop(∃ r, prngReg c r)
  Y c := iprop(∃ r, prngReg c r)
  Z c := Pipeline.unscopedRest (Ix := Unit) (Name := ℕ) (U := UR sig nD τ) (Lvl := ℕ) spec0 c (P0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (P0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (P0 m c) (P1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = Ts (fun c => Gen.V0 m c) c := rfl
theorem reg0_post (c : Dev nD) : (reg0 m).post c = Ts (U1 m) c := rfl

end Cert.KernelIdeal.Hand

end
-- ==== Proof.KIReg1.lean ====
/-
  The second kernel region as a segment of the program. Two of its arrays are each read through two windows, so each of
  those buffers' full share is split in two complementary halves, one per window, at entry, and the halves are joined
  again at exit (both windows only read: the contents are the entry contents). Its other three arrays are taken out of
  the core's unscoped buffers whole and put back, the two outputs with the two aggregates.
-/
import proofs.«116829_j12214886990221_1_alg».proof.Proof.KIRunData
import Idealize.ShloMosaic.Lib.Pipeline.RegionsLoop
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The five buffers behind the seven windows -/

/-- The buffers behind the windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1)
          ∗ (((c : Thread nD τ).loc main_arg3) ↦{fullShare} V main_arg3) ∗ (((c : Thread nD τ).loc main_v1_0) ↦{fullShare} V main_v1_0)
          ∗ (((c : Thread nD τ).loc main_v1_1) ↦{fullShare} V main_v1_1)) := by
  unfold Pipeline.arrBufs
  exact bigSep_eq_bigSepL_of_eq [main_v0_0, main_v0_1, main_arg3, main_v1_0, main_v1_1] (by decide) (by decide) _

/-- Each window's share of its array: the two windows on one input array hold complementary halves. -/
def sh1 : Fin 7 → PosShare TreeShare
  | ⟨0, _⟩ => fullShare.left
  | ⟨1, _⟩ => fullShare.right
  | ⟨2, _⟩ => fullShare.left
  | ⟨3, _⟩ => fullShare.right
  | _ => fullShare

theorem share1 (c : Dev nD) : ∀ w : Fin 7, (pdats m 1 c).share w = sh1 w
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

set_option backward.isDefEq.respectTransparency.types false in
/-- The windows' arrays, one by one, each a whole buffer at its window's share. -/
theorem arrays1_eq (c : Dev nD) (G : (w : Fin cfg1.W) → Buf (Elt F) ((cfg1.win w).arr.view.loc (c : Thread nD τ))) :
    ((pdats m 1 c).arrays G : sProp 𝕄)
      = iprop((((c : Thread nD τ).loc main_v0_0) ↦{fullShare.left} G 0) ∗ (((c : Thread nD τ).loc main_v0_0) ↦{fullShare.right} G 1)
          ∗ (((c : Thread nD τ).loc main_v0_1) ↦{fullShare.left} G 2) ∗ (((c : Thread nD τ).loc main_v0_1) ↦{fullShare.right} G 3)
          ∗ (((c : Thread nD τ).loc main_arg3) ↦{fullShare} G 4) ∗ (((c : Thread nD τ).loc main_v1_0) ↦{fullShare} G 5)
          ∗ (((c : Thread nD τ).loc main_v1_1) ↦{fullShare} G 6)) := by
  have h1 : ((pdats m 1 c).arrays G : sProp 𝕄)
      = bigSep Finset.univ fun w : Fin 7 => (((c : Thread nD τ).loc (Pipeline.arrRef spec1 w)) ↦{sh1 w} G w : sProp 𝕄) := by
    unfold Pipeline.Dat.arrays
    exact bigSep_congr fun w _ => by
      rw [show ((cfgs 1).win w).arr.view.set = Finset.univ from (arr_whole1 w).set_eq_univ, share1]; rfl
  rw [h1, Gen.bigSep_W1]
  rfl

/-- A whole buffer at the full share is the same buffer at the two halves of the full share, -/
theorem halves_split (ℓ : Loc nD τ sig) (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
/-- and back. -/
theorem halves_join (ℓ : Loc nD τ sig) (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

set_option backward.isDefEq.respectTransparency.types false in
/-- ENTRY: the five buffers at the entry contents are the seven windows' arrays at them. -/
theorem arrays_of_arrBufs1 (c : Dev nD) :
    (Pipeline.arrBufs (Ix := Unit) (Name := ℕ) (U := UR sig nD τ) (Lvl := ℕ) spec1 c (P1 m c) : sProp 𝕄)
      ⊢ (pdats m 1 c).arrays ((pdats m 1 c).arrAt · 0) := by
  rw [arrBufs1_eq, arrays1_eq]
  iintro ⟨H0, H1, H2, H3, H4⟩
  ihave H := (halves_split (F := F) _ _) $$ H0
  icases H with ⟨H0l, H0r⟩
  ihave H := (halves_split (F := F) _ _) $$ H1
  icases H with ⟨H1l, H1r⟩
  isplitl [H0l]; · iexact H0l
  isplitl [H0r]; · iexact H0r
  isplitl [H1l]; · iexact H1l
  isplitl [H1r]; · iexact H1r
  isplitl [H2]; · iexact H2
  isplitl [H3]; · iexact H3
  iexact H4

set_option backward.isDefEq.respectTransparency.types false in
/-- EXIT: the seven windows' arrays after the last point are the five buffers at the exit contents. The inputs hold
    their entry contents (an input's array is never written), so each pair of halves is of one buffer at one contents. -/
theorem arrBufs_of_arrays1 (c : Dev nD) :
    ((pdats m 1 c).arrays ((pdats m 1 c).arrAt · cfg1.N) : sProp 𝕄)
      ⊢ Pipeline.arrBufs (Ix := Unit) (Name := ℕ) (U := UR sig nD τ) (Lvl := ℕ) spec1 c (P2 m c) := by
  rw [arrBufs1_eq, arrays1_eq]
  have e0 : (pdats m 1 c).arrAt 0 cfg1.N = P2 m c main_v0_0 :=
    ((dat1 (P1 m) c).arrAt_in 0 rfl cfg1.N).trans (U2_of m c main_v0_0 (by decide)).symm
  have e1 : (pdats m 1 c).arrAt 1 cfg1.N = P2 m c main_v0_0 :=
    ((dat1 (P1 m) c).arrAt_in 1 rfl cfg1.N).trans (U2_of m c main_v0_0 (by decide)).symm
  have e2 : (pdats m 1 c).arrAt 2 cfg1.N = P2 m c main_v0_1 :=
    ((dat1 (P1 m) c).arrAt_in 2 rfl cfg1.N).trans (U2_of m c main_v0_1 (by decide)).symm
  have e3 : (pdats m 1 c).arrAt 3 cfg1.N = P2 m c main_v0_1 :=
    ((dat1 (P1 m) c).arrAt_in 3 rfl cfg1.N).trans (U2_of m c main_v0_1 (by decide)).symm
  have e4 : (pdats m 1 c).arrAt 4 cfg1.N = P2 m c main_arg3 :=
    ((dat1 (P1 m) c).arrAt_in 4 rfl cfg1.N).trans (U2_of m c main_arg3 (by decide)).symm
  have e5 : (pdats m 1 c).arrAt 5 cfg1.N = P2 m c main_v1_0 := (U2_main_v1_0 m c).symm
  have e6 : (pdats m 1 c).arrAt 6 cfg1.N = P2 m c main_v1_1 := (U2_main_v1_1 m c).symm
  rw [e0, e1, e2, e3, e4, e5, e6]
  have hj0 := halves_join (F := F) ((c : Thread nD τ).loc main_v0_0) (P2 m c main_v0_0)
  have hj1 := halves_join (F := F) ((c : Thread nD τ).loc main_v0_1) (P2 m c main_v0_1)
  iintro ⟨H0l, H0r, H1l, H1r, H2, H3, H4⟩
  isplitl [H0l H0r]
  · iapply hj0; isplitl [H0l]; · iexact H0l
    iexact H0r
  isplitl [H1l H1r]
  · iapply hj1; isplitl [H1l]; · iexact H1l
    iexact H1r
  isplitl [H2]; · iexact H2
  isplitl [H3]; · iexact H3
  iexact H4

/-- The unscoped buffers that are no window's array hold after the region what they held before it. -/
theorem unscopedRest1_exit (c : Dev nD) :
    (Pipeline.unscopedRest (Ix := Unit) (Name := ℕ) (U := UR sig nD τ) (Lvl := ℕ) spec1 c (P2 m c) : sProp 𝕄)
      = Pipeline.unscopedRest spec1 c (P1 m c) := by
  rw [unscopedRest1_eq, unscopedRest1_eq]
  show iprop(_ ∗ _ ∗ _ ∗ _ ∗ _ ∗ _ ∗ _ ∗ _ ∗ _ ∗ _ ∗ _) = iprop(_ ∗ _ ∗ _ ∗ _ ∗ _ ∗ _ ∗ _ ∗ _ ∗ _ ∗ _ ∗ _)
  rw [show P2 m c main_arg0 = P1 m c main_arg0 from U2_of m c main_arg0 (by decide),
    show P2 m c main_arg1 = P1 m c main_arg1 from U2_of m c main_arg1 (by decide),
    show P2 m c main_arg2 = P1 m c main_arg2 from U2_of m c main_arg2 (by decide),
    show P2 m c main_arg4 = P1 m c main_arg4 from U2_of m c main_arg4 (by decide),
    show P2 m c main_arg5 = P1 m c main_arg5 from U2_of m c main_arg5 (by decide),
    show P2 m c main_arg6 = P1 m c main_arg6 from U2_of m c main_arg6 (by decide),
    show P2 m c main_arg7 = P1 m c main_arg7 from U2_of m c main_arg7 (by decide),
    show P2 m c main_arg8 = P1 m c main_arg8 from U2_of m c main_arg8 (by decide),
    show P2 m c main_arg9 = P1 m c main_arg9 from U2_of m c main_arg9 (by decide),
    show P2 m c main_arg10 = P1 m c main_arg10 from U2_of m c main_arg10 (by decide),
    show P2 m c main_v2 = P1 m c main_v2 from U2_of m c main_v2 (by decide)]

set_option backward.isDefEq.respectTransparency.types false in
/-- ENTRY, from the core's unscoped buffers at the entry contents. -/
theorem entry1 (c : Dev nD) :
    (StableHlo.held (c : Thread nD τ) (Pipeline.ucRefs τ sig) (U1 m c) : sProp 𝕄)
      ⊢ iprop((pdats m 1 c).arrays ((pdats m 1 c).arrAt · 0)
          ∗ Pipeline.unscopedRest (Ix := Unit) (Name := ℕ) (U := UR sig nD τ) (Lvl := ℕ) spec1 c (P1 m c)) := by
  rw [← Pipeline.unscopedBufs_held, Pipeline.unscopedBufs_split₀ cfgs 1 winFacts₀1.arr_unscoped c]
  exact sep_mono_l (arrays_of_arrBufs1 m c)

set_option backward.isDefEq.respectTransparency.types false in
/-- EXIT, to the core's unscoped buffers at the exit contents. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (P1 m c))
      ⊢ (StableHlo.held (c : Thread nD τ) (Pipeline.ucRefs τ sig) (U2 m c) : sProp 𝕄) := by
  rw [← Pipeline.unscopedBufs_held, Pipeline.unscopedBufs_split₀ cfgs 1 winFacts₀1.arr_unscoped c, ← unscopedRest1_exit]
  exact sep_mono_l (arrBufs_of_arrays1 m c)

set_option backward.isDefEq.respectTransparency.types false in
/-- The region as a segment of the program: entered from every unscoped buffer at the contents before it, left with
    them at the contents after it. -/
def reg1 : Pipeline.RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (body_obligation1 (P1 m) c).loose
  hwaits := Pipeline.hwaits_of_owed_zero _ _ _ _ L lv 1 fun _ _ => rfl
  pre c := Ts (U1 m) c
  post c := Ts (U2 m) c
  X c := iprop(∃ r, prngReg c r)
  Y c := iprop(∃ r, prngReg c r)
  Z c := Pipeline.unscopedRest (Ix := Unit) (Name := ℕ) (U := UR sig nD τ) (Lvl := ℕ) spec1 c (P1 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (P1 m) c)
    unfold Pipeline.ΦA
    iintro ⟨Hp, -, Hr⟩
    isplitl [Hr]; · iexact Hr
    iexact Hp
  hout c := by
    rw [Pipeline.ownSems0_none]
    refine (hout1 (P1 m) c).trans ?_
    unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (c : Dev nD) : (reg1 m).pre c = Ts (U1 m) c := rfl
theorem reg1_post (c : Dev nD) : (reg1 m).post c = Ts (U2 m) c := rfl

end Cert.KernelIdeal.Hand

end
-- ==== Proof.KIReg2.lean ====
/-
  The third kernel region as a segment of the program: its arrays are taken out of the core's unscoped buffers at the
  contents the second region left and put back with the result in its output array; the generator register passes
  through the region's invariant; nothing is owed.
-/
import proofs.«116829_j12214886990221_1_alg».proof.Proof.KIRunData
import Idealize.ShloMosaic.Lib.Pipeline.RegionsLoop
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the region each of its arrays holds what the pipeline leaves in it: an input's array is unchanged; the
    output's array holds the result. -/
theorem hF2 (c : Dev nD) : ∀ w : Fin cfg2.W, (pdats m 2 c).arrAt w cfg2.N = (fun b : Ref sig .tc => U3 m c b) (Pipeline.arrRef spec2 w)
  | ⟨0, _⟩ => ((dat2 (P2 m) c).arrAt_in 0 rfl _).trans ((A_eq2 (P2 m) c 0).trans (U3_of m c _ (by decide)).symm)
  | ⟨1, _⟩ => ((dat2 (P2 m) c).arrAt_in 1 rfl _).trans ((A_eq2 (P2 m) c 1).trans (U3_of m c _ (by decide)).symm)
  | ⟨2, _⟩ => ((dat2 (P2 m) c).arrAt_in 2 rfl _).trans ((A_eq2 (P2 m) c 2).trans (U3_of m c _ (by decide)).symm)
  | ⟨3, _⟩ => ((dat2 (P2 m) c).arrAt_in 3 rfl _).trans ((A_eq2 (P2 m) c 3).trans (U3_of m c _ (by decide)).symm)
  | ⟨4, _⟩ => ((dat2 (P2 m) c).arrAt_in 4 rfl _).trans ((A_eq2 (P2 m) c 4).trans (U3_of m c _ (by decide)).symm)
  | ⟨5, _⟩ => (U3_main_v2 m c).symm

/-- Every buffer that is no array of the region holds after it what it held before. -/
theorem hrest2 (c : Dev nD) : ∀ b, b ∉ Finset.univ.image (Pipeline.arrRef spec2) → (fun b : Ref sig .tc => U3 m c b) b = P2 m c b :=
  fun b hb => U3_of m c b fun e => hb (Finset.mem_image.mpr ⟨5, Finset.mem_univ _, e.symm⟩)

set_option backward.isDefEq.respectTransparency.types false in
/-- The region as a segment of the program: entered from every unscoped buffer at the contents before it, left with
    them at the contents after it. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (P2 m) c).loose
  hwaits := Pipeline.hwaits_of_owed_zero _ _ _ _ L lv 2 fun _ _ => rfl
  pre c := Ts (U2 m) c
  post c := Ts (U3 m) c
  X c := iprop(∃ r, prngReg c r)
  Y c := iprop(∃ r, prngReg c r)
  Z c := Pipeline.unscopedRest (Ix := Unit) (Name := ℕ) (U := UR sig nD τ) (Lvl := ℕ) spec2 c (P2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (P2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (P2 m c) (fun b : Ref sig .tc => U3 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg2_pre (c : Dev nD) : (reg2 m).pre c = Ts (U2 m) c := rfl
theorem reg2_post (c : Dev nD) : (reg2 m).post c = Ts (U3 m) c := rfl

end Cert.KernelIdeal.Hand

end
-- ==== Proof.KIRunMain.lean ====
/-
  The program's run: from any memory with zero counters every weakly fair execution of the three regions terminates,
  nothing faulting, with every argument array as launched (the frame). The launch deals each core its buffers at the
  launch contents beside the generator register and nothing owed; each region is entered from the contents before it
  and left at the contents after it; at the end the register is dropped and nothing is owed.
-/
import proofs.«116829_j12214886990221_1_alg».proof.Proof.KIReg0
import proofs.«116829_j12214886990221_1_alg».proof.Proof.KIReg1
import proofs.«116829_j12214886990221_1_alg».proof.Proof.KIReg2
import proofs.«116829_j12214886990221_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element is the staging cells' own, and no ghost resource is dealt. -/
theorem launch_elem : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core beside its buffers makes the rest: the register at its launch state, nothing owed. -/
theorem launch_rest : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => Rr (F := F) c) : sProp 𝕄) := by
  refine Pipeline.initEach L lv fun c => ?_
  iintro ⟨⟨-, HO, -, Hp, -⟩, -⟩
  imodintro
  isplitl [Hp]; · iexists _; iexact Hp
  iexists ∅; iexact HO

/-- The rest ends owing nothing: the register is dropped. -/
theorem rest_end (c : Dev nD) : Rr (F := F) c ⊢ (iprop(∃ W, owes (c : Thread nD τ) (0 : CellTallies nD τ sig Unit) W) : sProp 𝕄) := by
  iintro ⟨-, H⟩; iexact H

/-- Each region is entered from the contents before it and left at the contents after it, beside the rest. -/
theorem pre0 (c : Dev nD) : iprop(StableHlo.held (c : Thread nD τ) (Pipeline.ucRefs τ sig) (Gen.V0 m c) ∗ Rr (F := F) c) ⊢ (reg0 m).pre c := .rfl
theorem post0 (c : Dev nD) : (reg0 m).post c ⊢ iprop(StableHlo.held (c : Thread nD τ) (Pipeline.ucRefs τ sig) (Gen.V1 m (outs m) c) ∗ Rr (F := F) c) := by
  rw [V1_eq]; exact .rfl
theorem pre1 (c : Dev nD) : iprop(StableHlo.held (c : Thread nD τ) (Pipeline.ucRefs τ sig) (Gen.V1 m (outs m) c) ∗ Rr (F := F) c) ⊢ (reg1 m).pre c := by
  rw [V1_eq]; exact .rfl
theorem post1 (c : Dev nD) : (reg1 m).post c ⊢ iprop(StableHlo.held (c : Thread nD τ) (Pipeline.ucRefs τ sig) (Gen.V2 m (outs m) c) ∗ Rr (F := F) c) := by
  rw [V2_eq]; exact .rfl
theorem pre2 (c : Dev nD) : iprop(StableHlo.held (c : Thread nD τ) (Pipeline.ucRefs τ sig) (Gen.V2 m (outs m) c) ∗ Rr (F := F) c) ⊢ (reg2 m).pre c := by
  rw [V2_eq]; exact .rfl
theorem post2 (c : Dev nD) : (reg2 m).post c ⊢ iprop(StableHlo.held (c : Thread nD τ) (Pipeline.ucRefs τ sig) (Gen.V3 m (outs m) c) ∗ Rr (F := F) c) := by
  rw [V3_eq]; exact .rfl

/-- Every execution terminates and leaves each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond (F := F) m (Ix := Unit) (U := UR sig nD τ) (Lvl := ℕ) emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := launch_elem)
    (E := fun _ c => Rr c)
    (hE0 := launch_rest ρ)
    (hE3 := rest_end)
    (R0 := reg0 m) (hpre0 := pre0 m) (hpost0 := post0 m)
    (R1 := reg1 m) (hpre1 := pre1 m) (hpost1 := post1 m)
    (R2 := reg2 m) (hpre2 := pre2 m) (hpost2 := post2 m)

end Cert.KernelIdeal.Hand

end
-- ==== Proof.Spec.lean ====
/-
  What the program computes, index by index, on the extended reals.

  The inputs are an N × D matrix x (N = 8192 rows, D = 256 columns), two D × D weight matrices with their
  length-D biases, a 3D × D weight matrix W3 and its bias. A linear block is max(x·W + b, 0). From the first
  two blocks e (one per weight matrix) the aggregate of x is taken with the similarity weights
  (e·eᵀ)/D: entry (i, d) is the sum over every row r of ((Σ_l e(i,l)·e(r,l)) · (1/D)) · x(r,d). The result is the
  linear block of the row-wise concatenation [x, agg₁, agg₂] against W3: the contraction over the 3D columns is
  the sum of three contractions over D columns, against rows 0–255, 256–511 and 512–767 of W3.
-/
import Idealize.ShloMosaic.PureOps.Ideal
import Idealize.ShloMosaic.Lib.ValueIdx

noncomputable section

namespace Cert.Spec

open Idealize.ShloMosaic Idealize.ShloMosaic.ValueIdx

/-- N × D: x, both linear blocks, both aggregates, the result. -/
abbrev Sx : Shape := ⟨2, ![8192, 256]⟩
/-- D × D: the first two weight matrices. -/
abbrev Sw : Shape := ⟨2, ![256, 256]⟩
/-- D: a bias. -/
abbrev Sb : Shape := ⟨1, ![256]⟩
/-- 3D × D: the last weight matrix. -/
abbrev Sw3 : Shape := ⟨2, ![768, 256]⟩

/-- The reciprocal of D as an extended real. -/
def invD : EReal := ((1 / 256 : ℝ) : EReal)

/-- A linear block: max(x·W + b, 0) at (i, d). -/
def lin (x : Sx.Idx → EReal) (W : Sw.Idx → EReal) (b : Sb.Idx → EReal) (i : Sx.Idx) : EReal :=
  max ((∑ k : Fin 256, x (ix2 (i 0) k) * W (ix2 k (i 1))) + b (ix1 (i 1))) 0

/-- The similarity of rows i and r of e, scaled by 1/D. -/
def sim (e : Sx.Idx → EReal) (i r : Fin 8192) : EReal :=
  (∑ l : Fin 256, e (ix2 i l) * e (ix2 r l)) * invD

/-- The aggregate of x under e's similarities at (i, d): the sum over every row r. -/
def agg (e x : Sx.Idx → EReal) (i : Sx.Idx) : EReal :=
  ∑ r : Fin 8192, sim e (i 0) r * x (ix2 r (i 1))

/-- Rows 0–255, 256–511, 512–767 of the last weight matrix. -/
def w3row (part : Fin 3) (k : Fin 256) : Fin 768 := ⟨256 * part.val + k.val, by omega⟩

/-- The last linear block over the three column groups at (i, d). -/
def out (x a1 a2 : Sx.Idx → EReal) (W3 : Sw3.Idx → EReal) (b3 : Sb.Idx → EReal) (i : Sx.Idx) : EReal :=
  max ((((∑ k : Fin 256, x (ix2 (i 0) k) * W3 (ix2 (w3row 0 k) (i 1)))
        + (∑ k : Fin 256, a1 (ix2 (i 0) k) * W3 (ix2 (w3row 1 k) (i 1))))
        + (∑ k : Fin 256, a2 (ix2 (i 0) k) * W3 (ix2 (w3row 2 k) (i 1))))
      + b3 (ix1 (i 1))) 0

/-- The whole computation. -/
def G (x : Sx.Idx → EReal) (W1 : Sw.Idx → EReal) (b1 : Sb.Idx → EReal) (W2 : Sw.Idx → EReal) (b2 : Sb.Idx → EReal)
    (W3 : Sw3.Idx → EReal) (b3 : Sb.Idx → EReal) : Sx.Idx → EReal :=
  out x (agg (lin x W1 b1) x) (agg (lin x W2 b2) x) W3 b3

end Cert.Spec

end
-- ==== Proof.SpecLaws.lean ====
/-
  The laws that join the two arrangements of the computation on the extended reals, which are a commutative monoid
  under addition: a sum over the 768 rows of the last weight matrix is the sum of the three sums over its 256-row
  groups, and a sum over the 8192 rows is the sum over the eight 1024-row key blocks of the sums inside each block.
  And the three literals: the word 0x3B800000 is 2⁻⁸ = 1/256, the word 0x43800000 is 256, and dividing an extended
  real by 256 is multiplying it by 1/256.
-/
import proofs.«116829_j12214886990221_1_alg».proof.Proof.Spec
import Idealize.ShloMosaic.PureOps.Ideal.Laws
import Mathlib.Algebra.BigOperators.Fin
import Mathlib.Logic.Equiv.Fin.Basic

noncomputable section

namespace Cert.Spec

open Idealize.ShloMosaic Idealize.ShloMosaic.ValueIdx

/-- A sum over the 768 rows splits into the three 256-row groups. -/
theorem sum_three (f : Fin 768 → EReal) :
    ∑ k : Fin 768, f k = ((∑ k : Fin 256, f (w3row 0 k)) + ∑ k : Fin 256, f (w3row 1 k)) + ∑ k : Fin 256, f (w3row 2 k) := by
  -- 768 = 256 + 256 + 256; the head group is cast twice, the middle one cast then shifted, the last one shifted.
  show ∑ k : Fin (256 + 256 + 256), f k = _
  rw [Fin.sum_univ_add, Fin.sum_univ_add]
  congr 1

/-- Row k of key block j. -/
def keyRow (j : Fin 8) (k : Fin 1024) : Fin 8192 := ⟨1024 * j.val + k.val, by omega⟩

/-- A sum over the 8192 rows splits into the eight 1024-row key blocks. -/
theorem sum_blocks (f : Fin 8192 → EReal) :
    ∑ r : Fin 8192, f r = ∑ j : Fin 8, ∑ k : Fin 1024, f (keyRow j k) := by
  -- the pairs (j, k) are the rows k + 1024 · j, and a sum over pairs is the iterated sum.
  calc ∑ r : Fin 8192, f r
      = ∑ p : Fin 8 × Fin 1024, f (finProdFinEquiv p) :=
        (Equiv.sum_comp (finProdFinEquiv (m := 8) (n := 1024)) f).symm
    _ = ∑ j : Fin 8, ∑ k : Fin 1024, f (finProdFinEquiv (j, k)) := Fintype.sum_prod_type _
    _ = ∑ j : Fin 8, ∑ k : Fin 1024, f (keyRow j k) := by
        refine Finset.sum_congr rfl fun j _ => Finset.sum_congr rfl fun k _ => ?_
        congr 1
        apply Fin.ext
        simp [keyRow, finProdFinEquiv]
        omega

/-- The kernel's scale literal is 1/256. -/
theorem ofBits_invD : Ideal.ofBits .f32 0x3B800000#32 = invD := by
  -- sign 0, exponent field 119, fraction 0: the value is 2^(119 - 127) = 2⁻⁸.
  unfold invD
  simp [Ideal.ofBits, Ideal.ieee, -EReal.coe_mul]
  norm_num

/-- The reference's divisor literal is 256. -/
theorem ofBits_256 : Ideal.ofBits .f32 0x43800000#32 = ((256 : ℝ) : EReal) := by
  -- sign 0, exponent field 135, fraction 0: the value is 2^(135 - 127) = 2⁸.
  simp [Ideal.ofBits, Ideal.ieee, -EReal.coe_mul]
  norm_num

/-- Dividing by 256 is multiplying by 1/256, on every extended real. -/
theorem div_256 (x : EReal) : Ideal.div x ((256 : ℝ) : EReal) = x * invD := by
  unfold invD
  exact Ideal.div_coe (by norm_num) x

end Cert.Spec

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KIValue0.lean ====
/-
  What the first kernel region leaves in its two output arrays, at the ideal values: each is the linear block
  max(x·W + b, 0) of the argument arrays, index by index. A grid point writes back the block of 1024 rows its tile of x
  gives; row r of the array lies in the block of point r / 1024.
-/
import proofs.«116829_j12214886990221_1_alg».proof.Proof.KIRegion0
import proofs.«116829_j12214886990221_1_alg».proof.Proof.SpecLaws
import proofs.«116829_j12214886990221_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

namespace Val0

/-- The bias, made a row and repeated down the rows, read at (p, q) is the bias at q. -/
theorem bias_apply (b : Vec Ideal S256 .f32) (p : Fin 1024) (q : Fin 256) :
    broadcastTo S1024x256 (shapeCast S1x256 b shapeCasts_S256_S1x256) broadcasts_S1x256_S1024x256 (ix2 p q) = b (ix1 q) := by
  rw [broadcastTo_apply _ broadcasts_S1x256_S1024x256 (ix2 p q) (ix2 (0 : Fin 1) q) (fun a => by
    match a with
    | ⟨0, _⟩ => show 0 = if (1 : Nat) = 1 then 0 else _; rw [if_pos rfl]
    | ⟨1, _⟩ => show q.val = if (256 : Nat) = 1 then 0 else q.val; rw [if_neg (by decide)])]
  exact (shapeCast_addUnit_apply (![256] : Fin 1 → Nat) b shapeCasts_S256_S1x256 (ix2 (0 : Fin 1) q)).trans
    (congrArg b (funext fun a => by match a with | ⟨0, _⟩ => rfl))

/-- The two blocks' payloads are one function of the tile, the weights and the bias. -/
theorem pay3_eq_pay2 (x0 : Vec Ideal S1024x256 .f32) (w : Vec Ideal S256x256 .f32) (b : Vec Ideal S256 .f32) :
    k0_pay3 x0 w b = k0_pay2 x0 w b := rfl

/-- The body's payload at (p, q): max(Σ_k x(p,k)·w(k,q) + b(q), 0). -/
theorem pay2_apply (x0 : Vec Ideal S1024x256 .f32) (w : Vec Ideal S256x256 .f32) (b : Vec Ideal S256 .f32)
    (p : Fin 1024) (q : Fin 256) :
    k0_pay2 (F := Ideal) x0 w b (ix2 p q) = max ((∑ k : Fin 256, x0 (ix2 p k) * w (ix2 k q)) + b (ix1 q)) 0 := by
  unfold k0_pay2 k0_pay1
  dsimp only
  show max (matmul dot_S1024x256_S256x256_S1024x256_1_0_0_1_n_n none (truncf .bf16 x0 bitsLt_bf16_f32)
        (truncf .bf16 w bitsLt_bf16_f32) (constant (F := Ideal) S1024x256 .f32 0x00000000#32) (ix2 p q)
      + broadcastTo S1024x256 (shapeCast S1x256 b shapeCasts_S256_S1x256) broadcasts_S1x256_S1024x256 (ix2 p q))
      (Ideal.ofBits .f32 0x00000000#32) = _
  rw [bias_apply, Ideal.ofBits_zero_f32]
  exact congrArg (fun z => max (z + b (ix1 q)) 0)
    (PlainDot.matmul_zero_apply 1024 256 256 none (truncf .bf16 x0 bitsLt_bf16_f32) (truncf .bf16 w bitsLt_bf16_f32) (ix2 p q))

/-! ## The windows' blocks, as rows of the argument arrays -/

/-- The block indices of the region's windows, at each of the eight points: the tile of x and both outputs move
    with the point along the rows; the weights and biases stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The tile of x at point t is rows 1024·t … 1024·t + 1023 of x. -/
theorem xblk_apply (c : Dev nD) (t : Fin cfg0.N) (y : S1024x256.Idx) (k : S8192x256.Idx)
    (hk0 : (k 0).val = 1024 * t.val + (y 0).val) (hk1 : (k 1).val = (y 1).val) :
    (iblk0 V c 0 t : Vec Ideal S1024x256 .f32) y = (V c main_arg3 : S8192x256.Idx → EReal) k := by
  obtain ⟨e0, e1, -⟩ := idx_facts t
  unfold iblk0
  rw [View.read_apply]
  show V c main_arg3 _ = V c main_arg3 _
  congr 1
  funext a; apply Fin.ext
  match a with
  | ⟨0, _⟩ => show win0_0.index t (0 : Fin 2) * 1024 + 1 * (y 0).val = (k 0).val; rw [e0, hk0]; omega
  | ⟨1, _⟩ => show win0_0.index t (1 : Fin 2) * 256 + 1 * (y 1).val = (k 1).val; rw [e1, hk1]; omega

/-- The first weight matrix's block at every point is the whole matrix. -/
theorem w1blk_eq (c : Dev nD) (t : Fin cfg0.N) :
    (iblk0 V c 1 t : Vec Ideal S256x256 .f32) = (V c main_arg5 : S256x256.Idx → EReal) := by
  obtain ⟨-, -, e0, e1, -⟩ := idx_facts t
  funext y
  unfold iblk0
  rw [View.read_apply]
  show V c main_arg5 _ = V c main_arg5 y
  congr 1
  funext a; apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The first bias's block at every point is the whole bias. -/
theorem b1blk_eq (c : Dev nD) (t : Fin cfg0.N) :
    (iblk0 V c 2 t : Vec Ideal S256 .f32) = (V c main_arg6 : S256.Idx → EReal) := by
  obtain ⟨-, -, -, -, e0, -⟩ := idx_facts t
  funext y
  unfold iblk0
  rw [View.read_apply]
  show V c main_arg6 _ = V c main_arg6 y
  congr 1
  funext a; apply Fin.ext
  match a with
  | ⟨0, _⟩ => show win0_2.index t (0 : Fin 1) * 256 + 1 * (y 0).val = (y 0).val; rw [e0]; omega

/-- The second weight matrix's block at every point is the whole matrix. -/
theorem w2blk_eq (c : Dev nD) (t : Fin cfg0.N) :
    (iblk0 V c 3 t : Vec Ideal S256x256 .f32) = (V c main_arg7 : S256x256.Idx → EReal) := by
  obtain ⟨-, -, -, -, -, e0, e1, -⟩ := idx_facts t
  funext y
  unfold iblk0
  rw [View.read_apply]
  show V c main_arg7 _ = V c main_arg7 y
  congr 1
  funext a; apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The second bias's block at every point is the whole bias. -/
theorem b2blk_eq (c : Dev nD) (t : Fin cfg0.N) :
    (iblk0 V c 4 t : Vec Ideal S256 .f32) = (V c main_arg8 : S256.Idx → EReal) := by
  obtain ⟨-, -, -, -, -, -, -, e0, -⟩ := idx_facts t
  funext y
  unfold iblk0
  rw [View.read_apply]
  show V c main_arg8 _ = V c main_arg8 y
  congr 1
  funext a; apply Fin.ext
  match a with
  | ⟨0, _⟩ => show win0_4.index t (0 : Fin 1) * 256 + 1 * (y 0).val = (y 0).val; rw [e0]; omega

/-! ## A point's payload is its rows of the linear block -/

/-- If x0 is rows 1024·n … of x and the weight and bias blocks are the whole arrays, the body's payload at j is the
    linear block of (x, W, B) at row 1024·n + j₀, column j₁. -/
theorem lin_block (x : Vec Ideal S8192x256 .f32) (W : Vec Ideal S256x256 .f32) (B : Vec Ideal S256 .f32)
    (x0 : Vec Ideal S1024x256 .f32) (W0 : Vec Ideal S256x256 .f32) (B0 : Vec Ideal S256 .f32) (n : Nat)
    (hx : ∀ (p : Fin 1024) (k : Fin 256) (r : Fin 8192), r.val = 1024 * n + p.val → x0 (ix2 p k) = x (ix2 r k))
    (hW : W0 = W) (hB : B0 = B) (j : S1024x256.Idx) (i : S8192x256.Idx)
    (hi0 : (i 0).val = 1024 * n + (j 0).val) (hi1 : (i 1).val = (j 1).val) :
    k0_pay2 (F := Ideal) x0 W0 B0 j = Cert.Spec.lin x W B i := by
  subst hW hB
  obtain ⟨p, q, rfl⟩ : ∃ (p : Fin 1024) (q : Fin 256), j = ix2 p q := ⟨j 0, j 1, eq_ix2 j⟩
  rw [pay2_apply]
  unfold Cert.Spec.lin
  have hq : i 1 = q := Fin.ext hi1
  rw [hq]
  congr 2
  exact Finset.sum_congr rfl fun k _ => by rw [hx p k (i 0) hi0]

/-! ## What a point writes back, the cover, and the arrays after the region -/

/-- Point t writes back to the first output its rows of the first linear block. -/
theorem flushed5_eq (c : Dev nD) (t : Fin cfg0.N) :
    (dat0 (F := Ideal) V c).flushed 5 t
      = ((cfg0.win 5).blk t).view.read (Elt Ideal) (Cert.Spec.lin (V c main_arg3) (V c main_arg5) (V c main_arg6)) := by
  show (cfg0.win 5).cut (grid0.coords t) ((dat0 (F := Ideal) V c).after 5 t) = _
  rw [after0_5]
  obtain ⟨-, -, -, -, -, -, -, -, e0, e1, -⟩ := idx_facts t
  funext j
  rw [View.read_apply]
  exact lin_block (V c main_arg3) (V c main_arg5) (V c main_arg6) (iblk0 V c 0 t) (iblk0 V c 1 t) (iblk0 V c 2 t) t.val
    (fun p k r hr => xblk_apply V c t (ix2 p k) (ix2 r k) hr rfl) (w1blk_eq V c t) (b1blk_eq V c t) j
    (((cfg0.win 5).blk t).view.emb j)
    (by show win0_5.index t (0 : Fin 2) * 1024 + 1 * (j 0).val = 1024 * t.val + (j 0).val; rw [e0]; omega)
    (by show win0_5.index t (1 : Fin 2) * 256 + 1 * (j 1).val = (j 1).val; rw [e1]; omega)

/-- Point t writes back to the second output its rows of the second linear block. -/
theorem flushed6_eq (c : Dev nD) (t : Fin cfg0.N) :
    (dat0 (F := Ideal) V c).flushed 6 t
      = ((cfg0.win 6).blk t).view.read (Elt Ideal) (Cert.Spec.lin (V c main_arg3) (V c main_arg7) (V c main_arg8)) := by
  show (cfg0.win 6).cut (grid0.coords t) ((dat0 (F := Ideal) V c).after 6 t) = _
  rw [after0_6]
  obtain ⟨-, -, -, -, -, -, -, -, -, -, e0, e1⟩ := idx_facts t
  funext j
  rw [View.read_apply]
  exact (congrFun (pay3_eq_pay2 (iblk0 V c 0 t) (iblk0 V c 3 t) (iblk0 V c 4 t)) j).trans
    (lin_block (V c main_arg3) (V c main_arg7) (V c main_arg8) (iblk0 V c 0 t) (iblk0 V c 3 t) (iblk0 V c 4 t) t.val
    (fun p k r hr => xblk_apply V c t (ix2 p k) (ix2 r k) hr rfl) (w2blk_eq V c t) (b2blk_eq V c t) j
    (((cfg0.win 6).blk t).view.emb j)
    (by show win0_6.index t (0 : Fin 2) * 1024 + 1 * (j 0).val = 1024 * t.val + (j 0).val; rw [e0]; omega)
    (by show win0_6.index t (1 : Fin 2) * 256 + 1 * (j 1).val = (j 1).val; rw [e1]; omega))

/-- An index of the first output array is in point t's block iff each coordinate is in the block's range. -/
theorem mem_blk5 (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v0_0).slice (win0_5.rect t)).set ↔ _
  rw [View.set_slice_whole, Rect.mem_set_unit]
  exact Iff.rfl

/-- The same for the second output array. -/
theorem mem_blk6 (t : Fin cfg0.N) (i : S8192x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v0_1).slice (win0_6.rect t)).set ↔ _
  rw [View.set_slice_whole, Rect.mem_set_unit]
  exact Iff.rfl

/-- The point whose tile holds row r: r / 1024. -/
def pointOf (i : S8192x256.Idx) : Fin cfg0.N := ⟨(i 0).val / 1024, by
  have hi0 : (i 0).val < 8192 := (i 0).isLt
  have hN : cfg0.N = 8 := N_0
  rw [hN]; omega⟩

theorem pointOf_val (i : S8192x256.Idx) : (pointOf i).val = (i 0).val / 1024 := rfl

/-- Every index of the first output array is in the block of the point its row names. -/
theorem cover5 (i : S8192x256.Idx) :
    ∃ t : Fin cfg0.N, (cfg0.win 5).flush t = true ∧ i ∈ ((cfg0.win 5).blk t).view.set := by
  have hi0 : (i 0).val < 8192 := (i 0).isLt
  have hi1 : (i 1).val < 256 := (i 1).isLt
  obtain ⟨-, -, -, -, -, -, -, -, e0, e1, -⟩ := idx_facts (pointOf i)
  have hv := pointOf_val i
  refine ⟨pointOf i, flush0_5 _, ?_⟩
  rw [mem_blk5]
  intro a
  match a with
  | ⟨0, _⟩ => show win0_5.index (pointOf i) (0 : Fin 2) * 1024 ≤ (i 0).val ∧ (i 0).val < win0_5.index (pointOf i) (0 : Fin 2) * 1024 + 1024; rw [e0, hv]; omega
  | ⟨1, _⟩ => show win0_5.index (pointOf i) (1 : Fin 2) * 256 ≤ (i 1).val ∧ (i 1).val < win0_5.index (pointOf i) (1 : Fin 2) * 256 + 256; rw [e1]; omega

/-- The same for the second output array. -/
theorem cover6 (i : S8192x256.Idx) :
    ∃ t : Fin cfg0.N, (cfg0.win 6).flush t = true ∧ i ∈ ((cfg0.win 6).blk t).view.set := by
  have hi0 : (i 0).val < 8192 := (i 0).isLt
  have hi1 : (i 1).val < 256 := (i 1).isLt
  obtain ⟨-, -, -, -, -, -, -, -, -, -, e0, e1⟩ := idx_facts (pointOf i)
  have hv := pointOf_val i
  refine ⟨pointOf i, flush0_6 _, ?_⟩
  rw [mem_blk6]
  intro a
  match a with
  | ⟨0, _⟩ => show win0_6.index (pointOf i) (0 : Fin 2) * 1024 ≤ (i 0).val ∧ (i 0).val < win0_6.index (pointOf i) (0 : Fin 2) * 1024 + 1024; rw [e0, hv]; omega
  | ⟨1, _⟩ => show win0_6.index (pointOf i) (1 : Fin 2) * 256 ≤ (i 1).val ∧ (i 1).val < win0_6.index (pointOf i) (1 : Fin 2) * 256 + 256; rw [e1]; omega

end Val0

/-- The first output array after the region is the linear block of x with the first weight matrix and bias. -/
theorem e1_eq (c : Dev nD) :
    ((dat0 (F := Ideal) V c).arrAt 5 cfg0.N : S8192x256.Idx → EReal) = Cert.Spec.lin (V c main_arg3) (V c main_arg5) (V c main_arg6) :=
  (dat0 (F := Ideal) V c).arrAt_eq_of_cover 5 (Cert.Spec.lin (V c main_arg3) (V c main_arg5) (V c main_arg6))
    (fun t _ => Val0.flushed5_eq V c t) Val0.cover5

/-- The second output array after the region is the linear block of x with the second weight matrix and bias. -/
theorem e2_eq (c : Dev nD) :
    ((dat0 (F := Ideal) V c).arrAt 6 cfg0.N : S8192x256.Idx → EReal) = Cert.Spec.lin (V c main_arg3) (V c main_arg7) (V c main_arg8) :=
  (dat0 (F := Ideal) V c).arrAt_eq_of_cover 6 (Cert.Spec.lin (V c main_arg3) (V c main_arg7) (V c main_arg8))
    (fun t _ => Val0.flushed6_eq V c t) Val0.cover6

end Cert.KernelIdeal.Hand

end
-- ==== Proof.KIValue1.lean ====
/-
  What the second kernel region leaves in its two output arrays, at the ideal values: each is the aggregate of x
  under the similarities of one linear block e, index by index: entry (i, d) is the sum over every row r of
  ((Σ_l e(i,l)·e(r,l))·(1/256))·x(r,d). The region computes it key block by key block: after the point of row tile a
  and key block j the accumulator holds, at row p of the tile and column d, the sum of the contributions of the key
  blocks 0..j, each the sum over the block's 1024 rows; at j = 7 that is the sum over all 8192 rows, and the point
  writes the tile back. Row r of the array lies in the tile of r / 512.
-/
import proofs.«116829_j12214886990221_1_alg».proof.Proof.KIRegion1
import proofs.«116829_j12214886990221_1_alg».proof.Proof.SpecLaws
import proofs.«116829_j12214886990221_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

namespace Val1

/-! ## The product of a tile with a transposed key tile, at an index

  The first product of a key step contracts BOTH operands on their second axis: entry (i, k) of e·e'ᵀ is the sum over
  l of e (i, l) · e' (k, l). -/

/-- The left operand's row is the output's row. -/
theorem simdot_lhs_0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch from List.not_mem_nil),
    dif_pos (show (0 : Fin S512x256.rank) ∈ dot_S512x256_S1024x256_S512x1024_1_1_0_0_n_n.lhsNonContracting from List.mem_singleton.mpr rfl)]
  rfl

/-- The left operand's column is the contraction coordinate. -/
theorem simdot_lhs_1 (i : S512x1024.Idx) (q : dot_S512x256_S1024x256_S512x1024_1_1_0_0_n_n.contr.Idx) :
    (dot_S512x256_S1024x256_S512x1024_1_1_0_0_n_n.lhsIdx i q 1).val = (q ⟨0, Nat.one_pos⟩).val :=
  dot_S512x256_S1024x256_S512x1024_1_1_0_0_n_n.lhsIdx_val_of_single rfl i q

/-- The right operand's row is the output's column. -/
theorem simdot_rhs_0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch from List.not_mem_nil),
    dif_pos (show (0 : Fin S1024x256.rank) ∈ dot_S512x256_S1024x256_S512x1024_1_1_0_0_n_n.rhsNonContracting from List.mem_singleton.mpr rfl)]
  rfl

/-- The right operand's column is the contraction coordinate. -/
theorem simdot_rhs_1 (i : S512x1024.Idx) (q : dot_S512x256_S1024x256_S512x1024_1_1_0_0_n_n.contr.Idx) :
    (dot_S512x256_S1024x256_S512x1024_1_1_0_0_n_n.rhsIdx i q 1).val = (q ⟨0, Nat.one_pos⟩).val :=
  dot_S512x256_S1024x256_S512x1024_1_1_0_0_n_n.rhsIdx_val_of_single rfl i q

/-- The product e·e'ᵀ into the zero accumulator, at (p, k). -/
theorem simdot_apply (l : FVec Ideal S512x256 .bf16) (r : FVec Ideal S1024x256 .bf16) (p : Fin 512) (k : Fin 1024) :
    matmul dot_S512x256_S1024x256_S512x1024_1_1_0_0_n_n none l r (constant (F := Ideal) S512x1024 .f32 0x00000000#32) (ix2 p k)
      = ∑ j : Fin 256, l (ix2 p j) * r (ix2 k j) := by
  refine (Ideal.matmul_constant_zero_apply dot_S512x256_S1024x256_S512x1024_1_1_0_0_n_n none l r (ix2 p k)).trans ?_
  rw [← Equiv.sum_comp (contrEquiv1 dot_S512x256_S1024x256_S512x1024_1_1_0_0_n_n 256 rfl rfl).symm]
  refine Finset.sum_congr rfl fun j _ => ?_
  have hk := contrEquiv1_symm_val dot_S512x256_S1024x256_S512x1024_1_1_0_0_n_n 256 rfl rfl j
  have el : dot_S512x256_S1024x256_S512x1024_1_1_0_0_n_n.lhsIdx (ix2 p k)
      ((contrEquiv1 dot_S512x256_S1024x256_S512x1024_1_1_0_0_n_n 256 rfl rfl).symm j) = ix2 p j :=
    funext fun a => Fin.ext (by
      match a with
      | ⟨0, _⟩ => exact simdot_lhs_0 _ _
      | ⟨1, _⟩ => exact (simdot_lhs_1 _ _).trans hk)
  have er : dot_S512x256_S1024x256_S512x1024_1_1_0_0_n_n.rhsIdx (ix2 p k)
      ((contrEquiv1 dot_S512x256_S1024x256_S512x1024_1_1_0_0_n_n 256 rfl rfl).symm j) = ix2 k j :=
    funext fun a => Fin.ext (by
      match a with
      | ⟨0, _⟩ => exact simdot_rhs_0 _ _
      | ⟨1, _⟩ => exact (simdot_rhs_1 _ _).trans hk)
  rw [el, er]

/-- The second product's printed record is the plain one: rows by columns, no batch axis. -/
theorem aggdot_plain : dot_S512x1024_S1024x256_S512x256_1_0_0_1_n_n = DotDims.plain 512 1024 256 := rfl

/-- The product of the scaled similarities with the key tile of x into the zero accumulator, at (p, q). -/
theorem aggdot_apply (l : FVec Ideal S512x1024 .bf16) (r : FVec Ideal S1024x256 .bf16) (p : Fin 512) (q : Fin 256) :
    matmul dot_S512x1024_S1024x256_S512x256_1_0_0_1_n_n none l r (constant (F := Ideal) S512x256 .f32 0x00000000#32) (ix2 p q)
      = ∑ k : Fin 1024, l (ix2 p k) * r (ix2 k q) := by
  rw [aggdot_plain]
  exact PlainDot.matmul_zero_apply 512 1024 256 none l r (ix2 p q)

/-! ## One key step at an index -/

/-- The contribution of one key block to entry (p, q): the sum over the block's rows k of
    ((Σ_l e (p, l) · e' (k, l)) · (1/256)) · x' (k, q). -/
def contrib (x0 : Vec Ideal S512x256 .bf16) (x1 : Vec Ideal S1024x256 .bf16) (x4 : Vec Ideal S1024x256 .f32) (p : Fin 512) (q : Fin 256) : EReal :=
  ∑ k : Fin 1024, ((∑ l : Fin 256, x0 (ix2 p l) * x1 (ix2 k l)) * Cert.Spec.invD) * x4 (ix2 k q)

/-- One key step on the first accumulator, at (p, q). -/
theorem upd0_apply (x0 : Vec Ideal S512x256 .bf16) (x1 : Vec Ideal S1024x256 .bf16) (x4 : Vec Ideal S1024x256 .f32)
    (s : Vec Ideal S512x256 .f32) (p : Fin 512) (q : Fin 256) :
    upd0 x0 x1 x4 s (ix2 p q) = s (ix2 p q) + contrib x0 x1 x4 p q := by
  unfold contrib
  show k1_pay5 x0 x1 x4 s (ix2 p q) = _
  unfold k1_pay5 k1_pay4
  simp only [addf_apply, mulf_apply, broadcast_apply, aggdot_apply, simdot_apply, truncf_apply, shapeCast_self,
    Scalar.ofBits, Ideal.ofBits_def, Cert.Spec.ofBits_invD]

/-- One key step on the second accumulator, at (p, q). -/
theorem upd1_apply (x2 : Vec Ideal S512x256 .bf16) (x3 : Vec Ideal S1024x256 .bf16) (x4 : Vec Ideal S1024x256 .f32)
    (s : Vec Ideal S512x256 .f32) (p : Fin 512) (q : Fin 256) :
    upd1 x2 x3 x4 s (ix2 p q) = s (ix2 p q) + contrib x2 x3 x4 p q := by
  unfold contrib
  show k1_pay1 (k1_pay6 x2 x3 x4 s) (ix2 p q) = _
  unfold k1_pay1 k1_pay6 k1_pay4
  simp only [addf_apply, mulf_apply, broadcast_apply, aggdot_apply, simdot_apply, truncf_apply, shapeCast_self,
    Scalar.ofBits, Ideal.ofBits_def, Cert.Spec.ofBits_invD]

/-- The zero the first accumulator restarts from, at an index. -/
theorem zero0_apply (i : S512x256.Idx) : (k1_pay2 (F := Ideal)) i = 0 := by
  unfold k1_pay2
  simp only [broadcast_apply, shapeCast_self, Scalar.ofBits, Ideal.ofBits_def, Ideal.ofBits_zero_f32]

/-- The zero the second accumulator restarts from, at an index. -/
theorem zero1_apply (i : S512x256.Idx) : (k1_pay3 (F := Ideal)) i = 0 := by
  unfold k1_pay3
  simp only [broadcast_apply, shapeCast_self, Scalar.ofBits, Ideal.ofBits_def, Ideal.ofBits_zero_f32]

/-! ## The partial sums over the key blocks -/

/-- The contribution of key block j' to entry (i, q) of the aggregate of x under e's similarities: the sum over the
    block's 1024 rows. There are eight key blocks; beyond them nothing is added. -/
def blockTerm (e x : Cert.Spec.Sx.Idx → EReal) (i : Fin 8192) (q : Fin 256) (j' : ℕ) : EReal :=
  if h : j' < 8 then
    ∑ k : Fin 1024, Cert.Spec.sim e i (Cert.Spec.keyRow ⟨j', h⟩ k) * x (ix2 (Cert.Spec.keyRow ⟨j', h⟩ k) q)
  else 0

/-- The eight key blocks' contributions add up to the aggregate: a sum over the 8192 rows is the sum over the blocks. -/
theorem sum_blockTerm (e x : Cert.Spec.Sx.Idx → EReal) (i : Fin 8192) (q : Fin 256) :
    ∑ j' ∈ Finset.range 8, blockTerm e x i q j' = Cert.Spec.agg e x (ix2 i q) := by
  unfold Cert.Spec.agg
  rw [Cert.Spec.sum_blocks, ← Fin.sum_univ_eq_sum_range]
  refine Finset.sum_congr rfl fun j _ => ?_
  unfold blockTerm
  rw [dif_pos j.isLt]

/-- Row p of the row tile of point n: row 512 · (n / 8) + p of the array. -/
def tileRow (n : ℕ) (h : n < cfg1.N) (p : Fin 512) : Fin 8192 :=
  ⟨512 * (n / 8) + p.val, by have hN : cfg1.N = 128 := N_1; have := p.isLt; omega⟩

/-- A family of tiles, one per point, that restarts at the points ≡ 0 mod 8 from the point's key block's contribution
    and otherwise adds it to the tile of the point before, holds after point n the contributions of the key blocks
    0..n mod 8 — by induction on the point: the points of one row tile are consecutive. -/
theorem partial_sums (e x : Cert.Spec.Sx.Idx → EReal) (A : (n : ℕ) → n < cfg1.N → S512x256.Idx → EReal)
    (hreset : ∀ (n : ℕ) (h : n < cfg1.N) (p : Fin 512) (q : Fin 256), n % 8 = 0 →
      A n h (ix2 p q) = 0 + blockTerm e x (tileRow n h p) q (n % 8))
    (hstep : ∀ (n : ℕ) (h : n < cfg1.N) (p : Fin 512) (q : Fin 256), ¬ n % 8 = 0 →
      A n h (ix2 p q) = A (n - 1) (Nat.lt_of_le_of_lt (Nat.sub_le _ _) h) (ix2 p q) + blockTerm e x (tileRow n h p) q (n % 8)) :
    ∀ (n : ℕ) (h : n < cfg1.N) (p : Fin 512) (q : Fin 256),
      A n h (ix2 p q) = ∑ j' ∈ Finset.range (n % 8 + 1), blockTerm e x (tileRow n h p) q j' := by
  intro n
  induction n with
  | zero =>
    intro h p q
    rw [hreset 0 h p q rfl, zero_add]
    exact (Finset.sum_range_one _).symm
  | succ m ih =>
    intro h p q
    by_cases h0 : (m + 1) % 8 = 0
    · rw [hreset (m + 1) h p q h0, zero_add, h0]
      exact (Finset.sum_range_one _).symm
    · rw [hstep (m + 1) h p q h0]
      have hm : m < cfg1.N := Nat.lt_of_succ_lt h
      have e1 : A (m + 1 - 1) (Nat.lt_of_le_of_lt (Nat.sub_le _ _) h) (ix2 p q) = A m hm (ix2 p q) := rfl
      have e2 : tileRow m hm p = tileRow (m + 1) h p := Fin.ext (by show 512 * (m / 8) + p.val = 512 * ((m + 1) / 8) + p.val; omega)
      have e3 : m % 8 + 1 = (m + 1) % 8 := by omega
      rw [e1, ih hm p q, e2, e3, Finset.sum_range_succ]

/-! ## The windows' blocks as entries of their arrays -/

/-- The windows' index maps at every grid point: the row tiles and the outputs are at block (n / 8, 0), the key
    blocks at block (n mod 8, 0). -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val % 8 ∧ win1_3.index t (1 : Fin 2) = 0
    ∧ win1_4.index t (0 : Fin 2) = t.val % 8 ∧ win1_4.index t (1 : Fin 2) = 0
    ∧ win1_5.index t (0 : Fin 2) = t.val / 8 ∧ win1_5.index t (1 : Fin 2) = 0
    ∧ win1_6.index t (0 : Fin 2) = t.val / 8 ∧ win1_6.index t (1 : Fin 2) = 0 :=
  (by decide +kernel : ∀ t : Fin grid1.N, _)

/-- The key block of point t. -/
def keyOf (t : Fin cfg1.N) : Fin 8 := ⟨t.val % 8, Nat.mod_lt _ (by norm_num)⟩

/-- The row tile of the first linear block at point t, entry (p, l). -/
theorem blk0_apply (c : Dev nD) (t : Fin cfg1.N) (p : Fin 512) (l : Fin 256) :
    (iblk1 V c 0 t : Vec Ideal S512x256 .bf16) (ix2 p l) = (V c main_v0_0 : S8192x256.Idx → EReal) (ix2 (tileRow t.val t.isLt p) l) := by
  obtain ⟨e0, e1, -⟩ := idx_facts1 t
  unfold iblk1
  rw [View.read_apply]
  show V c main_v0_0 _ = V c main_v0_0 _
  congr 1
  funext a
  apply Fin.ext
  match a with
  | ⟨0, _⟩ => show win1_0.index t (0 : Fin 2) * 512 + 1 * p.val = 512 * (t.val / 8) + p.val; rw [e0]; omega
  | ⟨1, _⟩ => show win1_0.index t (1 : Fin 2) * 256 + 1 * l.val = l.val; rw [e1]; omega

/-- The key block of the first linear block at point t, entry (k, l). -/
theorem blk1_apply (c : Dev nD) (t : Fin cfg1.N) (k : Fin 1024) (l : Fin 256) :
    (iblk1 V c 1 t : Vec Ideal S1024x256 .bf16) (ix2 k l) = (V c main_v0_0 : S8192x256.Idx → EReal) (ix2 (Cert.Spec.keyRow (keyOf t) k) l) := by
  obtain ⟨-, -, e0, e1, -⟩ := idx_facts1 t
  unfold iblk1
  rw [View.read_apply]
  show V c main_v0_0 _ = V c main_v0_0 _
  congr 1
  funext a
  apply Fin.ext
  match a with
  | ⟨0, _⟩ => show win1_1.index t (0 : Fin 2) * 1024 + 1 * k.val = 1024 * (t.val % 8) + k.val; rw [e0]; omega
  | ⟨1, _⟩ => show win1_1.index t (1 : Fin 2) * 256 + 1 * l.val = l.val; rw [e1]; omega

/-- The row tile of the second linear block at point t, entry (p, l). -/
theorem blk2_apply (c : Dev nD) (t : Fin cfg1.N) (p : Fin 512) (l : Fin 256) :
    (iblk1 V c 2 t : Vec Ideal S512x256 .bf16) (ix2 p l) = (V c main_v0_1 : S8192x256.Idx → EReal) (ix2 (tileRow t.val t.isLt p) l) := by
  obtain ⟨-, -, -, -, e0, e1, -⟩ := idx_facts1 t
  unfold iblk1
  rw [View.read_apply]
  show V c main_v0_1 _ = V c main_v0_1 _
  congr 1
  funext a
  apply Fin.ext
  match a with
  | ⟨0, _⟩ => show win1_2.index t (0 : Fin 2) * 512 + 1 * p.val = 512 * (t.val / 8) + p.val; rw [e0]; omega
  | ⟨1, _⟩ => show win1_2.index t (1 : Fin 2) * 256 + 1 * l.val = l.val; rw [e1]; omega

/-- The key block of the second linear block at point t, entry (k, l). -/
theorem blk3_apply (c : Dev nD) (t : Fin cfg1.N) (k : Fin 1024) (l : Fin 256) :
    (iblk1 V c 3 t : Vec Ideal S1024x256 .bf16) (ix2 k l) = (V c main_v0_1 : S8192x256.Idx → EReal) (ix2 (Cert.Spec.keyRow (keyOf t) k) l) := by
  obtain ⟨-, -, -, -, -, -, e0, e1, -⟩ := idx_facts1 t
  unfold iblk1
  rw [View.read_apply]
  show V c main_v0_1 _ = V c main_v0_1 _
  congr 1
  funext a
  apply Fin.ext
  match a with
  | ⟨0, _⟩ => show win1_3.index t (0 : Fin 2) * 1024 + 1 * k.val = 1024 * (t.val % 8) + k.val; rw [e0]; omega
  | ⟨1, _⟩ => show win1_3.index t (1 : Fin 2) * 256 + 1 * l.val = l.val; rw [e1]; omega

/-- The key block of x at point t, entry (k, q). -/
theorem blk4_apply (c : Dev nD) (t : Fin cfg1.N) (k : Fin 1024) (q : Fin 256) :
    (iblk1 V c 4 t : Vec Ideal S1024x256 .f32) (ix2 k q) = (V c main_arg3 : S8192x256.Idx → EReal) (ix2 (Cert.Spec.keyRow (keyOf t) k) q) := by
  obtain ⟨-, -, -, -, -, -, -, -, e0, e1, -⟩ := idx_facts1 t
  unfold iblk1
  rw [View.read_apply]
  show V c main_arg3 _ = V c main_arg3 _
  congr 1
  funext a
  apply Fin.ext
  match a with
  | ⟨0, _⟩ => show win1_4.index t (0 : Fin 2) * 1024 + 1 * k.val = 1024 * (t.val % 8) + k.val; rw [e0]; omega
  | ⟨1, _⟩ => show win1_4.index t (1 : Fin 2) * 256 + 1 * q.val = q.val; rw [e1]; omega

/-! ## One key step, read off the arrays -/

/-- The contribution of point t's blocks of the first linear block and of x is the contribution of t's key block. -/
theorem contrib_blk1 (c : Dev nD) (t : Fin cfg1.N) (p : Fin 512) (q : Fin 256) :
    contrib (iblk1 V c 0 t) (iblk1 V c 1 t) (iblk1 V c 4 t) p q
      = blockTerm (V c main_v0_0) (V c main_arg3) (tileRow t.val t.isLt p) q (t.val % 8) := by
  unfold contrib blockTerm
  rw [dif_pos (Nat.mod_lt _ (by norm_num))]
  refine Finset.sum_congr rfl fun k _ => ?_
  unfold Cert.Spec.sim
  rw [blk4_apply V c t k q]
  refine congrArg (fun z => z * Cert.Spec.invD * _) (Finset.sum_congr rfl fun l _ => ?_)
  rw [blk0_apply V c t p l, blk1_apply V c t k l]
  rfl

/-- The same for the second linear block. -/
theorem contrib_blk2 (c : Dev nD) (t : Fin cfg1.N) (p : Fin 512) (q : Fin 256) :
    contrib (iblk1 V c 2 t) (iblk1 V c 3 t) (iblk1 V c 4 t) p q
      = blockTerm (V c main_v0_1) (V c main_arg3) (tileRow t.val t.isLt p) q (t.val % 8) := by
  unfold contrib blockTerm
  rw [dif_pos (Nat.mod_lt _ (by norm_num))]
  refine Finset.sum_congr rfl fun k _ => ?_
  unfold Cert.Spec.sim
  rw [blk4_apply V c t k q]
  refine congrArg (fun z => z * Cert.Spec.invD * _) (Finset.sum_congr rfl fun l _ => ?_)
  rw [blk2_apply V c t p l, blk3_apply V c t k l]
  rfl

/-! ## The accumulators after a point -/

/-- At a row tile's first key block the first accumulator is that block's contribution. -/
theorem acc5_reset (c : Dev nD) (n : ℕ) (h : n < cfg1.N) (p : Fin 512) (q : Fin 256) (h0 : n % 8 = 0) :
    (acc1 V c n h).1 (ix2 p q) = 0 + blockTerm (V c main_v0_0) (V c main_arg3) (tileRow n h p) q (n % 8) := by
  rw [show acc1 V c n h = step1 V c ⟨n, h⟩ (k1_pay2 (F := Ideal), k1_pay3 (F := Ideal)) from acc1_reset V c ⟨n, h⟩ h0]
  show upd0 (iblk1 V c 0 ⟨n, h⟩) (iblk1 V c 1 ⟨n, h⟩) (iblk1 V c 4 ⟨n, h⟩) (k1_pay2 (F := Ideal)) (ix2 p q) = _
  refine (upd0_apply (iblk1 V c 0 ⟨n, h⟩) (iblk1 V c 1 ⟨n, h⟩) (iblk1 V c 4 ⟨n, h⟩) (k1_pay2 (F := Ideal)) p q).trans ?_
  rw [zero0_apply, contrib_blk1 V c ⟨n, h⟩ p q]

/-- At a later key block it is what the point before left plus the block's contribution. -/
theorem acc5_step (c : Dev nD) (n : ℕ) (h : n < cfg1.N) (p : Fin 512) (q : Fin 256) (h0 : ¬ n % 8 = 0) :
    (acc1 V c n h).1 (ix2 p q) = (acc1 V c (n - 1) (Nat.lt_of_le_of_lt (Nat.sub_le _ _) h)).1 (ix2 p q)
      + blockTerm (V c main_v0_0) (V c main_arg3) (tileRow n h p) q (n % 8) := by
  rw [show acc1 V c n h = step1 V c ⟨n, h⟩ (acc1 V c (n - 1) (Nat.lt_of_le_of_lt (Nat.sub_le _ _) h)) from acc1_step V c ⟨n, h⟩ h0]
  show upd0 (iblk1 V c 0 ⟨n, h⟩) (iblk1 V c 1 ⟨n, h⟩) (iblk1 V c 4 ⟨n, h⟩) (acc1 V c (n - 1) (Nat.lt_of_le_of_lt (Nat.sub_le _ _) h)).1 (ix2 p q) = _
  refine (upd0_apply (iblk1 V c 0 ⟨n, h⟩) (iblk1 V c 1 ⟨n, h⟩) (iblk1 V c 4 ⟨n, h⟩) (acc1 V c (n - 1) (Nat.lt_of_le_of_lt (Nat.sub_le _ _) h)).1 p q).trans ?_
  rw [contrib_blk1 V c ⟨n, h⟩ p q]

/-- The same two equations for the second accumulator. -/
theorem acc6_reset (c : Dev nD) (n : ℕ) (h : n < cfg1.N) (p : Fin 512) (q : Fin 256) (h0 : n % 8 = 0) :
    (acc1 V c n h).2 (ix2 p q) = 0 + blockTerm (V c main_v0_1) (V c main_arg3) (tileRow n h p) q (n % 8) := by
  rw [show acc1 V c n h = step1 V c ⟨n, h⟩ (k1_pay2 (F := Ideal), k1_pay3 (F := Ideal)) from acc1_reset V c ⟨n, h⟩ h0]
  show upd1 (iblk1 V c 2 ⟨n, h⟩) (iblk1 V c 3 ⟨n, h⟩) (iblk1 V c 4 ⟨n, h⟩) (k1_pay3 (F := Ideal)) (ix2 p q) = _
  refine (upd1_apply (iblk1 V c 2 ⟨n, h⟩) (iblk1 V c 3 ⟨n, h⟩) (iblk1 V c 4 ⟨n, h⟩) (k1_pay3 (F := Ideal)) p q).trans ?_
  rw [zero1_apply, contrib_blk2 V c ⟨n, h⟩ p q]

theorem acc6_step (c : Dev nD) (n : ℕ) (h : n < cfg1.N) (p : Fin 512) (q : Fin 256) (h0 : ¬ n % 8 = 0) :
    (acc1 V c n h).2 (ix2 p q) = (acc1 V c (n - 1) (Nat.lt_of_le_of_lt (Nat.sub_le _ _) h)).2 (ix2 p q)
      + blockTerm (V c main_v0_1) (V c main_arg3) (tileRow n h p) q (n % 8) := by
  rw [show acc1 V c n h = step1 V c ⟨n, h⟩ (acc1 V c (n - 1) (Nat.lt_of_le_of_lt (Nat.sub_le _ _) h)) from acc1_step V c ⟨n, h⟩ h0]
  show upd1 (iblk1 V c 2 ⟨n, h⟩) (iblk1 V c 3 ⟨n, h⟩) (iblk1 V c 4 ⟨n, h⟩) (acc1 V c (n - 1) (Nat.lt_of_le_of_lt (Nat.sub_le _ _) h)).2 (ix2 p q) = _
  refine (upd1_apply (iblk1 V c 2 ⟨n, h⟩) (iblk1 V c 3 ⟨n, h⟩) (iblk1 V c 4 ⟨n, h⟩) (acc1 V c (n - 1) (Nat.lt_of_le_of_lt (Nat.sub_le _ _) h)).2 p q).trans ?_
  rw [contrib_blk2 V c ⟨n, h⟩ p q]

/-- After point n the first accumulator holds the contributions of the key blocks 0..n mod 8 to the rows of n's tile. -/
theorem acc5_eq (c : Dev nD) (n : ℕ) (h : n < cfg1.N) (p : Fin 512) (q : Fin 256) :
    (acc1 V c n h).1 (ix2 p q)
      = ∑ j' ∈ Finset.range (n % 8 + 1), blockTerm (V c main_v0_0) (V c main_arg3) (tileRow n h p) q j' :=
  partial_sums (V c main_v0_0) (V c main_arg3) (fun n h => (acc1 V c n h).1) (acc5_reset V c) (acc5_step V c) n h p q

/-- And the second accumulator likewise, for the second linear block. -/
theorem acc6_eq (c : Dev nD) (n : ℕ) (h : n < cfg1.N) (p : Fin 512) (q : Fin 256) :
    (acc1 V c n h).2 (ix2 p q)
      = ∑ j' ∈ Finset.range (n % 8 + 1), blockTerm (V c main_v0_1) (V c main_arg3) (tileRow n h p) q j' :=
  partial_sums (V c main_v0_1) (V c main_arg3) (fun n h => (acc1 V c n h).2) (acc6_reset V c) (acc6_step V c) n h p q

/-! ## What the flushing points write back, and the arrays after the region -/

/-- A point that writes the first output back writes its tile of the aggregate. -/
theorem flushed5_eq (c : Dev nD) (t : Fin cfg1.N) (hf : (cfg1.win 5).flush t = true) :
    (dat1 (F := Ideal) V c).flushed 5 t
      = ((cfg1.win 5).blk t).view.read (Elt Ideal) (Cert.Spec.agg (V c main_v0_0) (V c main_arg3)) := by
  have h7 : t.val % 8 = 7 := (flush1_5 t).mp hf
  obtain ⟨-, -, -, -, -, -, -, -, -, -, e0, e1, -⟩ := idx_facts1 t
  show (cfg1.win 5).cut (grid1.coords t) ((dat1 (F := Ideal) V c).after 5 t) = _
  rw [after1_5]
  funext y
  obtain ⟨p, q, rfl⟩ : ∃ (p : Fin 512) (q : Fin 256), y = ix2 p q := ⟨y 0, y 1, eq_ix2 y⟩
  show (acc1 V c t.val t.isLt).1 (ix2 p q) = Cert.Spec.agg (V c main_v0_0) (V c main_arg3) (((cfg1.win 5).blk t).view.emb (ix2 p q))
  rw [acc5_eq V c t.val t.isLt p q, h7, sum_blockTerm]
  congr 1
  funext a
  apply Fin.ext
  match a with
  | ⟨0, _⟩ => show 512 * (t.val / 8) + p.val = win1_5.index t (0 : Fin 2) * 512 + 1 * p.val; rw [e0]; omega
  | ⟨1, _⟩ => show q.val = win1_5.index t (1 : Fin 2) * 256 + 1 * q.val; rw [e1]; omega

/-- A point that writes the second output back writes its tile of the second aggregate. -/
theorem flushed6_eq (c : Dev nD) (t : Fin cfg1.N) (hf : (cfg1.win 6).flush t = true) :
    (dat1 (F := Ideal) V c).flushed 6 t
      = ((cfg1.win 6).blk t).view.read (Elt Ideal) (Cert.Spec.agg (V c main_v0_1) (V c main_arg3)) := by
  have h7 : t.val % 8 = 7 := (flush1_6 t).mp hf
  obtain ⟨-, -, -, -, -, -, -, -, -, -, -, -, e0, e1⟩ := idx_facts1 t
  show (cfg1.win 6).cut (grid1.coords t) ((dat1 (F := Ideal) V c).after 6 t) = _
  rw [after1_6]
  funext y
  obtain ⟨p, q, rfl⟩ : ∃ (p : Fin 512) (q : Fin 256), y = ix2 p q := ⟨y 0, y 1, eq_ix2 y⟩
  show (acc1 V c t.val t.isLt).2 (ix2 p q) = Cert.Spec.agg (V c main_v0_1) (V c main_arg3) (((cfg1.win 6).blk t).view.emb (ix2 p q))
  rw [acc6_eq V c t.val t.isLt p q, h7, sum_blockTerm]
  congr 1
  funext a
  apply Fin.ext
  match a with
  | ⟨0, _⟩ => show 512 * (t.val / 8) + p.val = win1_6.index t (0 : Fin 2) * 512 + 1 * p.val; rw [e0]; omega
  | ⟨1, _⟩ => show q.val = win1_6.index t (1 : Fin 2) * 256 + 1 * q.val; rw [e1]; omega

/-- The point that covers row r: the last key block of the row tile r / 512. -/
def coverPt (i : S8192x256.Idx) : Fin cfg1.N :=
  ⟨8 * ((i 0).val / 512) + 7, by have hN : cfg1.N = 128 := N_1; have h0 : (i 0).val < 8192 := (i 0).isLt; omega⟩

/-- Every index of the first output lies in the tile some flushing point writes back. -/
theorem cover5 (i : S8192x256.Idx) :
    ∃ t : Fin cfg1.N, (cfg1.win 5).flush t = true ∧ i ∈ ((cfg1.win 5).blk t).view.set := by
  have h0 : (i 0).val < 8192 := (i 0).isLt
  have h1 : (i 1).val < 256 := (i 1).isLt
  have ht : (coverPt i).val = 8 * ((i 0).val / 512) + 7 := rfl
  obtain ⟨-, -, -, -, -, -, -, -, -, -, e0, e1, -⟩ := idx_facts1 (coverPt i)
  refine ⟨coverPt i, (flush1_5 (coverPt i)).mpr (by rw [ht]; omega), ?_⟩
  show i ∈ ((View.whole main_v1_0).slice (win1_5.rect (coverPt i))).set
  rw [View.set_slice_whole, Rect.mem_set_unit]
  intro a
  match a with
  | ⟨0, _⟩ =>
    show win1_5.index (coverPt i) (0 : Fin 2) * 512 ≤ (i 0).val ∧ (i 0).val < win1_5.index (coverPt i) (0 : Fin 2) * 512 + 512
    rw [e0, ht]; omega
  | ⟨1, _⟩ =>
    show win1_5.index (coverPt i) (1 : Fin 2) * 256 ≤ (i 1).val ∧ (i 1).val < win1_5.index (coverPt i) (1 : Fin 2) * 256 + 256
    rw [e1]; omega

/-- Every index of the second output lies in the tile some flushing point writes back. -/
theorem cover6 (i : S8192x256.Idx) :
    ∃ t : Fin cfg1.N, (cfg1.win 6).flush t = true ∧ i ∈ ((cfg1.win 6).blk t).view.set := by
  have h0 : (i 0).val < 8192 := (i 0).isLt
  have h1 : (i 1).val < 256 := (i 1).isLt
  have ht : (coverPt i).val = 8 * ((i 0).val / 512) + 7 := rfl
  obtain ⟨-, -, -, -, -, -, -, -, -, -, -, -, e0, e1⟩ := idx_facts1 (coverPt i)
  refine ⟨coverPt i, (flush1_6 (coverPt i)).mpr (by rw [ht]; omega), ?_⟩
  show i ∈ ((View.whole main_v1_1).slice (win1_6.rect (coverPt i))).set
  rw [View.set_slice_whole, Rect.mem_set_unit]
  intro a
  match a with
  | ⟨0, _⟩ =>
    show win1_6.index (coverPt i) (0 : Fin 2) * 512 ≤ (i 0).val ∧ (i 0).val < win1_6.index (coverPt i) (0 : Fin 2) * 512 + 512
    rw [e0, ht]; omega
  | ⟨1, _⟩ =>
    show win1_6.index (coverPt i) (1 : Fin 2) * 256 ≤ (i 1).val ∧ (i 1).val < win1_6.index (coverPt i) (1 : Fin 2) * 256 + 256
    rw [e1]; omega

end Val1

/-- The first output array after the region is the aggregate of x under the first linear block's similarities. -/
theorem agg1_eq (c : Dev nD) :
    ((dat1 (F := Ideal) V c).arrAt 5 cfg1.N : S8192x256.Idx → EReal) = Cert.Spec.agg (V c main_v0_0) (V c main_arg3) :=
  (dat1 (F := Ideal) V c).arrAt_eq_of_cover 5 (Cert.Spec.agg (V c main_v0_0) (V c main_arg3)) (Val1.flushed5_eq V c) Val1.cover5

/-- The second output array after the region is the aggregate of x under the second linear block's similarities. -/
theorem agg2_eq (c : Dev nD) :
    ((dat1 (F := Ideal) V c).arrAt 6 cfg1.N : S8192x256.Idx → EReal) = Cert.Spec.agg (V c main_v0_1) (V c main_arg3) :=
  (dat1 (F := Ideal) V c).arrAt_eq_of_cover 6 (Cert.Spec.agg (V c main_v0_1) (V c main_arg3)) (Val1.flushed6_eq V c) Val1.cover6

end Cert.KernelIdeal.Hand

end
-- ==== Proof.KIValue2.lean ====
/-
  What the third kernel region leaves in its output array, at the ideal values: the last linear block
  max(x·W3[0:256] + a₁·W3[256:512] + a₂·W3[512:768] + b₃, 0) of the arrays it reads, index by index. A grid point writes
  back the block of 1024 rows its three tiles give; row r of the array lies in the block of point r / 1024.
-/
import proofs.«116829_j12214886990221_1_alg».proof.Proof.KIRegion2
import proofs.«116829_j12214886990221_1_alg».proof.Proof.SpecLaws
import proofs.«116829_j12214886990221_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

namespace Val2

/-! ## The payload at an index -/

/-- The kernel's contraction record is the plain one: rows by columns, no batch axis. -/
theorem dot_plain : dot_S1024x256_S256x256_S1024x256_1_0_0_1_n_n = DotDims.plain 1024 256 256 := rfl

/-- A product of a 1024 × 256 tile with a 256 × 256 matrix into the zero accumulator, at (p, q). -/
theorem mm_apply (l : FVec Ideal S1024x256 .bf16) (r : FVec Ideal S256x256 .bf16) (p : Fin 1024) (q : Fin 256) :
    matmul dot_S1024x256_S256x256_S1024x256_1_0_0_1_n_n none l r (constant (F := Ideal) S1024x256 .f32 0x00000000#32) (ix2 p q)
      = ∑ k : Fin 256, l (ix2 p k) * r (ix2 k q) := by
  rw [dot_plain]
  exact PlainDot.matmul_zero_apply 1024 256 256 none l r (ix2 p q)

/-- Row k of the slice of the 768 × 256 matrix at row offset 256 · part is row 256 · part + k. -/
theorem slice0_apply (w : FVec Ideal S768x256 .bf16) (k q : Fin 256) :
    extractStridedSlice S256x256 ![0, 0] w slices_S768x256_o0_0_S256x256 (ix2 k q) = w (ix2 (Cert.Spec.w3row 0 k) q) :=
  extractStridedSlice_apply _ _ _ _ _ fun a => by
    match a with
    | ⟨0, _⟩ => show 256 * 0 + k.val = 0 + k.val; omega
    | ⟨1, _⟩ => show q.val = 0 + q.val; omega
theorem slice1_apply (w : FVec Ideal S768x256 .bf16) (k q : Fin 256) :
    extractStridedSlice S256x256 ![256, 0] w slices_S768x256_o256_0_S256x256 (ix2 k q) = w (ix2 (Cert.Spec.w3row 1 k) q) :=
  extractStridedSlice_apply _ _ _ _ _ fun a => by
    match a with
    | ⟨0, _⟩ => show 256 * 1 + k.val = 256 + k.val; omega
    | ⟨1, _⟩ => show q.val = 0 + q.val; omega
theorem slice2_apply (w : FVec Ideal S768x256 .bf16) (k q : Fin 256) :
    extractStridedSlice S256x256 ![512, 0] w slices_S768x256_o512_0_S256x256 (ix2 k q) = w (ix2 (Cert.Spec.w3row 2 k) q) :=
  extractStridedSlice_apply _ _ _ _ _ fun a => by
    match a with
    | ⟨0, _⟩ => show 256 * 2 + k.val = 512 + k.val; omega
    | ⟨1, _⟩ => show q.val = 0 + q.val; omega

/-- The bias as a row repeated down the tile, at (p, q), is its entry q. -/
theorem bias_apply (b : FVec Ideal S256 .f32) (p : Fin 1024) (q : Fin 256) :
    broadcastTo S1024x256 (shapeCast S1x256 b shapeCasts_S256_S1x256) broadcasts_S1x256_S1024x256 (ix2 p q) = b (ix1 q) := by
  rw [broadcastTo_apply _ _ (ix2 p q) (ix2 (0 : Fin 1) q) (fun a => by
    match a with
    | ⟨0, _⟩ => rfl
    | ⟨1, _⟩ => rfl)]
  rw [shapeCast_addUnit_apply ![256] b shapeCasts_S256_S1x256]
  congr 1
  funext a
  match a with
  | ⟨0, _⟩ => rfl

/-- The body's payload at (p, q): the three contractions over the 256-row groups of the weight, the bias, the maximum with 0. -/
theorem pay_apply (x0 x1 x2 : Vec Ideal S1024x256 .f32) (w : Vec Ideal S768x256 .f32) (b : Vec Ideal S256 .f32)
    (p : Fin 1024) (q : Fin 256) :
    k2_pay1 x0 x1 x2 w b (ix2 p q)
      = max ((((∑ k : Fin 256, x0 (ix2 p k) * w (ix2 (Cert.Spec.w3row 0 k) q))
          + ∑ k : Fin 256, x1 (ix2 p k) * w (ix2 (Cert.Spec.w3row 1 k) q))
          + ∑ k : Fin 256, x2 (ix2 p k) * w (ix2 (Cert.Spec.w3row 2 k) q))
        + b (ix1 q)) 0 := by
  unfold k2_pay1
  simp only [maximumf_apply, addf_apply, broadcast_apply, mm_apply, bias_apply, slice0_apply, slice1_apply, slice2_apply,
    truncf_apply, shapeCast_self, Scalar.ofBits, Ideal.ofBits_def, Ideal.ofBits_zero_f32]

/-! ## The windows' blocks as entries of their arrays -/

/-- The windows' index maps at every grid point: the three row-tiled inputs and the output are at block (t, 0), the
    weight and the bias at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row p of the tile of point t is row 1024 · t + p of the array. -/
def tileRow (t : Fin cfg2.N) (p : Fin 1024) : Fin 8192 :=
  ⟨1024 * t.val + p.val, by have h : t.val < grid2.N := t.isLt; rw [N_2] at h; omega⟩

/-- The tile of x at point t, entry (p, k). -/
theorem blk0_apply (c : Dev nD) (t : Fin cfg2.N) (p : Fin 1024) (k : Fin 256) :
    (iblk2 V c 0 t : Vec Ideal S1024x256 .f32) (ix2 p k) = (V c main_arg3 : S8192x256.Idx → EReal) (ix2 (tileRow t p) k) := by
  obtain ⟨e0, e1, -⟩ := idx_facts t
  unfold iblk2
  rw [View.read_apply]
  show V c main_arg3 _ = V c main_arg3 _
  congr 1
  funext a
  apply Fin.ext
  match a with
  | ⟨0, _⟩ => show win2_0.index t (0 : Fin 2) * 1024 + 1 * p.val = 1024 * t.val + p.val; rw [e0]; omega
  | ⟨1, _⟩ => show win2_0.index t (1 : Fin 2) * 256 + 1 * k.val = k.val; rw [e1]; omega

/-- The tile of the first aggregate at point t, entry (p, k). -/
theorem blk1_apply (c : Dev nD) (t : Fin cfg2.N) (p : Fin 1024) (k : Fin 256) :
    (iblk2 V c 1 t : Vec Ideal S1024x256 .f32) (ix2 p k) = (V c main_v1_0 : S8192x256.Idx → EReal) (ix2 (tileRow t p) k) := by
  obtain ⟨-, -, e0, e1, -⟩ := idx_facts t
  unfold iblk2
  rw [View.read_apply]
  show V c main_v1_0 _ = V c main_v1_0 _
  congr 1
  funext a
  apply Fin.ext
  match a with
  | ⟨0, _⟩ => show win2_1.index t (0 : Fin 2) * 1024 + 1 * p.val = 1024 * t.val + p.val; rw [e0]; omega
  | ⟨1, _⟩ => show win2_1.index t (1 : Fin 2) * 256 + 1 * k.val = k.val; rw [e1]; omega

/-- The tile of the second aggregate at point t, entry (p, k). -/
theorem blk2_apply (c : Dev nD) (t : Fin cfg2.N) (p : Fin 1024) (k : Fin 256) :
    (iblk2 V c 2 t : Vec Ideal S1024x256 .f32) (ix2 p k) = (V c main_v1_1 : S8192x256.Idx → EReal) (ix2 (tileRow t p) k) := by
  obtain ⟨-, -, -, -, e0, e1, -⟩ := idx_facts t
  unfold iblk2
  rw [View.read_apply]
  show V c main_v1_1 _ = V c main_v1_1 _
  congr 1
  funext a
  apply Fin.ext
  match a with
  | ⟨0, _⟩ => show win2_2.index t (0 : Fin 2) * 1024 + 1 * p.val = 1024 * t.val + p.val; rw [e0]; omega
  | ⟨1, _⟩ => show win2_2.index t (1 : Fin 2) * 256 + 1 * k.val = k.val; rw [e1]; omega

/-- The weight's one block is the whole matrix. -/
theorem blk3_apply (c : Dev nD) (t : Fin cfg2.N) (r : Fin 768) (q : Fin 256) :
    (iblk2 V c 3 t : Vec Ideal S768x256 .f32) (ix2 r q) = (V c main_arg9 : S768x256.Idx → EReal) (ix2 r q) := by
  obtain ⟨-, -, -, -, -, -, e0, e1, -⟩ := idx_facts t
  unfold iblk2
  rw [View.read_apply]
  show V c main_arg9 _ = V c main_arg9 _
  congr 1
  funext a
  apply Fin.ext
  match a with
  | ⟨0, _⟩ => show win2_3.index t (0 : Fin 2) * 768 + 1 * r.val = r.val; rw [e0]; omega
  | ⟨1, _⟩ => show win2_3.index t (1 : Fin 2) * 256 + 1 * q.val = q.val; rw [e1]; omega

/-- The bias's one block is the whole vector. -/
theorem blk4_apply (c : Dev nD) (t : Fin cfg2.N) (q : Fin 256) :
    (iblk2 V c 4 t : Vec Ideal S256 .f32) (ix1 q) = (V c main_arg10 : S256.Idx → EReal) (ix1 q) := by
  obtain ⟨-, -, -, -, -, -, -, -, e0, -⟩ := idx_facts t
  unfold iblk2
  rw [View.read_apply]
  show V c main_arg10 _ = V c main_arg10 _
  congr 1
  funext a
  apply Fin.ext
  match a with
  | ⟨0, _⟩ => show win2_4.index t (0 : Fin 1) * 256 + 1 * q.val = q.val; rw [e0]; omega

/-! ## What a point writes back, and the cover -/

/-- The payload of the point's blocks at (p, q) is the last linear block of the arrays at (1024 · t + p, q). -/
theorem pay_blocks (c : Dev nD) (t : Fin cfg2.N) (j : S1024x256.Idx) :
    k2_pay1 (iblk2 V c 0 t) (iblk2 V c 1 t) (iblk2 V c 2 t) (iblk2 V c 3 t) (iblk2 V c 4 t) j
      = Cert.Spec.out (V c main_arg3) (V c main_v1_0) (V c main_v1_1) (V c main_arg9) (V c main_arg10) (ix2 (tileRow t (j 0)) (j 1)) := by
  obtain ⟨p, q, rfl⟩ : ∃ (p : Fin 1024) (q : Fin 256), j = ix2 p q := ⟨j 0, j 1, eq_ix2 j⟩
  rw [pay_apply]
  unfold Cert.Spec.out
  simp only [blk0_apply, blk1_apply, blk2_apply, blk3_apply, blk4_apply]

/-- What point t writes back is block t of the last linear block of the arrays. -/
theorem flushed_eq (c : Dev nD) (t : Fin cfg2.N) :
    (dat2 (F := Ideal) V c).flushed 5 t = ((cfg2.win 5).blk t).view.read (Elt Ideal)
      (Cert.Spec.out (V c main_arg3) (V c main_v1_0) (V c main_v1_1) (V c main_arg9) (V c main_arg10)) := by
  show (cfg2.win 5).cut (grid2.coords t) ((dat2 V c).after 5 t) = _
  rw [after2_5]
  obtain ⟨-, -, -, -, -, -, -, -, -, e0, e1⟩ := idx_facts t
  funext j
  show k2_pay1 (iblk2 V c 0 t) (iblk2 V c 1 t) (iblk2 V c 2 t) (iblk2 V c 3 t) (iblk2 V c 4 t) j
    = Cert.Spec.out (V c main_arg3) (V c main_v1_0) (V c main_v1_1) (V c main_arg9) (V c main_arg10) (((cfg2.win 5).blk t).view.emb j)
  rw [pay_blocks]
  congr 1
  funext a
  apply Fin.ext
  match a with
  | ⟨0, _⟩ => show 1024 * t.val + (j 0).val = win2_5.index t (0 : Fin 2) * 1024 + 1 * (j 0).val; rw [e0]; omega
  | ⟨1, _⟩ => show (j 1).val = win2_5.index t (1 : Fin 2) * 256 + 1 * (j 1).val; rw [e1]; omega

/-- An index of the array is in point t's block iff each coordinate is in the block's range on its axis. -/
theorem mem_blk (t : Fin cfg2.N) (i : S8192x256.Idx) :
    i ∈ ((cfg2.win 5).blk t).view.set ↔ ∀ a : Fin 2, win2_5.index t a * S1024x256.size a ≤ (i a).val ∧ (i a).val < win2_5.index t a * S1024x256.size a + S1024x256.size a := by
  show i ∈ ((View.whole main_v2).slice (win2_5.rect t)).set ↔ _
  rw [View.set_slice_whole, Rect.mem_set_unit]
  exact Iff.rfl

/-- Row r of the array lies in the block of point r / 1024, which writes it back. -/
theorem cover (i : S8192x256.Idx) :
    ∃ t : Fin cfg2.N, (cfg2.win 5).flush t = true ∧ i ∈ ((cfg2.win 5).blk t).view.set := by
  have hi0 : (i 0).val < 8192 := (i 0).isLt
  have hi1 : (i 1).val < 256 := (i 1).isLt
  have hN : grid2.N = 8 := N_2
  have ht : (i 0).val / 1024 < grid2.N := by omega
  obtain ⟨-, -, -, -, -, -, -, -, -, e0, e1⟩ := idx_facts ⟨(i 0).val / 1024, ht⟩
  refine ⟨⟨(i 0).val / 1024, ht⟩, flush2_5 _, ?_⟩
  rw [mem_blk]
  intro a
  match a with
  | ⟨0, _⟩ =>
    show win2_5.index ⟨(i 0).val / 1024, ht⟩ (0 : Fin 2) * 1024 ≤ (i 0).val ∧ (i 0).val < win2_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win2_5.index ⟨(i 0).val / 1024, ht⟩ (1 : Fin 2) * 256 ≤ (i 1).val ∧ (i 1).val < win2_5.index ⟨(i 0).val / 1024, ht⟩ (1 : Fin 2) * 256 + 256
    rw [e1]; omega

end Val2

/-- The output array after the region is the last linear block of x and the two aggregate arrays. -/
theorem out_eq (c : Dev nD) :
    ((dat2 (F := Ideal) V c).arrAt 5 cfg2.N : S8192x256.Idx → EReal)
      = Cert.Spec.out (V c main_arg3) (V c main_v1_0) (V c main_v1_1) (V c main_arg9) (V c main_arg10) :=
  (dat2 (F := Ideal) V c).arrAt_eq_of_cover 5
    (Cert.Spec.out (V c main_arg3) (V c main_v1_0) (V c main_v1_1) (V c main_arg9) (V c main_arg10))
    (fun t _ => Val2.flushed_eq V c t) Val2.cover

end Cert.KernelIdeal.Hand

end
-- ==== Proof.KIValue.lean ====
/-
  What the whole program leaves in the result array, at the ideal values: the three regions one after the other. The
  first leaves the two linear blocks of x, the second the aggregates of x under each block's similarities, the third the
  last linear block of x and the two aggregates; every argument holds its launch contents throughout. Together that
  is the computation G of the seven argument arrays.
-/
import proofs.«116829_j12214886990221_1_alg».proof.Proof.KIRunData
import proofs.«116829_j12214886990221_1_alg».proof.Proof.KIValue0
import proofs.«116829_j12214886990221_1_alg».proof.Proof.KIValue1
import proofs.«116829_j12214886990221_1_alg».proof.Proof.KIValue2
import proofs.«116829_j12214886990221_1_alg».proof.Proof.SpecLaws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The result array after the three regions is the whole computation of the seven argument arrays. -/
theorem res_eq (m : (ℓ : Loc nD τ sig) → Buf (Elt Ideal) ℓ) (c : Dev nD) :
    (res (F := Ideal) m c : S8192x256.Idx → EReal) = Cert.Spec.G (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res
  rw [out_eq (P2 m) c]
  show Cert.Spec.out (U2 m c main_arg3) (U2 m c main_v1_0) (U2 m c main_v1_1) (U2 m c main_arg9) (U2 m c main_arg10) = _
  rw [U2_main_arg3, U2_main_arg9, U2_main_arg10, U2_main_v1_0, U2_main_v1_1]
  unfold g1 g2
  rw [agg1_eq (P1 m) c, agg2_eq (P1 m) c]
  show Cert.Spec.out _ (Cert.Spec.agg (U1 m c main_v0_0) (U1 m c main_arg3)) (Cert.Spec.agg (U1 m c main_v0_1) (U1 m c main_arg3)) _ _ = _
  rw [U1_main_arg3, U1_main_v0_0, U1_main_v0_1]
  unfold e1 e2
  rw [e1_eq (P0 m) c, e2_eq (P0 m) c]
  rfl

end Cert.KernelIdeal.Hand

end
-- ==== Proof.RefVal.lean ====
/-
  The reference's result, read one operation at a time at the ideal values, is the specification: each linear block
  is the contraction with the weight matrix plus the broadcast bias, clamped below at zero; the similarity matrix is
  the product of a block with its own transpose divided by 256, which on the extended reals is the product with 1/256;
  each aggregate is the contraction of the similarity matrix with x over all 8192 rows; and the contraction of the
  concatenation [x, agg₁, agg₂] with the last weight matrix over its 768 rows is the sum of the three contractions
  over the 256-row groups.
-/
import proofs.«116829_j12214886990221_1_alg».proof.Proof.Gen.ReferenceIdeal.Run
import proofs.«116829_j12214886990221_1_alg».proof.Proof.Gen.ReferenceIdeal.Read
import proofs.«116829_j12214886990221_1_alg».proof.Proof.SpecLaws

noncomputable section

namespace Cert.RefValue

open Cert.ReferenceIdeal Cert.ReferenceIdeal.Gen Idealize.ShloMosaic Idealize.ShloMosaic.TcCoe Idealize.ShloMosaic.ValueIdx

/-! ## The reference's index functions are pairs of coordinates -/

theorem lidx_v0 (i : S8192x256.Idx) (k : Fin 256) : Read.lidx_main_v0 i k = ix2 (i 0) k :=
  funext fun a => Fin.ext (by match a with | ⟨0, _⟩ => rfl | ⟨1, _⟩ => rfl)
theorem ridx_v0 (i : S8192x256.Idx) (k : Fin 256) : Read.ridx_main_v0 i k = ix2 k (i 1) :=
  funext fun a => Fin.ext (by match a with | ⟨0, _⟩ => rfl | ⟨1, _⟩ => rfl)
theorem bidx_v2 (i : S8192x256.Idx) : Read.idx_main_v1 (Read.idx_main_v2 i) = ix1 (i 1) :=
  funext fun a => Fin.ext (by match a with | ⟨0, _⟩ => rfl)
theorem lidx_v9 (i : S8192x256.Idx) (k : Fin 256) : Read.lidx_main_v9 i k = ix2 (i 0) k :=
  funext fun a => Fin.ext (by match a with | ⟨0, _⟩ => rfl | ⟨1, _⟩ => rfl)
theorem ridx_v9 (i : S8192x256.Idx) (k : Fin 256) : Read.ridx_main_v9 i k = ix2 k (i 1) :=
  funext fun a => Fin.ext (by match a with | ⟨0, _⟩ => rfl | ⟨1, _⟩ => rfl)
theorem bidx_v11 (i : S8192x256.Idx) : Read.idx_main_v10 (Read.idx_main_v11 i) = ix1 (i 1) :=
  funext fun a => Fin.ext (by match a with | ⟨0, _⟩ => rfl)
theorem bidx_v23 (i : S8192x256.Idx) : Read.idx_main_v22 (Read.idx_main_v23 i) = ix1 (i 1) :=
  funext fun a => Fin.ext (by match a with | ⟨0, _⟩ => rfl)
/-- The product with the transpose reads row i of the left factor and row r of the transposed one. -/
theorem lidx_v6 (p q : Fin 8192) (k : Fin 256) : Read.lidx_main_v6 (ix2 p q) k = ix2 p k :=
  funext fun a => Fin.ext (by match a with | ⟨0, _⟩ => rfl | ⟨1, _⟩ => rfl)
theorem ridx_v6 (p q : Fin 8192) (k : Fin 256) : Read.idx_main_v5 (Read.ridx_main_v6 (ix2 p q) k) = ix2 q k :=
  funext fun a => Fin.ext (by match a with | ⟨0, _⟩ => rfl | ⟨1, _⟩ => rfl)
theorem lidx_v15 (p q : Fin 8192) (k : Fin 256) : Read.lidx_main_v15 (ix2 p q) k = ix2 p k :=
  funext fun a => Fin.ext (by match a with | ⟨0, _⟩ => rfl | ⟨1, _⟩ => rfl)
theorem ridx_v15 (p q : Fin 8192) (k : Fin 256) : Read.idx_main_v14 (Read.ridx_main_v15 (ix2 p q) k) = ix2 q k :=
  funext fun a => Fin.ext (by match a with | ⟨0, _⟩ => rfl | ⟨1, _⟩ => rfl)
theorem lidx_v18 (i : S8192x256.Idx) (r : Fin 8192) : Read.lidx_main_v18 i r = ix2 (i 0) r :=
  funext fun a => Fin.ext (by match a with | ⟨0, _⟩ => rfl | ⟨1, _⟩ => rfl)
theorem ridx_v18 (i : S8192x256.Idx) (r : Fin 8192) : Read.ridx_main_v18 i r = ix2 r (i 1) :=
  funext fun a => Fin.ext (by match a with | ⟨0, _⟩ => rfl | ⟨1, _⟩ => rfl)
theorem lidx_v19 (i : S8192x256.Idx) (r : Fin 8192) : Read.lidx_main_v19 i r = ix2 (i 0) r :=
  funext fun a => Fin.ext (by match a with | ⟨0, _⟩ => rfl | ⟨1, _⟩ => rfl)
theorem ridx_v19 (i : S8192x256.Idx) (r : Fin 8192) : Read.ridx_main_v19 i r = ix2 r (i 1) :=
  funext fun a => Fin.ext (by match a with | ⟨0, _⟩ => rfl | ⟨1, _⟩ => rfl)
theorem lidx_v21 (i : S8192x256.Idx) (c : Fin 768) : Read.lidx_main_v21 i c = ix2 (i 0) c :=
  funext fun a => Fin.ext (by match a with | ⟨0, _⟩ => rfl | ⟨1, _⟩ => rfl)
theorem ridx_v21 (i : S8192x256.Idx) (c : Fin 768) : Read.ridx_main_v21 i c = ix2 c (i 1) :=
  funext fun a => Fin.ext (by match a with | ⟨0, _⟩ => rfl | ⟨1, _⟩ => rfl)

variable (x3 : (⟨S8192x256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S768x256, .f32⟩ : BufTy).Contents (Elt Ideal))
    (x10 : (⟨S256, .f32⟩ : BufTy).Contents (Elt Ideal))

/-! ## The two linear blocks -/

/-- The first linear block: the contraction with the weights, plus the bias, clamped below at the zero word's value. -/
theorem lin1_eq : Read.val_main_v4 (F := Ideal) x3 x5 x6 = Cert.Spec.lin x3 x5 x6 := by
  funext i
  rw [Read.val_main_v4_apply, Read.val_main_v3_apply, Read.val_main_v0_apply, Read.val_main_v2_apply, Read.val_main_v1_apply,
    Read.val_main_call0_v0_apply, Read.val_main_call0_cst_apply]
  simp only [lidx_v0, ridx_v0, bidx_v2, Ideal.maximumf_def, Ideal.addf_def, Ideal.ofBits_def, Ideal.ofBits_zero_f32]
  rfl

/-- The second linear block. -/
theorem lin2_eq : Read.val_main_v13 (F := Ideal) x3 x7 x8 = Cert.Spec.lin x3 x7 x8 := by
  funext i
  rw [Read.val_main_v13_apply, Read.val_main_v12_apply, Read.val_main_v9_apply, Read.val_main_v11_apply, Read.val_main_v10_apply,
    Read.val_main_call1_v0_apply, Read.val_main_call1_cst_apply]
  simp only [lidx_v9, ridx_v9, bidx_v11, Ideal.maximumf_def, Ideal.addf_def, Ideal.ofBits_def, Ideal.ofBits_zero_f32]
  rfl

/-! ## The similarity matrices: e·eᵀ at (p, q) is Σ_l e(p,l)·e(q,l), and the quotient by 256 is the product with 1/256 -/

theorem sim1_eq (p q : Fin 8192) :
    Read.val_main_v8 (F := Ideal) x3 x5 x6 (ix2 p q) = Cert.Spec.sim (Cert.Spec.lin x3 x5 x6) p q := by
  rw [Read.val_main_v8_apply, Read.val_main_v6_apply, Read.val_main_v7_apply, Read.val_main_cst_apply]
  simp only [Read.val_main_v5_apply, lidx_v6, ridx_v6, lin1_eq, Ideal.hostDivf_def, Ideal.ofBits_def, Cert.Spec.ofBits_256,
    Cert.Spec.div_256]
  rfl

theorem sim2_eq (p q : Fin 8192) :
    Read.val_main_v17 (F := Ideal) x3 x7 x8 (ix2 p q) = Cert.Spec.sim (Cert.Spec.lin x3 x7 x8) p q := by
  rw [Read.val_main_v17_apply, Read.val_main_v15_apply, Read.val_main_v16_apply, Read.val_main_cst_0_apply]
  simp only [Read.val_main_v14_apply, lidx_v15, ridx_v15, lin2_eq, Ideal.hostDivf_def, Ideal.ofBits_def, Cert.Spec.ofBits_256,
    Cert.Spec.div_256]
  rfl

/-! ## The two aggregates -/

theorem agg1_eq : Read.val_main_v18 (F := Ideal) x3 x5 x6 = Cert.Spec.agg (Cert.Spec.lin x3 x5 x6) x3 := by
  funext i
  rw [Read.val_main_v18_apply]
  simp only [lidx_v18, ridx_v18]
  exact Finset.sum_congr rfl fun r _ => congrArg (fun t => t * x3 (ix2 r (i 1))) (sim1_eq x3 x5 x6 (i 0) r)

theorem agg2_eq : Read.val_main_v19 (F := Ideal) x3 x7 x8 = Cert.Spec.agg (Cert.Spec.lin x3 x7 x8) x3 := by
  funext i
  rw [Read.val_main_v19_apply]
  simp only [lidx_v19, ridx_v19]
  exact Finset.sum_congr rfl fun r _ => congrArg (fun t => t * x3 (ix2 r (i 1))) (sim2_eq x3 x7 x8 (i 0) r)

/-! ## The concatenation [x, agg₁, agg₂] read at a column of each 256-column group -/

theorem cat0_eq (p : Fin 8192) (k : Fin 256) :
    Read.val_main_v20 (F := Ideal) x3 x5 x6 x7 x8 (ix2 p (Cert.Spec.w3row 0 k)) = x3 (ix2 p k) := by
  unfold Read.val_main_v20
  generalize Read.val_main_v18 (F := Ideal) x3 x5 x6 = y1
  generalize Read.val_main_v19 (F := Ideal) x3 x7 x8 = y2
  exact concatenate_apply_piece (1 : Fin S8192x768.rank)
    [⟨S8192x256, x3⟩, ⟨S8192x256, y1⟩, ⟨S8192x256, y2⟩] concatenates_S8192x256_S8192x256_S8192x256_S8192x768_d1
    (ix2 p (Cert.Spec.w3row 0 k)) 0 (by simp) S8192x256 x3 rfl rfl 0 (by rfl) (ix2 p k)
    (fun b hb => by match b with | ⟨0, _⟩ => rfl | ⟨1, _⟩ => exact absurd rfl hb)
    (by show 0 + k.val = 256 * 0 + k.val; omega)

theorem cat1_eq (p : Fin 8192) (k : Fin 256) :
    Read.val_main_v20 (F := Ideal) x3 x5 x6 x7 x8 (ix2 p (Cert.Spec.w3row 1 k))
      = Read.val_main_v18 (F := Ideal) x3 x5 x6 (ix2 p k) := by
  unfold Read.val_main_v20
  generalize Read.val_main_v18 (F := Ideal) x3 x5 x6 = y1
  generalize Read.val_main_v19 (F := Ideal) x3 x7 x8 = y2
  exact concatenate_apply_piece (1 : Fin S8192x768.rank)
    [⟨S8192x256, x3⟩, ⟨S8192x256, y1⟩, ⟨S8192x256, y2⟩] concatenates_S8192x256_S8192x256_S8192x256_S8192x768_d1
    (ix2 p (Cert.Spec.w3row 1 k)) 1 (by simp) S8192x256 y1 rfl rfl 256 (by rfl) (ix2 p k)
    (fun b hb => by match b with | ⟨0, _⟩ => rfl | ⟨1, _⟩ => exact absurd rfl hb)
    (by show 256 + k.val = 256 * 1 + k.val; omega)

theorem cat2_eq (p : Fin 8192) (k : Fin 256) :
    Read.val_main_v20 (F := Ideal) x3 x5 x6 x7 x8 (ix2 p (Cert.Spec.w3row 2 k))
      = Read.val_main_v19 (F := Ideal) x3 x7 x8 (ix2 p k) := by
  unfold Read.val_main_v20
  generalize Read.val_main_v18 (F := Ideal) x3 x5 x6 = y1
  generalize Read.val_main_v19 (F := Ideal) x3 x7 x8 = y2
  exact concatenate_apply_piece (1 : Fin S8192x768.rank)
    [⟨S8192x256, x3⟩, ⟨S8192x256, y1⟩, ⟨S8192x256, y2⟩] concatenates_S8192x256_S8192x256_S8192x256_S8192x768_d1
    (ix2 p (Cert.Spec.w3row 2 k)) 2 (by simp) S8192x256 y2 rfl rfl 512 (by rfl) (ix2 p k)
    (fun b hb => by match b with | ⟨0, _⟩ => rfl | ⟨1, _⟩ => exact absurd rfl hb)
    (by show 512 + k.val = 256 * 2 + k.val; omega)

/-- The reference's last stage is the specification of its arguments. -/
theorem ref_eq (x3 : (⟨S8192x256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S768x256, .f32⟩ : BufTy).Contents (Elt Ideal))
    (x10 : (⟨S256, .f32⟩ : BufTy).Contents (Elt Ideal)) :
    Cert.ReferenceIdeal.Read.val_main_v25 (F := Ideal) x3 x5 x6 x7 x8 x9 x10 = Cert.Spec.G x3 x5 x6 x7 x8 x9 x10 := by
  funext i
  rw [Read.val_main_v25_apply, Read.val_main_v24_apply, Read.val_main_v21_apply, Read.val_main_v23_apply, Read.val_main_v22_apply,
    Read.val_main_call2_v0_apply, Read.val_main_call2_cst_apply, Cert.Spec.sum_three]
  simp only [lidx_v21, ridx_v21, bidx_v23, Ideal.maximumf_def, Ideal.addf_def, Ideal.ofBits_def, Ideal.ofBits_zero_f32]
  exact congrArg (fun t => max (t + x10 (ix1 (i 1))) 0) (congrArg₂ (· + ·) (congrArg₂ (· + ·)
    (Finset.sum_congr rfl fun k _ => congrArg (fun t => t * x9 (ix2 (Cert.Spec.w3row 0 k) (i 1))) (cat0_eq x3 x5 x6 x7 x8 (i 0) k))
    (Finset.sum_congr rfl fun k _ => congrArg (fun t => t * x9 (ix2 (Cert.Spec.w3row 1 k) (i 1)))
      ((cat1_eq x3 x5 x6 x7 x8 (i 0) k).trans (congrFun (agg1_eq x3 x5 x6) (ix2 (i 0) k)))))
    (Finset.sum_congr rfl fun k _ => congrArg (fun t => t * x9 (ix2 (Cert.Spec.w3row 2 k) (i 1)))
      ((cat2_eq x3 x5 x6 x7 x8 (i 0) k).trans (congrFun (agg2_eq x3 x7 x8) (ix2 (i 0) k)))))

end Cert.RefValue

end
-- ==== Proof.lean ====
/-
  The certificate of the three-kernel message-passing block against its reference.

  The program is three kernel regions. The first computes the two linear blocks e₁ = max(x·W₁ + b₁, 0) and
  e₂ = max(x·W₂ + b₂, 0), a 1024-row tile per grid point. The second computes the two aggregates
  aggₖ = ((eₖ·eₖᵀ)·(1/256))·x tile by tile without ever forming the 8192 × 8192 similarity matrix: for a 512-row tile of
  eₖ it walks the eight 1024-row key blocks, adding each block's contribution to an accumulator kept between the
  grid points and writing the tile out after the last block. The third computes
  max(x·W3[0:256] + agg₁·W3[256:512] + agg₂·W3[512:768] + b₃, 0). The reference computes the same with whole-array
  operations: the similarity matrix divided by 256, its product with x, the concatenation [x, agg₁, agg₂] against W3.

  On the extended reals the two agree index by index, for every input: dividing by 256 is multiplying by 1/256, the
  kernel's scale word is exactly 2⁻⁸, a change of float format is the identity, and the remaining differences are
  regroupings of sums in a commutative monoid (eight key blocks of 1024 rows against 8192 rows at once; three groups
  of 256 weight rows against 768 at once; an accumulator started at zero). No step needs the inputs to be finite.

  Each program's frame (it terminates, faults nowhere, leaves its arguments unchanged) is the run of its three regions
  one after the other; the word-level program's is the same argument as the idealized program's.
-/
import proofs.«116829_j12214886990221_1_alg».proof.Defs
import proofs.«116829_j12214886990221_1_alg».proof.Proof.Gen.Kernel
import proofs.«116829_j12214886990221_1_alg».proof.Proof.Gen.KernelIdeal
import proofs.«116829_j12214886990221_1_alg».proof.Proof.Gen.ReferenceIdeal
import proofs.«116829_j12214886990221_1_alg».proof.Proof.Gen.Pre_finite_inputs
import proofs.«116829_j12214886990221_1_alg».proof.Proof.Gen.ReferenceIdeal.Run
import proofs.«116829_j12214886990221_1_alg».proof.Proof.Gen.ReferenceIdeal.Read
import proofs.«116829_j12214886990221_1_alg».proof.Proof.KRunMain
import proofs.«116829_j12214886990221_1_alg».proof.Proof.KIRunMain
import proofs.«116829_j12214886990221_1_alg».proof.Proof.KIRunVal
import proofs.«116829_j12214886990221_1_alg».proof.Proof.KIValue
import proofs.«116829_j12214886990221_1_alg».proof.Proof.RefVal

noncomputable section

namespace Cert.Proof

open Idealize.ShloMosaic Idealize.ShloMosaic.TcCoe Idealize.SL.Sem

/-- The word-level program runs to the end and leaves its arguments unchanged. -/
theorem frame_kernel : Cert.frame_Kernel := fun m ρ _ => Cert.Kernel.Hand.frame (F := Bits) m ρ

/-- The idealized program runs to the end and leaves its arguments unchanged. -/
theorem frame_kernelIdeal : Cert.frame_KernelIdeal := fun m ρ _ => Cert.KernelIdeal.Hand.frame (F := Ideal) m ρ

/-- The reference runs to the end and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the specification of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Hand.res_eq m c), (h c).2⟩)
      (Cert.KernelIdeal.Hand.run_val (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v25_eq, Cert.RefValue.ref_eq]
    obtain ⟨-, -, -, h3, -, h5, h6, h7, h8, h9, h10⟩ := hagree c
    rw [h3, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
